-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x128 : Shape := ⟨4, ![8, 128, 128, 128]⟩
abbrev S8x512x512 : Shape := ⟨3, ![8, 512, 512]⟩
abbrev S_ : Shape := ⟨0, ![]⟩

class Facts : Prop where
  bcast_S_S8x128x128x128 : S_.BroadcastsInDim S8x128x128x128 (![] : Fin 0 → Fin S8x128x128x128.rank)
  reducesTo_S8x128x128x128_S_d0_1_2_3 : S8x128x128x128.ReducesTo [0, 1, 2, 3] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_

variable [Facts]

def fn {F : FTy → Type} [FloatOps F] (main_arg0 : FVec F S8x128x128x128 .f32) (main_arg1 : IVec S8x512x512 32) : IVec S_ 1 :=
  let main_v0 : FVec F S8x128x128x128 .f32 := Host.absf main_arg0
  let main_cst : FVec F S_ .f32 := constant S_ .f32 0x7F800000#32
  let main_v1 : FVec F S8x128x128x128 .f32 := broadcastInDim S8x128x128x128 ![] bcast_S_S8x128x128x128 main_cst
  let main_v2 : IVec S8x128x128x128 1 := cmpf .olt main_v0 main_v1
  let main_c : IVec S_ 1 := constantI S_ 1 1#1
  let main_v3 : IVec S_ 1 := (fun x v => Host.reduce IntOp.andi x v reducesTo_S8x128x128x128_S_d0_1_2_3 h_S_) main_v2 main_c
  let main_c_0 : IVec S_ 32 := constantI S_ 32 4294967295#32
  let main_v4 : IVec S8x512x512 32 := broadcastInDim S8x512x512 ![] bcast_S_S8x512x512 main_c_0
  let main_v5 : IVec S8x512x512 1 := cmpi .sge main_arg1 main_v4
  let main_c_1 : IVec S_ 32 := constantI S_ 32 24#32
  let main_v6 : IVec S8x512x512 32 := broadcastInDim S8x512x512 ![] bcast_S_S8x512x512 main_c_1
  let main_v7 : IVec S8x512x512 1 := cmpi .slt main_arg1 main_v6
  let main_v8 : IVec S8x512x512 1 := andi main_v5 main_v7
  let main_c_2 : IVec S_ 1 := constantI S_ 1 1#1
  let main_v9 : IVec S_ 1 := (fun x v => Host.reduce IntOp.andi x v reducesTo_S8x512x512_S_d0_1_2 h_S_) main_v8 main_c_2
  let main_v10 : IVec S_ 1 := andi main_v3 main_v9
  main_v10
-- ==== Kernel.lean ====
abbrev S8x128x128x128 : Shape := ⟨4, ![8, 128, 128, 128]⟩
abbrev S8x512x512 : Shape := ⟨3, ![8, 512, 512]⟩
abbrev S8x128x16384 : Shape := ⟨3, ![8, 128, 16384]⟩
abbrev S8x128x4x128x4 : Shape := ⟨5, ![8, 128, 4, 128, 4]⟩
abbrev S8x4x4x128x128 : Shape := ⟨5, ![8, 4, 4, 128, 128]⟩
abbrev S8x128x24 : Shape := ⟨3, ![8, 128, 24]⟩
abbrev S8x1x24 : Shape := ⟨3, ![8, 1, 24]⟩
abbrev S1x128x4096 : Shape := ⟨3, ![1, 128, 4096]⟩
abbrev S1x4x4x32x128 : Shape := ⟨5, ![1, 4, 4, 32, 128]⟩
abbrev S1x128x24 : Shape := ⟨3, ![1, 128, 24]⟩
abbrev S1x1x24 : Shape := ⟨3, ![1, 1, 24]⟩
abbrev S128x128 : Shape := ⟨2, ![128, 128]⟩
abbrev S8x128 : Shape := ⟨2, ![8, 128]⟩
abbrev S32x128x128 : Shape := ⟨3, ![32, 128, 128]⟩
abbrev S1x1x1x32x128 : Shape := ⟨5, ![1, 1, 1, 32, 128]⟩
abbrev S32x128 : Shape := ⟨2, ![32, 128]⟩
abbrev S32x128x1 : Shape := ⟨3, ![32, 128, 1]⟩
abbrev S4096x128 : Shape := ⟨2, ![4096, 128]⟩
abbrev S128x4096 : Shape := ⟨2, ![128, 4096]⟩
abbrev S8x4096 : Shape := ⟨2, ![8, 4096]⟩
abbrev S128x24 : Shape := ⟨2, ![128, 24]⟩
abbrev S1x24 : Shape := ⟨2, ![1, 24]⟩
abbrev S8x24 : Shape := ⟨2, ![8, 24]⟩

abbrev nBuf : Space → Nat
  | .hbm => 8
  | .vmem => 10
  | .smem => 0
  | _ => 0

abbrev bufTy : (tb : Table) → Fin (tcTables nBuf tb) → BufTy
  | .hbm, ⟨0, _⟩ => ⟨S8x128x128x128, .f32⟩
  | .hbm, ⟨1, _⟩ => ⟨S8x512x512, .i32⟩
  | .hbm, ⟨2, _⟩ => ⟨S8x128x16384, .f32⟩
  | .hbm, ⟨3, _⟩ => ⟨S8x128x4x128x4, .i32⟩
  | .hbm, ⟨4, _⟩ => ⟨S8x4x4x128x128, .i32⟩
  | .hbm, ⟨5, _⟩ => ⟨S8x128x24, .f32⟩
  | .hbm, ⟨6, _⟩ => ⟨S8x1x24, .f32⟩
  | .hbm, ⟨7, _⟩ => ⟨S8x24, .f32⟩
  | .local _ .vmem, ⟨0, _⟩ => ⟨S1x128x4096, .f32⟩
  | .local _ .vmem, ⟨1, _⟩ => ⟨S1x128x4096, .f32⟩
  | .local _ .vmem, ⟨2, _⟩ => ⟨S1x4x4x32x128, .i32⟩
  | .local _ .vmem, ⟨3, _⟩ => ⟨S1x4x4x32x128, .i32⟩
  | .local _ .vmem, ⟨4, _⟩ => ⟨S1x128x24, .f32⟩
  | .local _ .vmem, ⟨5, _⟩ => ⟨S1x128x24, .f32⟩
  | .local _ .vmem, ⟨6, _⟩ => ⟨S1x1x24, .f32⟩
  | .local _ .vmem, ⟨7, _⟩ => ⟨S1x1x24, .f32⟩
  | .local _ .vmem, ⟨8, _⟩ => ⟨S128x128, .f32⟩
  | .local _ .vmem, ⟨9, _⟩ => ⟨S8x128, .f32⟩
  | _, _ => ⟨S8x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v151 : BitVec 1 := Scalar.cmpi .eq arg1 c3_i32
  let v152 : BitVec 32 := Scalar.extui v151
  let c0_i32_91 : BitVec 32 := 0#32
  let v153 : BitVec 1 := Scalar.cmpi .ne v152 c0_i32_91
  v153

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x4x32x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x24 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x24 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8x128x128x128_S8x128x16384 : S8x128x128x128.ShapeCasts S8x128x16384
  shapeCasts_S8x512x512_S8x128x4x128x4 : S8x512x512.ShapeCasts S8x128x4x128x4
  transposes_S8x128x4x128x4_S8x4x4x128x128_0_2_4_1_3 : S8x128x4x128x4.Transposes [0, 2, 4, 1, 3] S8x4x4x128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  iota_S32x128x128_d2_w32 : S32x128x128.Iotas .tc 32 [2]
  inb_S1x4x4x32x128_S1x1x1x32x128_0_0_0_0_0 : ∀ a, (![0, 0, 0, 0, 0] : Fin 5 → Nat) a + S1x1x1x32x128.size a ≤ S1x4x4x32x128.size a
  h_S1x1x1x32x128 : 0 < S1x1x1x32x128.numel
  shapeCasts_S1x1x1x32x128_S32x128 : S1x1x1x32x128.ShapeCasts S32x128
  shapeCasts_S32x128_S32x128x1 : S32x128.ShapeCasts S32x128x1
  broadcasts_S32x128x1_S32x128x128 : S32x128x1.Broadcasts S32x128x128
  natLt_1_32 : 1 < 32
  inb_S1x4x4x32x128_S1x1x1x32x128_0_0_1_0_0 : ∀ a, (![0, 0, 1, 0, 0] : Fin 5 → Nat) a + S1x1x1x32x128.size a ≤ S1x4x4x32x128.size a
  inb_S1x4x4x32x128_S1x1x1x32x128_0_0_2_0_0 : ∀ a, (![0, 0, 2, 0, 0] : Fin 5 → Nat) a + S1x1x1x32x128.size a ≤ S1x4x4x32x128.size a
  inb_S1x4x4x32x128_S1x1x1x32x128_0_0_3_0_0 : ∀ a, (![0, 0, 3, 0, 0] : Fin 5 → Nat) a + S1x1x1x32x128.size a ≤ S1x4x4x32x128.size a
  inb_S1x4x4x32x128_S1x1x1x32x128_0_1_0_0_0 : ∀ a, (![0, 1, 0, 0, 0] : Fin 5 → Nat) a + S1x1x1x32x128.size a ≤ S1x4x4x32x128.size a
  inb_S1x4x4x32x128_S1x1x1x32x128_0_1_1_0_0 : ∀ a, (![0, 1, 1, 0, 0] : Fin 5 → Nat) a + S1x1x1x32x128.size a ≤ S1x4x4x32x128.size a
  inb_S1x4x4x32x128_S1x1x1x32x128_0_1_2_0_0 : ∀ a, (![0, 1, 2, 0, 0] : Fin 5 → Nat) a + S1x1x1x32x128.size a ≤ S1x4x4x32x128.size a
  inb_S1x4x4x32x128_S1x1x1x32x128_0_1_3_0_0 : ∀ a, (![0, 1, 3, 0, 0] : Fin 5 → Nat) a + S1x1x1x32x128.size a ≤ S1x4x4x32x128.size a
  inb_S1x4x4x32x128_S1x1x1x32x128_0_2_0_0_0 : ∀ a, (![0, 2, 0, 0, 0] : Fin 5 → Nat) a + S1x1x1x32x128.size a ≤ S1x4x4x32x128.size a
  inb_S1x4x4x32x128_S1x1x1x32x128_0_2_1_0_0 : ∀ a, (![0, 2, 1, 0, 0] : Fin 5 → Nat) a + S1x1x1x32x128.size a ≤ S1x4x4x32x128.size a
  inb_S1x4x4x32x128_S1x1x1x32x128_0_2_2_0_0 : ∀ a, (![0, 2, 2, 0, 0] : Fin 5 → Nat) a + S1x1x1x32x128.size a ≤ S1x4x4x32x128.size a
  inb_S1x4x4x32x128_S1x1x1x32x128_0_2_3_0_0 : ∀ a, (![0, 2, 3, 0, 0] : Fin 5 → Nat) a + S1x1x1x32x128.size a ≤ S1x4x4x32x128.size a
  inb_S1x4x4x32x128_S1x1x1x32x128_0_3_0_0_0 : ∀ a, (![0, 3, 0, 0, 0] : Fin 5 → Nat) a + S1x1x1x32x128.size a ≤ S1x4x4x32x128.size a
  inb_S1x4x4x32x128_S1x1x1x32x128_0_3_1_0_0 : ∀ a, (![0, 3, 1, 0, 0] : Fin 5 → Nat) a + S1x1x1x32x128.size a ≤ S1x4x4x32x128.size a
  inb_S1x4x4x32x128_S1x1x1x32x128_0_3_2_0_0 : ∀ a, (![0, 3, 2, 0, 0] : Fin 5 → Nat) a + S1x1x1x32x128.size a ≤ S1x4x4x32x128.size a
  inb_S1x4x4x32x128_S1x1x1x32x128_0_3_3_0_0 : ∀ a, (![0, 3, 3, 0, 0] : Fin 5 → Nat) a + S1x1x1x32x128.size a ≤ S1x4x4x32x128.size a
  shapeCasts_S32x128x128_S4096x128 : S32x128x128.ShapeCasts S4096x128
  bitsLt_bf16_f32 : FTy.bits .bf16 < FTy.bits .f32
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  inb_S128x128_S128x24_0_0 : ∀ a, (![0, 0] : Fin 2 → Nat) a + S128x24.size a ≤ S128x128.size a
  h_S128x24 : 0 < S128x24.numel
  inb_S8x128_S1x24_0_0 : ∀ a, (![0, 0] : Fin 2 → Nat) a + S1x24.size a ≤ S8x128.size a
  h_S1x24 : 0 < S1x24.numel
  broadcasts_S1x24_S128x24 : S1x24.Broadcasts S128x24
  inb_S1x128x24_S1x128x24_0_0_0 : ∀ a, (![0, 0, 0] : Fin 3 → Nat) a + S1x128x24.size a ≤ S1x128x24.size a
  h_S1x128x24 : 0 < S1x128x24.numel
  shapeCasts_S1x128x24_S128x24 : S1x128x24.ShapeCasts S128x24
  shapeCasts_S128x24_S1x128x24 : S128x24.ShapeCasts S1x128x24
  inb_S1x1x24_S1x1x24_0_0_0 : ∀ a, (![0, 0, 0] : Fin 3 → Nat) a + S1x1x24.size a ≤ S1x1x24.size a
  h_S1x1x24 : 0 < S1x1x24.numel
  shapeCasts_S1x1x24_S1x24 : S1x1x24.ShapeCasts S1x24
  shapeCasts_S1x24_S1x1x24 : S1x24.ShapeCasts S1x1x24
  shapeCasts_S8x1x24_S8x24 : S8x1x24.ShapeCasts S8x24
  dot_S128x4096_S4096x128_S128x128_1_0_0_1_n_n_wf : DotDims.WF S128x4096 S4096x128 S128x128 [1] [0] [0] [1] [] []
  dot_S8x4096_S4096x128_S8x128_1_0_0_1_n_n_wf : DotDims.WF S8x4096 S4096x128 S8x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S8x128x16384.size a
  hwx0_0 : ∀ i : grid0.Coords, EltTy.bits .f32 = 32 ∨ (Rect.block (s := S8x128x16384) S1x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x4x32x128.size a ≤ S8x4x4x128x128.size a
  hwx0_1 : ∀ i : grid0.Coords, EltTy.bits .i32 = 32 ∨ (Rect.block (s := S8x4x4x128x128) S1x4x4x32x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x24.size a ≤ S8x128x24.size a
  hwx0_2 : ∀ i : grid0.Coords, EltTy.bits .f32 = 32 ∨ (Rect.block (s := S8x128x24) S1x128x24.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x24.size a ≤ S8x1x24.size a
  hwx0_3 : ∀ i : grid0.Coords, EltTy.bits .f32 = 32 ∨ (Rect.block (s := S8x1x24) S1x1x24.size (cc0_transform_3 i) (hinb0_3 i)).WholeWords (EltTy.packing .f32)

variable [Facts₀]

def dot_S128x4096_S4096x128_S128x128_1_0_0_1_n_n : DotDims S128x4096 S4096x128 S128x128 where
  lhsContracting := [1]
  rhsContracting := [0]
  lhsNonContracting := [0]
  rhsNonContracting := [1]
  lhsBatch := []
  rhsBatch := []
  wf := dot_S128x4096_S4096x128_S128x128_1_0_0_1_n_n_wf
def dot_S8x4096_S4096x128_S8x128_1_0_0_1_n_n : DotDims S8x4096 S4096x128 S8x128 where
  lhsContracting := [1]
  rhsContracting := [0]
  lhsNonContracting := [0]
  rhsNonContracting := [1]
  lhsBatch := []
  rhsBatch := []
  wf := dot_S8x4096_S4096x128_S8x128_1_0_0_1_n_n_wf

abbrev win0_0 : Pipeline.Window sig grid0 :=
  Pipeline.Window.ofSpec (Memref.whole main_v0) S1x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x4x4x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x128x24.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x1x24.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x128x128x128 : Shape := ⟨4, ![8, 128, 128, 128]⟩
abbrev S8x512x512 : Shape := ⟨3, ![8, 512, 512]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S512x512x1 : Shape := ⟨3, ![512, 512, 1]⟩
abbrev S512x512x2 : Shape := ⟨3, ![512, 512, 2]⟩
abbrev S8x128x512x512 : Shape := ⟨4, ![8, 128, 512, 512]⟩
abbrev S8 : Shape := ⟨1, ![8]⟩
abbrev S8x1x1 : Shape := ⟨3, ![8, 1, 1]⟩
abbrev S2097152 : Shape := ⟨1, ![2097152]⟩
abbrev S8x1x512x512 : Shape := ⟨4, ![8, 1, 512, 512]⟩
abbrev S8x512x512x128 : Shape := ⟨4, ![8, 512, 512, 128]⟩
abbrev S2097152x128 : Shape := ⟨2, ![2097152, 128]⟩
abbrev S192x128 : Shape := ⟨2, ![192, 128]⟩
abbrev S2097152x1 : Shape := ⟨2, ![2097152, 1]⟩
abbrev S8x24x128 : Shape := ⟨3, ![8, 24, 128]⟩
abbrev S192 : Shape := ⟨1, ![192]⟩
abbrev S8x24 : Shape := ⟨2, ![8, 24]⟩
abbrev S8x24x1 : Shape := ⟨3, ![8, 24, 1]⟩
abbrev S8x128x24 : Shape := ⟨3, ![8, 128, 24]⟩

abbrev nBuf : Space → Nat
  | .hbm => 112
  | .vmem => 0
  | .smem => 0
  | _ => 0

abbrev bufTy : (tb : Table) → Fin (tcTables nBuf tb) → BufTy
  | .hbm, ⟨0, _⟩ => ⟨S8x128x128x128, .f32⟩
  | .hbm, ⟨1, _⟩ => ⟨S8x512x512, .i32⟩
  | .hbm, ⟨2, _⟩ => ⟨S512, .i32⟩
  | .hbm, ⟨3, _⟩ => ⟨S_, .i32⟩
  | .hbm, ⟨4, _⟩ => ⟨S512, .i32⟩
  | .hbm, ⟨5, _⟩ => ⟨S512, .i32⟩
  | .hbm, ⟨6, _⟩ => ⟨S_, .i32⟩
  | .hbm, ⟨7, _⟩ => ⟨S_, .i32⟩
  | .hbm, ⟨8, _⟩ => ⟨S512, .i32⟩
  | .hbm, ⟨9, _⟩ => ⟨S512, .i32⟩
  | .hbm, ⟨10, _⟩ => ⟨S512, .i32⟩
  | .hbm, ⟨11, _⟩ => ⟨S_, .i32⟩
  | .hbm, ⟨12, _⟩ => ⟨S512, .i32⟩
  | .hbm, ⟨13, _⟩ => ⟨S512, .i1⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S512, .i32⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S_, .i32⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S512x1, .i32⟩
  | .hbm, ⟨47, _⟩ => ⟨S1x512, .i32⟩
  | .hbm, ⟨48, _⟩ => ⟨S_, .i32⟩
  | .hbm, ⟨49, _⟩ => ⟨S512x1, .i32⟩
  | .hbm, ⟨50, _⟩ => ⟨S512x1, .i1⟩
  | .hbm, ⟨51, _⟩ => ⟨S_, .i32⟩
  | .hbm, ⟨52, _⟩ => ⟨S512x1, .i32⟩
  | .hbm, ⟨53, _⟩ => ⟨S512x1, .i32⟩
  | .hbm, ⟨54, _⟩ => ⟨S512x1, .i32⟩
  | .hbm, ⟨55, _⟩ => ⟨S_, .i32⟩
  | .hbm, ⟨56, _⟩ => ⟨S1x512, .i32⟩
  | .hbm, ⟨57, _⟩ => ⟨S1x512, .i1⟩
  | .hbm, ⟨58, _⟩ => ⟨S_, .i32⟩
  | .hbm, ⟨59, _⟩ => ⟨S1x512, .i32⟩
  | .hbm, ⟨60, _⟩ => ⟨S1x512, .i32⟩
  | .hbm, ⟨61, _⟩ => ⟨S1x512, .i32⟩
  | .hbm, ⟨62, _⟩ => ⟨S512x512, .i32⟩
  | .hbm, ⟨63, _⟩ => ⟨S512x512, .i32⟩
  | .hbm, ⟨64, _⟩ => ⟨S512x512x1, .i32⟩
  | .hbm, ⟨65, _⟩ => ⟨S512x512x1, .i32⟩
  | .hbm, ⟨66, _⟩ => ⟨S512x512x2, .i32⟩
  | .hbm, ⟨67, _⟩ => ⟨S8x128x512x512, .f32⟩
  | .hbm, ⟨68, _⟩ => ⟨S_, .i32⟩
  | .hbm, ⟨69, _⟩ => ⟨S8x512x512, .i32⟩
  | .hbm, ⟨70, _⟩ => ⟨S8x512x512, .i1⟩
  | .hbm, ⟨71, _⟩ => ⟨S_, .i32⟩
  | .hbm, ⟨72, _⟩ => ⟨S_, .i32⟩
  | .hbm, ⟨73, _⟩ => ⟨S8x512x512, .i32⟩
  | .hbm, ⟨74, _⟩ => ⟨S8x512x512, .i32⟩
  | .hbm, ⟨75, _⟩ => ⟨S8, .i32⟩
  | .hbm, ⟨76, _⟩ => ⟨S8x1x1, .i32⟩
  | .hbm, ⟨77, _⟩ => ⟨S_, .i32⟩
  | .hbm, ⟨78, _⟩ => ⟨S8x1x1, .i32⟩
  | .hbm, ⟨79, _⟩ => ⟨S8x1x1, .i32⟩
  | .hbm, ⟨80, _⟩ => ⟨S8x512x512, .i32⟩
  | .hbm, ⟨81, _⟩ => ⟨S8x512x512, .i32⟩
  | .hbm, ⟨82, _⟩ => ⟨S2097152, .i32⟩
  | .hbm, ⟨83, _⟩ => ⟨S8x1x512x512, .i1⟩
  | .hbm, ⟨84, _⟩ => ⟨S8x1x512x512, .f32⟩
  | .hbm, ⟨85, _⟩ => ⟨S8x128x512x512, .f32⟩
  | .hbm, ⟨86, _⟩ => ⟨S8x128x512x512, .f32⟩
  | .hbm, ⟨87, _⟩ => ⟨S8x512x512x128, .f32⟩
  | .hbm, ⟨88, _⟩ => ⟨S2097152x128, .f32⟩
  | .hbm, ⟨89, _⟩ => ⟨S_, .f32⟩
  | .hbm, ⟨90, _⟩ => ⟨S192x128, .f32⟩
  | .hbm, ⟨91, _⟩ => ⟨S2097152x1, .i32⟩
  | .hbm, ⟨92, _⟩ => ⟨S192x128, .f32⟩
  | .hbm, ⟨93, _⟩ => ⟨S8x24x128, .f32⟩
  | .hbm, ⟨94, _⟩ => ⟨S2097152, .i1⟩
  | .hbm, ⟨95, _⟩ => ⟨S2097152, .f32⟩
  | .hbm, ⟨96, _⟩ => ⟨S_, .f32⟩
  | .hbm, ⟨97, _⟩ => ⟨S192, .f32⟩
  | .hbm, ⟨98, _⟩ => ⟨S2097152x1, .i32⟩
  | .hbm, ⟨99, _⟩ => ⟨S192, .f32⟩
  | .hbm, ⟨100, _⟩ => ⟨S8x24, .f32⟩
  | .hbm, ⟨101, _⟩ => ⟨S8x24x1, .f32⟩
  | .hbm, ⟨102, _⟩ => ⟨S_, .f32⟩
  | .hbm, ⟨103, _⟩ => ⟨S8x24x1, .f32⟩
  | .hbm, ⟨104, _⟩ => ⟨S8x24x1, .f32⟩
  | .hbm, ⟨105, _⟩ => ⟨S8x24x128, .f32⟩
  | .hbm, ⟨106, _⟩ => ⟨S8x24x128, .f32⟩
  | .hbm, ⟨107, _⟩ => ⟨S8x128x24, .f32⟩
  | .hbm, ⟨108, _⟩ => ⟨S_, .f32⟩
  | .hbm, ⟨109, _⟩ => ⟨S8x24, .f32⟩
  | .hbm, ⟨110, _⟩ => ⟨S8x24, .i1⟩
  | .hbm, ⟨111, _⟩ => ⟨S8x24, .f32⟩
  | _, _ => ⟨S8x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v3 : Ref sig .tc := ⟨.hbm, 23, rfl⟩
abbrev main_v4 : Ref sig .tc := ⟨.hbm, 24, rfl⟩
abbrev main_c_1 : Ref sig .tc := ⟨.hbm, 25, rfl⟩
abbrev main_v5 : Ref sig .tc := ⟨.hbm, 26, rfl⟩
abbrev main_v6 : Ref sig .tc := ⟨.hbm, 27, rfl⟩
abbrev main_c_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_c_3 : Ref sig .tc := ⟨.hbm, 48, rfl⟩
abbrev main_v10 : Ref sig .tc := ⟨.hbm, 49, rfl⟩
abbrev main_v11 : Ref sig .tc := ⟨.hbm, 50, rfl⟩
abbrev main_c_4 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_c_5 : Ref sig .tc := ⟨.hbm, 55, rfl⟩
abbrev main_v15 : Ref sig .tc := ⟨.hbm, 56, rfl⟩
abbrev main_v16 : Ref sig .tc := ⟨.hbm, 57, rfl⟩
abbrev main_c_6 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_c_7 : Ref sig .tc := ⟨.hbm, 68, rfl⟩
abbrev main_v26 : Ref sig .tc := ⟨.hbm, 69, rfl⟩
abbrev main_v27 : Ref sig .tc := ⟨.hbm, 70, rfl⟩
abbrev main_c_8 : Ref sig .tc := ⟨.hbm, 71, rfl⟩
abbrev main_call2_v0 : Ref sig .tc := ⟨.hbm, 72, rfl⟩
abbrev main_call2_v1 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_c_9 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_cst : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_cst_10 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_cst_11 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_cst_12 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S512x1_0 : S512.BroadcastsInDim S512x1 (![0] : Fin 1 → Fin S512x1.rank)
  bcast_S512_S1x512_1 : S512.BroadcastsInDim S1x512 (![1] : Fin 1 → Fin S1x512.rank)
  bcast_S_S512x1 : S_.BroadcastsInDim S512x1 (![] : Fin 0 → Fin S512x1.rank)
  bcast_S_S1x512 : S_.BroadcastsInDim S1x512 (![] : Fin 0 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S512x512_S512x512x1_0_1 : S512x512.BroadcastsInDim S512x512x1 (![0, 1] : Fin 2 → Fin S512x512x1.rank)
  concatenates_S512x512x1_S512x512x1_S512x512x2_d2 : Shape.Concatenates [S512x512x1, S512x512x1] S512x512x2 2
  bcast_S_S8x512x512 : S_.BroadcastsInDim S8x512x512 (![] : Fin 0 → Fin S8x512x512.rank)
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x512x512_0_1_2 : S8x1x1.BroadcastsInDim S8x512x512 (![0, 1, 2] : Fin 3 → Fin S8x512x512.rank)
  shapeCasts_S8x512x512_S2097152 : S8x512x512.ShapeCasts S2097152
  bcast_S8x512x512_S8x1x512x512_0_2_3 : S8x512x512.BroadcastsInDim S8x1x512x512 (![0, 2, 3] : Fin 3 → Fin S8x1x512x512.rank)
  bcast_S8x1x512x512_S8x128x512x512_0_1_2_3 : S8x1x512x512.BroadcastsInDim S8x128x512x512 (![0, 1, 2, 3] : Fin 4 → Fin S8x128x512x512.rank)
  transposes_S8x128x512x512_S8x512x512x128_0_2_3_1 : S8x128x512x512.Transposes [0, 2, 3, 1] S8x512x512x128
  shapeCasts_S8x512x512x128_S2097152x128 : S8x512x512x128.ShapeCasts S2097152x128
  bcast_S_S192x128 : S_.BroadcastsInDim S192x128 (![] : Fin 0 → Fin S192x128.rank)
  bcast_S2097152_S2097152x1_0 : S2097152.BroadcastsInDim S2097152x1 (![0] : Fin 1 → Fin S2097152x1.rank)
  shapeCasts_S192x128_S8x24x128 : S192x128.ShapeCasts S8x24x128
  bcast_S_S192 : S_.BroadcastsInDim S192 (![] : Fin 0 → Fin S192.rank)
  shapeCasts_S192_S8x24 : S192.ShapeCasts S8x24
  bcast_S8x24_S8x24x1_0_1 : S8x24.BroadcastsInDim S8x24x1 (![0, 1] : Fin 2 → Fin S8x24x1.rank)
  bcast_S_S8x24x1 : S_.BroadcastsInDim S8x24x1 (![] : Fin 0 → Fin S8x24x1.rank)
  bcast_S8x24x1_S8x24x128_0_1_2 : S8x24x1.BroadcastsInDim S8x24x128 (![0, 1, 2] : Fin 3 → Fin S8x24x128.rank)
  transposes_S8x24x128_S8x128x24_0_2_1 : S8x24x128.Transposes [0, 2, 1] S8x128x24
  bcast_S_S8x24 : S_.BroadcastsInDim S8x24 (![] : Fin 0 → Fin S8x24.rank)
  gather_S8x128x128x128_S512x512x2_S8x128x512x512_01_23_n_n_23_2_812811_wf : GatherDims.WF S8x128x128x128 S512x512x2 S8x128x512x512 [0, 1] [2, 3] [] [2, 3] [] 2 ![8, 128, 1, 1]
  scatter_S192x128_S2097152x1_S2097152x128_1_0_0_1_wf : ScatterDims.WF S192x128 S2097152x1 S2097152x128 [1] [0] [0] 1
  scatter_S192_S2097152x1_S2097152_n_0_0_1_wf : ScatterDims.WF S192 S2097152x1 S2097152 [] [0] [0] 1

variable [Facts₀]

def gather_S8x128x128x128_S512x512x2_S8x128x512x512_01_23_n_n_23_2_812811 : GatherDims S8x128x128x128 S512x512x2 S8x128x512x512 where
  offsetDims := [0, 1]
  collapsedSliceDims := [2, 3]
  operandBatchingDims := []
  startIndicesBatchingDims := []
  startIndexMap := [2, 3]
  indexVectorDim := 2
  sliceSizes := ![8, 128, 1, 1]
  wf := gather_S8x128x128x128_S512x512x2_S8x128x512x512_01_23_n_n_23_2_812811_wf
def scatter_S192x128_S2097152x1_S2097152x128_1_0_0_1 : ScatterDims S192x128 S2097152x1 S2097152x128 where
  updateWindowDims := [1]
  insertedWindowDims := [0]
  scatterDimsToOperandDims := [0]
  indexVectorDim := 1
  wf := scatter_S192x128_S2097152x1_S2097152x128_1_0_0_1_wf
def scatter_S192_S2097152x1_S2097152_n_0_0_1 : ScatterDims S192 S2097152x1 S2097152 where
  updateWindowDims := []
  insertedWindowDims := [0]
  scatterDimsToOperandDims := [0]
  indexVectorDim := 1
  wf := scatter_S192_S2097152x1_S2097152_n_0_0_1_wf

class Facts : Prop extends Facts₀ where

variable [Facts]
-- ==== Proof.PreDecode.lean ====
/-
  What the precondition says, element by element: every entry of the data is a real number (finite), and every
  label is the ignore label -1 or a class 0 … 23.
-/
import proofs.«404461_j37237366456700_3_alg».proof.Pre_finite_inputs
import proofs.«404461_j37237366456700_3_alg».proof.Proof.Gen.Pre_finite_inputs
import Idealize.ShloMosaic.PureOps.Ideal
import Idealize.ShloMosaic.Lib.ReduceAll
import Idealize.ShloMosaic.Lib.StableHlo.Predicate

noncomputable section

namespace Cert.PreDecode

open Idealize.ShloMosaic Cert.Pre_finite_inputs

/-- The one index of the scalar shape. -/
def i0 : S_.Idx := fun d => d.elim0

/-- The scalar shape has exactly one index: an index is a function out of the empty set of axes. -/
theorem scalarIdx_subsingleton : Subsingleton S_.Idx := ⟨fun _ _ => funext fun d => d.elim0⟩

/-- The single-precision word with every exponent bit set, no fraction bit and a clear sign denotes +∞. -/
theorem ofBits_inf : Ideal.ofBits .f32 0x7F800000#32 = (⊤ : EReal) := by
  simp [Ideal.ofBits, Ideal.ieee]

/-- An extended real whose absolute value max(x, -x) is below +∞ is a real number: at +∞ the maximum is x itself,
    at -∞ it is -x = +∞, and neither is below +∞. -/
theorem real_of_abs_lt_top (x : EReal) (h : max x (-x) < ⊤) : ∃ r : ℝ, x = (r : EReal) := by
  induction x using EReal.rec with
  | bot => simp at h
  | coe r => exact ⟨r, rfl⟩
  | top => simp at h

/-- The words the labels are compared with, read as signed integers: all ones is -1, and 24 is 24. -/
theorem toInt_allOnes : (4294967295#32 : BitVec 32).toInt = -1 := by decide
theorem toInt_24 : (24#32 : BitVec 32).toInt = 24 := by decide

/-- Under the precondition every entry of the data is a real number. -/
theorem finite_of_pre (D : FVec Ideal S8x128x128x128 .f32) (Lb : IVec S8x512x512 32)
    (h : Cert.Pre_finite_inputs.fn (F := Ideal) D Lb = fun _ => 1#1) :
    ∀ i, ∃ r : ℝ, D i = (r : EReal) := by
  intro i
  haveI := scalarIdx_subsingleton
  -- the result at its one index is the conjunction of the two reductions
  have e := congrFun h i0
  unfold Cert.Pre_finite_inputs.fn at e
  dsimp only at e
  obtain ⟨e1, -⟩ := IntOp.andi_eq_one.1 e
  -- a reduction by "and" over every axis that came out 1 met a 1 at every entry
  have hi := Host.reduce_andi_all _ _ _ _ _ e1 i
  -- at entry i the compared values are |D i| = max (D i) (-(D i)) and the broadcast constant
  have hc : Ideal.cmp .olt (max (D i) (-(D i))) (Ideal.ofBits .f32 0x7F800000#32) = 1#1 := hi
  rw [ofBits_inf] at hc
  have hlt : max (D i) (-(D i)) < (⊤ : EReal) := by
    simpa [Ideal.cmp, StableHlo.Predicate.ofBool_eq_one_iff] using hc
  exact real_of_abs_lt_top _ hlt

/-- Under the precondition every label, read as a signed word, lies in [-1, 24). -/
theorem range_of_pre (D : FVec Ideal S8x128x128x128 .f32) (Lb : IVec S8x512x512 32)
    (h : Cert.Pre_finite_inputs.fn (F := Ideal) D Lb = fun _ => 1#1) :
    ∀ i, (-1 : ℤ) ≤ (Lb i).toInt ∧ (Lb i).toInt < 24 := by
  intro i
  haveI := scalarIdx_subsingleton
  have e := congrFun h i0
  unfold Cert.Pre_finite_inputs.fn at e
  dsimp only at e
  obtain ⟨-, e2⟩ := IntOp.andi_eq_one.1 e
  have hi := Host.reduce_andi_all _ _ _ _ _ e2 i
  -- at label i the reduced bit is the conjunction of the two signed comparisons with the broadcast constants
  obtain ⟨hge, hlt⟩ := IntOp.andi_eq_one.1 hi
  have h1 : (4294967295#32 : BitVec 32).toInt ≤ (Lb i).toInt := IntOp.cmpi_sge.1 hge
  have h2 : (Lb i).toInt < (24#32 : BitVec 32).toInt := IntOp.cmpi_slt.1 hlt
  rw [toInt_allOnes] at h1
  rw [toInt_24] at h2
  exact ⟨h1, h2⟩

end Cert.PreDecode

end
-- ==== Proof.RefTerm.lean ====
/-
  The reference program's results as pure terms of its two arguments, one definition per stage of its
  straight line: the source-coordinate table of the nearest-neighbour upsampling, the gather that upsamples,
  the validity bit of a label, the segment id of a pixel, the rows scattered into the segment sums and
  counts, the guarded quotient and the occupancy mask. Definitions only.
-/
import proofs.«404461_j37237366456700_3_alg».proof.ReferenceIdeal
import proofs.«404461_j37237366456700_3_alg».proof.Proof.Gen.ReferenceIdeal

noncomputable section

namespace Cert.ReferenceIdeal.Term

open Idealize.ShloMosaic Cert.ReferenceIdeal Cert.ReferenceIdeal.Facts₀ Cert.ReferenceIdeal.Facts

variable {F : FTy → Type} [FloatOps F]

/-- Floor division of 512 words by one word, as jnp spells it: the truncating quotient, lowered by one where
    the signs differ and the remainder is not zero. -/
def floorDiv (a : IVec S512 32) (d : IVec S_ 32) : IVec S512 32 :=
  let v0 : IVec S_ 32 := id d
  let v1 : IVec S512 32 := broadcastInDim S512 ![] bcast_S_S512 v0
  let v2 : IVec S512 32 := Host.divsi a v1
  let v3 : IVec S512 32 := signi a
  let v4 : IVec S_ 32 := signi v0
  let v5 : IVec S512 32 := broadcastInDim S512 ![] bcast_S_S512 v4
  let v6 : IVec S512 1 := cmpi .ne v3 v5
  let v7 : IVec S512 32 := broadcastInDim S512 ![] bcast_S_S512 v0
  let v8 : IVec S512 32 := Host.remsi a v7
  let c : IVec S_ 32 := constantI S_ 32 0#32
  let v9 : IVec S512 32 := broadcastInDim S512 ![] bcast_S_S512 c
  let v10 : IVec S512 1 := cmpi .ne v8 v9
  let v11 : IVec S512 1 := andi v6 v10
  let c_0 : IVec S_ 32 := constantI S_ 32 1#32
  let v12 : IVec S512 32 := broadcastInDim S512 ![] bcast_S_S512 c_0
  let v13 : IVec S512 32 := subi v2 v12
  select v11 v13 v2

/-- The source coordinate of each full-resolution coordinate: (i · 128) floor-divided by 512. -/
def srcIdx : IVec S512 32 :=
  floorDiv (muli (iotaInDim S512 32 0) (broadcastInDim S512 ![] bcast_S_S512 (constantI S_ 32 128#32)))
    (constantI S_ 32 512#32)

/-- The source rows as a column, negative entries wrapped by the extent 128 (jnp's index normalisation). -/
def rowCol : IVec S512x1 32 :=
  let v8 : IVec S512x1 32 := broadcastInDim S512x1 ![0] bcast_S512_S512x1_0 srcIdx
  let v10 : IVec S512x1 32 := broadcastInDim S512x1 ![] bcast_S_S512x1 (constantI S_ 32 0#32)
  let v11 : IVec S512x1 1 := cmpi .slt v8 v10
  let v12 : IVec S512x1 32 := broadcastInDim S512x1 ![] bcast_S_S512x1 (constantI S_ 32 128#32)
  let v13 : IVec S512x1 32 := addi v8 v12
  select v11 v13 v8

/-- The source columns as a row, likewise. -/
def colRow : IVec S1x512 32 :=
  let v9 : IVec S1x512 32 := broadcastInDim S1x512 ![1] bcast_S512_S1x512_1 srcIdx
  let v15 : IVec S1x512 32 := broadcastInDim S1x512 ![] bcast_S_S1x512 (constantI S_ 32 0#32)
  let v16 : IVec S1x512 1 := cmpi .slt v9 v15
  let v17 : IVec S1x512 32 := broadcastInDim S1x512 ![] bcast_S_S1x512 (constantI S_ 32 128#32)
  let v18 : IVec S1x512 32 := addi v9 v17
  select v16 v18 v9

/-- The gather's start indices: at (i, j) the pair (source row of i, source column of j). -/
def startIdx : IVec S512x512x2 32 :=
  let v20 : IVec S512x512 32 := broadcastInDim S512x512 ![0, 1] bcast_S512x1_S512x512_0_1 rowCol
  let v21 : IVec S512x512 32 := broadcastInDim S512x512 ![0, 1] bcast_S1x512_S512x512_0_1 colRow
  let v22 : IVec S512x512x1 32 := broadcastInDim S512x512x1 ![0, 1] bcast_S512x512_S512x512x1_0_1 v20
  let v23 : IVec S512x512x1 32 := broadcastInDim S512x512x1 ![0, 1] bcast_S512x512_S512x512x1_0_1 v21
  concatenate S512x512x2 2 [⟨S512x512x1, v22⟩, ⟨S512x512x1, v23⟩] concatenates_S512x512x1_S512x512x1_S512x512x2_d2

/-- The data upsampled to full resolution. -/
def upsampled (D : FVec F S8x128x128x128 .f32) : FVec F S8x128x512x512 .f32 :=
  Host.gather gather_S8x128x128x128_S512x512x2_S8x128x512x512_01_23_n_n_23_2_812811 D startIdx

/-- Whether a pixel's label is not the ignore label -1. -/
def valid (Lb : IVec S8x512x512 32) : IVec S8x512x512 1 :=
  cmpi .ne Lb (broadcastInDim S8x512x512 ![] bcast_S_S8x512x512 (constantI S_ 32 4294967295#32))

/-- A pixel's label, 0 where it is ignored. -/
def lab (Lb : IVec S8x512x512 32) : IVec S8x512x512 32 :=
  let v0 : IVec S_ 32 := id (constantI S_ 32 0#32)
  let v1 : IVec S8x512x512 32 := broadcastInDim S8x512x512 ![] bcast_S_S8x512x512 v0
  select (valid Lb) Lb v1

/-- A pixel's segment: its label plus 24 times its batch, the pixels flattened row-major. -/
def segId (Lb : IVec S8x512x512 32) : IVec S2097152 32 :=
  let v29 : IVec S8 32 := iotaInDim S8 32 0
  let v30 : IVec S8x1x1 32 := broadcastInDim S8x1x1 ![0] bcast_S8_S8x1x1_0 v29
  let v31 : IVec S8x1x1 32 := broadcastInDim S8x1x1 ![] bcast_S_S8x1x1 (constantI S_ 32 24#32)
  let v32 : IVec S8x1x1 32 := muli v30 v31
  let v33 : IVec S8x512x512 32 := broadcastInDim S8x512x512 ![0, 1, 2] bcast_S8x1x1_S8x512x512_0_1_2 v32
  let v34 : IVec S8x512x512 32 := addi (lab Lb) v33
  shapeCast S2097152 v34 shapeCasts_S8x512x512_S2097152

/-- The segment ids as the scatter's index column. -/
def segCol (Lb : IVec S8x512x512 32) : IVec S2097152x1 32 :=
  broadcastInDim S2097152x1 ![0] bcast_S2097152_S2097152x1_0 (segId Lb)

/-- The rows scattered into the segment sums: a pixel's upsampled channels, zeroed where the pixel is ignored. -/
def updates (D : FVec F S8x128x128x128 .f32) (Lb : IVec S8x512x512 32) : FVec F S2097152x128 .f32 :=
  let v36 : IVec S8x1x512x512 1 := broadcastInDim S8x1x512x512 ![0, 2, 3] bcast_S8x512x512_S8x1x512x512_0_2_3 (valid Lb)
  let v37 : FVec F S8x1x512x512 .f32 := uitofp .f32 v36
  let v38 : FVec F S8x128x512x512 .f32 := broadcastInDim S8x128x512x512 ![0, 1, 2, 3] bcast_S8x1x512x512_S8x128x512x512_0_1_2_3 v37
  let v39 : FVec F S8x128x512x512 .f32 := mulf (upsampled D) v38
  let v40 : FVec F S8x512x512x128 .f32 := transpose S8x512x512x128 [0, 2, 3, 1] v39 transposes_S8x128x512x512_S8x512x512x128_0_2_3_1
  shapeCast S2097152x128 v40 shapeCasts_S8x512x512x128_S2097152x128

/-- The segment sums [192, 128]. -/
def segSums (D : FVec F S8x128x128x128 .f32) (Lb : IVec S8x512x512 32) : FVec F S192x128 .f32 :=
  Host.scatterAdd scatter_S192x128_S2097152x1_S2097152x128_1_0_0_1
    (broadcastInDim S192x128 ![] bcast_S_S192x128 (constant S_ .f32 0x00000000#32)) (segCol Lb) (updates D Lb)

/-- The segment counts [192]: the validity bits scattered by segment. -/
def segCounts (Lb : IVec S8x512x512 32) : FVec F S192 .f32 :=
  let v46 : IVec S2097152 1 := shapeCast S2097152 (valid Lb) shapeCasts_S8x512x512_S2097152
  let v47 : FVec F S2097152 .f32 := uitofp .f32 v46
  Host.scatterAdd scatter_S192_S2097152x1_S2097152_n_0_0_1
    (broadcastInDim S192 ![] bcast_S_S192 (constant S_ .f32 0x00000000#32)) (segCol Lb) v47

/-- The counts laid out [batch, class]. -/
def counts (Lb : IVec S8x512x512 32) : FVec F S8x24 .f32 :=
  shapeCast S8x24 (segCounts (F := F) Lb) shapeCasts_S192_S8x24

/-- The first result: the guarded per-class mean, [batch, channel, class]. -/
def featTerm (D : FVec F S8x128x128x128 .f32) (Lb : IVec S8x512x512 32) : FVec F S8x128x24 .f32 :=
  let v45 : FVec F S8x24x128 .f32 := shapeCast S8x24x128 (segSums D Lb) shapeCasts_S192x128_S8x24x128
  let v52 : FVec F S8x24x1 .f32 := broadcastInDim S8x24x1 ![0, 1] bcast_S8x24_S8x24x1_0_1 (counts (F := F) Lb)
  let v53 : FVec F S8x24x1 .f32 := broadcastInDim S8x24x1 ![] bcast_S_S8x24x1 (constant S_ .f32 0x322BCC77#32)
  let v54 : FVec F S8x24x1 .f32 := addf v52 v53
  let v55 : FVec F S8x24x128 .f32 := broadcastInDim S8x24x128 ![0, 1, 2] bcast_S8x24x1_S8x24x128_0_1_2 v54
  let v56 : FVec F S8x24x128 .f32 := Host.divf v45 v55
  transpose S8x128x24 [0, 2, 1] v56 transposes_S8x24x128_S8x128x24_0_2_1

/-- The second result: which classes occur, [batch, class]. -/
def maskTerm (Lb : IVec S8x512x512 32) : FVec F S8x24 .f32 :=
  let v58 : FVec F S8x24 .f32 := broadcastInDim S8x24 ![] bcast_S_S8x24 (constant S_ .f32 0x00000000#32)
  let v59 : IVec S8x24 1 := cmpf .ogt (counts (F := F) Lb) v58
  uitofp .f32 v59

end Cert.ReferenceIdeal.Term

end
-- ==== Proof.RefRun.lean ====
/-
  The reference program's run: its straight line of host operations (the outlined functions' operations listed at
  their calls), executed, leaves each result at the composed term of the arguments and the arguments unchanged.

  The line is read in two stretches. The first builds the table of source coordinates of the nearest-neighbour
  upsampling, up to the two index planes the gather's start indices are joined from; the second gathers, forms the
  segment ids, scatters the sums and the counts and divides. The second reads of the first only the two planes and
  the two arguments, so its results are terms of those four, and the planes' own terms are put in afterwards.
-/
import proofs.«404461_j37237366456700_3_alg».proof.Proof.RefTerm
import Idealize.ShloMosaic.Lib.StableHlo.Run

noncomputable section

namespace Cert.ReferenceIdeal.Run

open Idealize.ShloMosaic Idealize.ShloMosaic.TcCoe Idealize.SL.Sem Idealize.ShloMosaic.StableHlo
open Cert.ReferenceIdeal Cert.ReferenceIdeal.Gen

variable {F : FTy → Type} [FloatOps F]

/-- The first stretch, 64 operations: twice the source-coordinate table (the iota scaled by 128, floor-divided by
    512 — the seventeen operations of the floor division, its select last, listed at each call over that call's
    buffers), each table laid out as a column or a row, wrapped where negative, and broadcast to the two index
    planes [512, 512, 1]. -/
abbrev opsA : List (HloOp τ sig (Elt F)) :=
  [ nullary main_v0 (iotaInDim S512 32 0),
    nullary main_c (constantI S_ 32 128#32),
    unary main_c main_v1 (broadcastInDim S512 ![] bcast_S_S512),
    binary main_v0 main_v1 main_v2 muli,
    nullary main_c_0 (constantI S_ 32 512#32),
    TRef.unary (.of main_c_0) main_call0.v0 id,
    TRef.unary main_call0.v0 main_call0.v1 (broadcastInDim S512 ![] bcast_S_S512),
    TRef.binary (.of main_v2) main_call0.v1 main_call0.v2 Host.divsi,
    TRef.unary (.of main_v2) main_call0.v3 signi,
    TRef.unary main_call0.v0 main_call0.v4 signi,
    TRef.unary main_call0.v4 main_call0.v5 (broadcastInDim S512 ![] bcast_S_S512),
    TRef.binary main_call0.v3 main_call0.v5 main_call0.v6 (cmpi .ne),
    TRef.unary main_call0.v0 main_call0.v7 (broadcastInDim S512 ![] bcast_S_S512),
    TRef.binary (.of main_v2) main_call0.v7 main_call0.v8 Host.remsi,
    TRef.nullary main_call0.c (constantI S_ 32 0#32),
    TRef.unary main_call0.c main_call0.v9 (broadcastInDim S512 ![] bcast_S_S512),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S512 ![] bcast_S_S512),
    TRef.binary main_call0.v2 main_call0.v12 main_call0.v13 subi,
    TRef.ternary main_call0.v11 main_call0.v13 main_call0.v2 main_call0.call0.v0 select,
    nullary main_v4 (iotaInDim S512 32 0),
    nullary main_c_1 (constantI S_ 32 128#32),
    unary main_c_1 main_v5 (broadcastInDim S512 ![] bcast_S_S512),
    binary main_v4 main_v5 main_v6 muli,
    nullary main_c_2 (constantI S_ 32 512#32),
    TRef.unary (.of main_c_2) main_call1.v0 id,
    TRef.unary main_call1.v0 main_call1.v1 (broadcastInDim S512 ![] bcast_S_S512),
    TRef.binary (.of main_v6) main_call1.v1 main_call1.v2 Host.divsi,
    TRef.unary (.of main_v6) main_call1.v3 signi,
    TRef.unary main_call1.v0 main_call1.v4 signi,
    TRef.unary main_call1.v4 main_call1.v5 (broadcastInDim S512 ![] bcast_S_S512),
    TRef.binary main_call1.v3 main_call1.v5 main_call1.v6 (cmpi .ne),
    TRef.unary main_call1.v0 main_call1.v7 (broadcastInDim S512 ![] bcast_S_S512),
    TRef.binary (.of main_v6) main_call1.v7 main_call1.v8 Host.remsi,
    TRef.nullary main_call1.c (constantI S_ 32 0#32),
    TRef.unary main_call1.c main_call1.v9 (broadcastInDim S512 ![] bcast_S_S512),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S512 ![] bcast_S_S512),
    TRef.binary main_call1.v2 main_call1.v12 main_call1.v13 subi,
    TRef.ternary main_call1.v11 main_call1.v13 main_call1.v2 main_call1.call0.v0 select,
    unary main_v3 main_v8 (broadcastInDim S512x1 ![0] bcast_S512_S512x1_0),
    unary main_v7 main_v9 (broadcastInDim S1x512 ![1] bcast_S512_S1x512_1),
    nullary main_c_3 (constantI S_ 32 0#32),
    unary main_c_3 main_v10 (broadcastInDim S512x1 ![] bcast_S_S512x1),
    binary main_v8 main_v10 main_v11 (cmpi .slt),
    nullary main_c_4 (constantI S_ 32 128#32),
    unary main_c_4 main_v12 (broadcastInDim S512x1 ![] bcast_S_S512x1),
    binary main_v8 main_v12 main_v13 addi,
    ternary main_v11 main_v13 main_v8 main_v14 select,
    nullary main_c_5 (constantI S_ 32 0#32),
    unary main_c_5 main_v15 (broadcastInDim S1x512 ![] bcast_S_S1x512),
    binary main_v9 main_v15 main_v16 (cmpi .slt),
    nullary main_c_6 (constantI S_ 32 128#32),
    unary main_c_6 main_v17 (broadcastInDim S1x512 ![] bcast_S_S1x512),
    binary main_v9 main_v17 main_v18 addi,
    ternary main_v16 main_v18 main_v9 main_v19 select,
    unary main_v14 main_v20 (broadcastInDim S512x512 ![0, 1] bcast_S512x1_S512x512_0_1),
    unary main_v19 main_v21 (broadcastInDim S512x512 ![0, 1] bcast_S1x512_S512x512_0_1),
    unary main_v20 main_v22 (broadcastInDim S512x512x1 ![0, 1] bcast_S512x512_S512x512x1_0_1),
    unary main_v21 main_v23 (broadcastInDim S512x512x1 ![0, 1] bcast_S512x512_S512x512x1_0_1) ]

/-- The second stretch, 46 operations: the two planes joined into the start indices and the gather; the validity
    bits and the labels with the ignored ones at 0 (the three operations of the outlined select at its call); the
    segment ids; the masked, transposed and flattened update rows; the two scatters; the guarded quotient and the
    occupancy mask. -/
abbrev opsB : List (HloOp τ sig (Elt F)) :=
  [ binary main_v22 main_v23 main_v24 ((fun a b => concatenate S512x512x2 2 [⟨S512x512x1, a⟩, ⟨S512x512x1, b⟩] concatenates_S512x512x1_S512x512x1_S512x512x2_d2) : (⟨S512x512x1, .i32⟩ : BufTy).Contents (Elt F) → (⟨S512x512x1, .i32⟩ : BufTy).Contents (Elt F) → (⟨S512x512x2, .i32⟩ : BufTy).Contents (Elt F)),
    binary main_arg0 main_v24 main_v25 ((fun x i => Host.gather gather_S8x128x128x128_S512x512x2_S8x128x512x512_01_23_n_n_23_2_812811 x i) : (⟨S8x128x128x128, .f32⟩ : BufTy).Contents (Elt F) → (⟨S512x512x2, .i32⟩ : BufTy).Contents (Elt F) → (⟨S8x128x512x512, .f32⟩ : BufTy).Contents (Elt F)),
    nullary main_c_7 (constantI S_ 32 4294967295#32),
    unary main_c_7 main_v26 (broadcastInDim S8x512x512 ![] bcast_S_S8x512x512),
    binary main_arg1 main_v26 main_v27 (cmpi .ne),
    nullary main_c_8 (constantI S_ 32 0#32),
    TRef.unary (.of main_c_8) main_call2.v0 id,
    TRef.unary main_call2.v0 main_call2.v1 (broadcastInDim S8x512x512 ![] bcast_S_S8x512x512),
    TRef.ternary (.of main_v27) (.of main_arg1) main_call2.v1 main_call2.v2 select,
    nullary main_v29 (iotaInDim S8 32 0),
    unary main_v29 main_v30 (broadcastInDim S8x1x1 ![0] bcast_S8_S8x1x1_0),
    nullary main_c_9 (constantI S_ 32 24#32),
    unary main_c_9 main_v31 (broadcastInDim S8x1x1 ![] bcast_S_S8x1x1),
    binary main_v30 main_v31 main_v32 muli,
    unary main_v32 main_v33 (broadcastInDim S8x512x512 ![0, 1, 2] bcast_S8x1x1_S8x512x512_0_1_2),
    binary main_v28 main_v33 main_v34 addi,
    reshape main_v34 main_v35 rfl shapeCasts_S8x512x512_S2097152,
    unary main_v27 main_v36 (broadcastInDim S8x1x512x512 ![0, 2, 3] bcast_S8x512x512_S8x1x512x512_0_2_3),
    unary main_v36 main_v37 (uitofp .f32),
    unary main_v37 main_v38 (broadcastInDim S8x128x512x512 ![0, 1, 2, 3] bcast_S8x1x512x512_S8x128x512x512_0_1_2_3),
    binary main_v25 main_v38 main_v39 mulf,
    unary main_v39 main_v40 (transpose S8x512x512x128 [0, 2, 3, 1] · transposes_S8x128x512x512_S8x512x512x128_0_2_3_1),
    reshape main_v40 main_v41 rfl shapeCasts_S8x512x512x128_S2097152x128,
    nullary main_cst (constant S_ .f32 0x00000000#32),
    unary main_cst main_v42 (broadcastInDim S192x128 ![] bcast_S_S192x128),
    unary main_v35 main_v43 (broadcastInDim S2097152x1 ![0] bcast_S2097152_S2097152x1_0),
    ternary main_v42 main_v43 main_v41 main_v44 ((fun x i u => Host.scatterAdd scatter_S192x128_S2097152x1_S2097152x128_1_0_0_1 x i u) : (⟨S192x128, .f32⟩ : BufTy).Contents (Elt F) → (⟨S2097152x1, .i32⟩ : BufTy).Contents (Elt F) → (⟨S2097152x128, .f32⟩ : BufTy).Contents (Elt F) → (⟨S192x128, .f32⟩ : BufTy).Contents (Elt F)),
    reshape main_v44 main_v45 rfl shapeCasts_S192x128_S8x24x128,
    reshape main_v27 main_v46 rfl shapeCasts_S8x512x512_S2097152,
    unary main_v46 main_v47 (uitofp .f32),
    nullary main_cst_10 (constant S_ .f32 0x00000000#32),
    unary main_cst_10 main_v48 (broadcastInDim S192 ![] bcast_S_S192),
    unary main_v35 main_v49 (broadcastInDim S2097152x1 ![0] bcast_S2097152_S2097152x1_0),
    ternary main_v48 main_v49 main_v47 main_v50 ((fun x i u => Host.scatterAdd scatter_S192_S2097152x1_S2097152_n_0_0_1 x i u) : (⟨S192, .f32⟩ : BufTy).Contents (Elt F) → (⟨S2097152x1, .i32⟩ : BufTy).Contents (Elt F) → (⟨S2097152, .f32⟩ : BufTy).Contents (Elt F) → (⟨S192, .f32⟩ : BufTy).Contents (Elt F)),
    reshape main_v50 main_v51 rfl shapeCasts_S192_S8x24,
    unary main_v51 main_v52 (broadcastInDim S8x24x1 ![0, 1] bcast_S8x24_S8x24x1_0_1),
    nullary main_cst_11 (constant S_ .f32 0x322BCC77#32),
    unary main_cst_11 main_v53 (broadcastInDim S8x24x1 ![] bcast_S_S8x24x1),
    binary main_v52 main_v53 main_v54 addf,
    unary main_v54 main_v55 (broadcastInDim S8x24x128 ![0, 1, 2] bcast_S8x24x1_S8x24x128_0_1_2),
    binary main_v45 main_v55 main_v56 Host.divf,
    unary main_v56 main_v57 (transpose S8x128x24 [0, 2, 1] · transposes_S8x24x128_S8x128x24_0_2_1),
    nullary main_cst_12 (constant S_ .f32 0x00000000#32),
    unary main_cst_12 main_v58 (broadcastInDim S8x24 ![] bcast_S_S8x24),
    binary main_v51 main_v58 main_v59 (cmpf .ogt),
    unary main_v59 main_v60 (uitofp .f32) ]

/-- @main's 110 operations in order. -/
abbrev ops : List (HloOp τ sig (Elt F)) := opsA ++ opsB

/-! ## The results as terms -/

/-- The fold over two stretches in a row is the second's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- After the first stretch the row plane holds the wrapped source rows, broadcast along the columns. -/
theorem A_v22 (V : Valuation τ sig (Elt F)) :
    after opsA V (main_v22 : DevRef τ sig)
      = broadcastInDim S512x512x1 ![0, 1] bcast_S512x512_S512x512x1_0_1
          (broadcastInDim S512x512 ![0, 1] bcast_S512x1_S512x512_0_1 Term.rowCol) := by
  after_results_simp
  rfl

/-- After the first stretch the column plane holds the wrapped source columns, broadcast along the rows. -/
theorem A_v23 (V : Valuation τ sig (Elt F)) :
    after opsA V (main_v23 : DevRef τ sig)
      = broadcastInDim S512x512x1 ![0, 1] bcast_S512x512_S512x512x1_0_1
          (broadcastInDim S512x512 ![0, 1] bcast_S1x512_S512x512_0_1 Term.colRow) := by
  after_results_simp
  rfl

/-- The first stretch writes neither argument. -/
theorem A_arg0 (V : Valuation τ sig (Elt F)) :
    after opsA V (main_arg0 : DevRef τ sig) = V (main_arg0 : DevRef τ sig) := by
  after_results_simp

theorem A_arg1 (V : Valuation τ sig (Elt F)) :
    after opsA V (main_arg1 : DevRef τ sig) = V (main_arg1 : DevRef τ sig) := by
  after_results_simp

/-- The second stretch from contents that hold the arguments and the two index planes: the first result is the
    guarded per-class mean of the arguments. The fold's term names the planes' contents where the start indices
    are joined; their own terms are put in there, and the rest is the stage-by-stage term read off. -/
theorem B_v57 (W : Valuation τ sig (Elt F)) (D : FVec F S8x128x128x128 .f32) (Lb : IVec S8x512x512 32)
    (h0 : W (main_arg0 : DevRef τ sig) = D) (h1 : W (main_arg1 : DevRef τ sig) = Lb)
    (h22 : W (main_v22 : DevRef τ sig)
      = broadcastInDim S512x512x1 ![0, 1] bcast_S512x512_S512x512x1_0_1
          (broadcastInDim S512x512 ![0, 1] bcast_S512x1_S512x512_0_1 Term.rowCol))
    (h23 : W (main_v23 : DevRef τ sig)
      = broadcastInDim S512x512x1 ![0, 1] bcast_S512x512_S512x512x1_0_1
          (broadcastInDim S512x512 ![0, 1] bcast_S1x512_S512x512_0_1 Term.colRow)) :
    after opsB W (main_v57 : DevRef τ sig) = Term.featTerm (F := F) D Lb := by
  subst h0 h1
  after_results_simp
  rw [h22, h23]
  rfl

/-- The second stretch's second result is the occupancy mask of the label argument. -/
theorem B_v60 (W : Valuation τ sig (Elt F)) (Lb : IVec S8x512x512 32)
    (h1 : W (main_arg1 : DevRef τ sig) = Lb) :
    after opsB W (main_v60 : DevRef τ sig) = Term.maskTerm (F := F) Lb := by
  subst h1
  after_results_simp
  rfl

/-- The second stretch writes neither argument. -/
theorem B_arg0 (W : Valuation τ sig (Elt F)) :
    after opsB W (main_arg0 : DevRef τ sig) = W (main_arg0 : DevRef τ sig) := by
  after_results_simp

theorem B_arg1 (W : Valuation τ sig (Elt F)) :
    after opsB W (main_arg1 : DevRef τ sig) = W (main_arg1 : DevRef τ sig) := by
  after_results_simp

/-- The whole line's first result. -/
theorem feat_eq (V : Valuation τ sig (Elt F)) :
    after ops V (main_v57 : DevRef τ sig)
      = Term.featTerm (F := F) (V (main_arg0 : DevRef τ sig)) (V (main_arg1 : DevRef τ sig)) := by
  show after (opsA ++ opsB) V _ = _
  rw [after_app]
  exact B_v57 (after opsA V) _ _ (A_arg0 V) (A_arg1 V) (A_v22 V) (A_v23 V)

/-- The whole line's second result. -/
theorem mask_eq (V : Valuation τ sig (Elt F)) :
    after ops V (main_v60 : DevRef τ sig) = Term.maskTerm (F := F) (V (main_arg1 : DevRef τ sig)) := by
  show after (opsA ++ opsB) V _ = _
  rw [after_app]
  exact B_v60 (after opsA V) _ (A_arg1 V)

/-- The whole line writes neither argument. -/
theorem arg0_eq (V : Valuation τ sig (Elt F)) :
    after ops V (main_arg0 : DevRef τ sig) = V (main_arg0 : DevRef τ sig) := by
  show after (opsA ++ opsB) V _ = _
  rw [after_app, B_arg0, A_arg0]

theorem arg1_eq (V : Valuation τ sig (Elt F)) :
    after ops V (main_arg1 : DevRef τ sig) = V (main_arg1 : DevRef τ sig) := by
  show after (opsA ++ opsB) V _ = _
  rw [after_app, B_arg1, A_arg1]

/-! ## The program is the line -/

set_option maxRecDepth 8192 in
set_option maxHeartbeats 4000000 in
/-- @main is that straight line: its two windows in a row, the outlined functions unfolded at their calls and the
    call records at their fields. Both sides are then the same chain of host steps, by the associativity of
    sequencing and `pure` being its unit. -/
theorem main_eq (c : Dev nD) : main (F := F) c = seq ops := by
  show main (F := F) c = seq (opsA ++ opsB)
  rw [seq_append]
  simp only [main, main_part0, main_part1, fn_floor_divide.body, fn_where.body, fn_where_0.body, seq, bind_assoc, pure_bind]
  rfl

/-! ## The run -/

theorem scopedRefs_eq : (Finset.univ.filter fun b : Ref sig .tc => b.isScoped) = ∅ := by decide
theorem scopedSems_eq : (Finset.univ.filter fun sm : SemLoc sig => sm.isScoped .tc) = ∅ := by decide

/-- Every operation of the first stretch touches TensorCore buffers only. -/
theorem opsA_sub : (opsA : List (HloOp τ sig (Elt F))).Forall fun op => op.bufs ⊆ tcRefs τ sig :=
  ⟨nullary_bufs_sub .., nullary_bufs_sub .., unary_bufs_sub .., binary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..,
    nullary_bufs_sub .., nullary_bufs_sub .., unary_bufs_sub .., binary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..,
    unary_bufs_sub .., unary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    unary_bufs_sub .., unary_bufs_sub ..⟩

/-- Every operation of the second stretch touches TensorCore buffers only. -/
theorem opsB_sub : (opsB : List (HloOp τ sig (Elt F))).Forall fun op => op.bufs ⊆ tcRefs τ sig :=
  ⟨binary_bufs_sub .., binary_bufs_sub .., nullary_bufs_sub .., unary_bufs_sub .., binary_bufs_sub .., nullary_bufs_sub ..,
    unary_bufs_sub .., unary_bufs_sub .., ternary_bufs_sub .., nullary_bufs_sub .., unary_bufs_sub .., nullary_bufs_sub ..,
    unary_bufs_sub .., binary_bufs_sub .., unary_bufs_sub .., binary_bufs_sub .., reshape_bufs_sub .., unary_bufs_sub ..,
    unary_bufs_sub .., unary_bufs_sub .., binary_bufs_sub .., unary_bufs_sub .., reshape_bufs_sub .., nullary_bufs_sub ..,
    unary_bufs_sub .., unary_bufs_sub .., ternary_bufs_sub .., reshape_bufs_sub .., reshape_bufs_sub .., unary_bufs_sub ..,
    nullary_bufs_sub .., unary_bufs_sub .., unary_bufs_sub .., ternary_bufs_sub .., reshape_bufs_sub .., unary_bufs_sub ..,
    nullary_bufs_sub .., unary_bufs_sub .., binary_bufs_sub .., unary_bufs_sub .., binary_bufs_sub .., unary_bufs_sub ..,
    nullary_bufs_sub .., unary_bufs_sub .., binary_bufs_sub .., unary_bufs_sub ..⟩

theorem ops_sub : (ops : List (HloOp τ sig (Elt F))).Forall fun op => op.bufs ⊆ tcRefs τ sig :=
  List.forall_append.mpr ⟨opsA_sub, opsB_sub⟩

/-- Every operation determines its results: none allocates a buffer of undetermined contents. -/
theorem ops_fresh : ∀ op ∈ (ops : List (HloOp τ sig (Elt F))), op.fresh = ∅ := by
  intro op h
  rcases List.mem_append.mp h with h | h
  · (repeat (cases h with | head => rfl | tail _ h => ?_)); exact nomatch h
  · (repeat (cases h with | head => rfl | tail _ h => ?_)); exact nomatch h

/-- Every weakly fair execution of the reference terminates with the first result at `Term.featTerm` and the second
    at `Term.maskTerm` of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57)
          = Term.featTerm (F := F) (m ((c.tc : Thread nD τ).loc main_arg0)) (m ((c.tc : Thread nD τ).loc main_arg1))
      ∧ r.2.mem ((c.tc : Thread nD τ).loc main_v60) = Term.maskTerm (F := F) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v57).trans (feat_eq _), (h c main_v60).trans (mask_eq _),
      (h c main_arg0).trans (arg0_eq _), (h c main_arg1).trans (arg1_eq _)⟩)
    (run_seq scopedRefs_eq scopedSems_eq defs main (fun _ => ops) main_eq (fun _ => ops_sub) m ρ (fun _ => ops_fresh))

end Cert.ReferenceIdeal.Run

end
-- ==== Proof.Spec.lean ====
/-
  The mathematics both programs compute, stated once over the argument arrays.

  `data` is [8, 128, 128, 128] (batch, channel, low-resolution row and column); `label` is [8, 512, 512]
  (batch, full-resolution row and column). Nearest-neighbour upsampling by the factor 4 reads the data at the
  full-resolution pixel (i, j) from the low-resolution pixel (i / 4, j / 4). For batch b and class n < 24:
    cnt b n      = the number of pixels of batch b whose label is n,
    sm  b c n    = the sum, over those pixels, of channel c of the upsampled data,
    feat b c n   = sm b c n / (cnt b n + eps),      mask b n = 1 if cnt b n > 0, else 0.
  A pixel labelled -1 (ignored) belongs to no class.

  The second half describes one tile of 32 low-resolution rows the way a blocked evaluation sees it: the label tile
  de-interleaved into its 4 × 4 sub-pixel planes, the hits of a class counted per low-resolution pixel, and the
  class sums as a product of the data tile with the hit counts, summed over the tile's 4096 pixels.
-/
import Idealize.ShloMosaic.PureOps.Ideal
import Idealize.ShloMosaic.Lib.ValueIdx

noncomputable section

namespace Cert.SegMean

open Idealize.ShloMosaic Idealize.ShloMosaic.ValueIdx

abbrev SData : Shape := ⟨4, ![8, 128, 128, 128]⟩
abbrev SLabel : Shape := ⟨3, ![8, 512, 512]⟩
abbrev SFeat : Shape := ⟨3, ![8, 128, 24]⟩
abbrev SMask : Shape := ⟨2, ![8, 24]⟩
abbrev SDataTile : Shape := ⟨3, ![1, 128, 4096]⟩
abbrev SLabelTile : Shape := ⟨5, ![1, 4, 4, 32, 128]⟩

/-- The low-resolution coordinate a full-resolution coordinate is upsampled from. -/
def low (i : Fin 512) : Fin 128 := ⟨i.val / 4, by have := i.isLt; omega⟩

/-- The pixels of batch `b` whose label is the class `n`. -/
def classPix (Lb : SLabel.Idx → BitVec 32) (b : Fin 8) (n : Fin 24) : Finset (Fin 512 × Fin 512) :=
  Finset.univ.filter fun p => Lb (ix3 b p.1 p.2) = BitVec.ofNat 32 n.val

/-- How many pixels of batch `b` carry class `n`. -/
def cnt (Lb : SLabel.Idx → BitVec 32) (b : Fin 8) (n : Fin 24) : ℕ := (classPix Lb b n).card

/-- Channel `c` of the upsampled data summed over the pixels of batch `b` that carry class `n`. -/
def sm (D : SData.Idx → EReal) (Lb : SLabel.Idx → BitVec 32) (b : Fin 8) (c : Fin 128) (n : Fin 24) : EReal :=
  ∑ p ∈ classPix Lb b n, D (ix4 b c (low p.1) (low p.2))

/-- The guard added to a count before dividing: the f32 nearest 1e-8, the same word in both programs. -/
def eps : EReal := Ideal.ofBits .f32 0x322BCC77#32

/-- The per-class mean feature (guarded by `eps`), laid out [batch, channel, class]. -/
def feat (D : SData.Idx → EReal) (Lb : SLabel.Idx → BitVec 32) : SFeat.Idx → EReal :=
  fun k => Ideal.div (sm D Lb (k 0) (k 1) (k 2)) (((cnt Lb (k 0) (k 2) : ℝ) : EReal) + eps)

/-- Which classes occur in a batch, as 1 / 0, laid out [batch, class]. -/
def mask (Lb : SLabel.Idx → BitVec 32) : SMask.Idx → EReal :=
  fun k => (((if 0 < cnt Lb (k 0) (k 1) then (1 : ℝ) else 0) : ℝ) : EReal)

/-! ## One tile of 32 low-resolution rows -/

/-- Whether sub-pixel (dh, dw) of low-resolution pixel (r, w) of a label tile carries class `n`, as 1 / 0. -/
def hit (x1 : SLabelTile.Idx → BitVec 32) (dh dw : Fin 4) (r : Fin 32) (w n : Fin 128) : EReal :=
  if x1 (ix5 0 dh dw r w) = BitVec.ofNat 32 n.val then 1 else 0

/-- How many of the 16 sub-pixels of low-resolution pixel (r, w) carry class `n`. -/
def tileHits (x1 : SLabelTile.Idx → BitVec 32) (r : Fin 32) (w n : Fin 128) : EReal :=
  ∑ dh : Fin 4, ∑ dw : Fin 4, hit x1 dh dw r w n

/-- The row and the column of the tile's flattened pixel `k` (row-major over 32 × 128). -/
def krow (k : Fin 4096) : Fin 32 := ⟨k.val / 128, by have := k.isLt; omega⟩
def kcol (k : Fin 4096) : Fin 128 := ⟨k.val % 128, Nat.mod_lt _ (by decide)⟩

/-- The tile's contribution to the class sums: channel `c` of the data tile times the hit counts, over its pixels. -/
def tileSum (x0 : SDataTile.Idx → EReal) (x1 : SLabelTile.Idx → BitVec 32) (c n : Fin 128) : EReal :=
  ∑ k : Fin 4096, x0 (ix3 0 c k) * tileHits x1 (krow k) (kcol k) n

/-- The tile's contribution to the class counts. -/
def tileCount (x1 : SLabelTile.Idx → BitVec 32) (n : Fin 128) : EReal :=
  ∑ k : Fin 4096, tileHits x1 (krow k) (kcol k) n

/-- Tile `ht` of batch `b` of the data, flattened to [1, 128, 4096]: low-resolution rows 32·ht … 32·ht + 31. -/
def dataTile (D : SData.Idx → EReal) (b : Fin 8) (ht : Fin 4) : SDataTile.Idx → EReal :=
  fun y => D (ix4 b (y 1) ⟨32 * ht.val + (y 2).val / 128, by have := ht.isLt; have : (y 2).val < 4096 := (y 2).isLt; omega⟩
    ⟨(y 2).val % 128, Nat.mod_lt _ (by decide)⟩)

/-- Tile `ht` of batch `b` of the labels, de-interleaved: plane (dh, dw) holds label (4·row + dh, 4·col + dw). -/
def labelTile (Lb : SLabel.Idx → BitVec 32) (b : Fin 8) (ht : Fin 4) : SLabelTile.Idx → BitVec 32 :=
  fun y => Lb (ix3 b
    ⟨4 * (32 * ht.val + (y 3).val) + (y 1).val, by
      have := ht.isLt; have : (y 3).val < 32 := (y 3).isLt; have : (y 1).val < 4 := (y 1).isLt; omega⟩
    ⟨4 * (y 4).val + (y 2).val, by have : (y 4).val < 128 := (y 4).isLt; have : (y 2).val < 4 := (y 2).isLt; omega⟩)

end Cert.SegMean

end
-- ==== Proof.RefGather.lean ====
/-
  The reference's upsampling read at an index: the gather reads the data at (b, c, i / 4, j / 4).

  The source-coordinate table is (i · 128) floor-divided by 512, spelt over 32-bit words as the truncating quotient
  lowered by one where the signs differ and the remainder is not zero. One entry is a function of the one word
  i; that function is evaluated at each of the 512 words and gives i / 4. The entries are below 128, so the wrap
  of negative indices leaves them alone; broadcasting and concatenation put (i / 4, j / 4) at position (i, j) of
  the start indices; and the gather, whose axes 0 and 1 are offset axes and whose axes 2 and 3 are collapsed and
  start-indexed, reads the operand at (b, c, i / 4, j / 4), the clamp to 127 doing nothing.
-/
import proofs.«404461_j37237366456700_3_alg».proof.Proof.RefTerm
import proofs.«404461_j37237366456700_3_alg».proof.Proof.Spec
import Idealize.ShloMosaic.Lib.StableHlo.Predicate
import Idealize.ShloMosaic.Lib.Pipeline.Value
import Idealize.ShloMosaic.Lib.Decide

noncomputable section

namespace Cert.ReferenceIdeal.Value

open Idealize.ShloMosaic Idealize.ShloMosaic.ValueIdx Cert.ReferenceIdeal Cert.SegMean

/-! ## The source-coordinate table -/

namespace Gather

/-- One entry of the source-coordinate table as a function of the word x it is computed from: x · 128
    floor-divided by 512. -/
def srcWord (x : BitVec 32) : BitVec 32 :=
  let a : BitVec 32 := IntOp.muli x 128#32
  let d : BitVec 32 := 512#32
  let q : BitVec 32 := IntOp.divsi .host a d
  let sa : BitVec 32 := if a = 0 then 0 else if a.msb then -1 else 1
  let sd : BitVec 32 := if d = 0 then 0 else if d.msb then -1 else 1
  let r : BitVec 32 := IntOp.remsi .host a d
  Scalar.select (IntOp.andi (IntOp.cmpi .ne sa sd) (IntOp.cmpi .ne r 0#32)) (IntOp.subi q 1#32) q

/-- Every operation of the table is elementwise, so entry i is that function of the word i. -/
theorem srcIdx_word (i : Fin 512) : Term.srcIdx (ix1 i) = srcWord (BitVec.ofNat 32 i.val) := rfl

/-- The function evaluated at each of the 512 words: i · 128 floor-divided by 512 is i / 4. -/
theorem srcWord_table : ∀ i : Fin 512, srcWord (BitVec.ofNat 32 i.val) = BitVec.ofNat 32 (i.val / 4) := by
  decide +kernel

end Gather

/-- The source-coordinate table: entry i is the word i / 4. -/
theorem srcIdx_apply (i : Fin 512) : Term.srcIdx (ix1 i) = BitVec.ofNat 32 (i.val / 4) :=
  (Gather.srcIdx_word i).trans (Gather.srcWord_table i)

/-! ## The wrap of negative indices, the broadcasts and the concatenation -/

namespace Gather

/-- jnp's wrap of a negative index by the extent 128 leaves a non-negative word as it is. -/
theorem wrap_small (a : BitVec 32) (ha : a.toNat < 2 ^ 31) :
    Scalar.select (IntOp.cmpi .slt a 0#32) (IntOp.addi a 128#32) a = a := by
  have h : ¬ IntOp.cmpi .slt a 0#32 = 1#1 := by
    rw [StableHlo.Predicate.slt_iff_toNat ha (by decide)]
    exact Nat.not_lt_zero _
  unfold Scalar.select
  exact if_neg h

/-- The word i / 4 is non-negative read signed. -/
theorem ofNat_quarter_lt (i : Fin 512) : (BitVec.ofNat 32 (i.val / 4)).toNat < 2 ^ 31 := by
  have := i.isLt
  rw [BitVec.toNat_ofNat, Nat.mod_eq_of_lt (by omega)]
  omega

/-- The source rows as a column: entry (i, 0) is the word i / 4. -/
theorem rowCol_apply (i : Fin 512) (z : Fin 1) : Term.rowCol (ix2 i z) = BitVec.ofNat 32 (i.val / 4) := by
  have h : broadcastInDim S512x1 ![0] Facts₀.bcast_S512_S512x1_0 Term.srcIdx (ix2 i z) = BitVec.ofNat 32 (i.val / 4) := by
    rw [← srcIdx_apply i]
    simp only [broadcastInDim]
    congr 1
    funext a
    match a with
    | ⟨0, _⟩ => rfl
  show Scalar.select (IntOp.cmpi .slt (broadcastInDim S512x1 ![0] Facts₀.bcast_S512_S512x1_0 Term.srcIdx (ix2 i z)) 0#32)
      (IntOp.addi (broadcastInDim S512x1 ![0] Facts₀.bcast_S512_S512x1_0 Term.srcIdx (ix2 i z)) 128#32)
      (broadcastInDim S512x1 ![0] Facts₀.bcast_S512_S512x1_0 Term.srcIdx (ix2 i z)) = _
  rw [h]
  exact wrap_small _ (ofNat_quarter_lt i)

/-- The source columns as a row: entry (0, j) is the word j / 4. -/
theorem colRow_apply (z : Fin 1) (j : Fin 512) : Term.colRow (ix2 z j) = BitVec.ofNat 32 (j.val / 4) := by
  have h : broadcastInDim S1x512 ![1] Facts₀.bcast_S512_S1x512_1 Term.srcIdx (ix2 z j) = BitVec.ofNat 32 (j.val / 4) := by
    rw [← srcIdx_apply j]
    simp only [broadcastInDim]
    congr 1
    funext a
    match a with
    | ⟨0, _⟩ => rfl
  show Scalar.select (IntOp.cmpi .slt (broadcastInDim S1x512 ![1] Facts₀.bcast_S512_S1x512_1 Term.srcIdx (ix2 z j)) 0#32)
      (IntOp.addi (broadcastInDim S1x512 ![1] Facts₀.bcast_S512_S1x512_1 Term.srcIdx (ix2 z j)) 128#32)
      (broadcastInDim S1x512 ![1] Facts₀.bcast_S512_S1x512_1 Term.srcIdx (ix2 z j)) = _
  rw [h]
  exact wrap_small _ (ofNat_quarter_lt j)

/-- The start indices at (i, j): component 0 is the source row of i. -/
theorem startIdx_apply_row (i j : Fin 512) : Term.startIdx (ix3 i j (0 : Fin 2)) = BitVec.ofNat 32 (i.val / 4) := by
  unfold Term.startIdx
  refine (concatenate_pair_apply_left (t := S512x512x2) (s₁ := S512x512x1) (s₂ := S512x512x1) (2 : Fin 3) _ _
    Facts₀.concatenates_S512x512x1_S512x512x1_S512x512x2_d2 (ix3 i j (0 : Fin 2)) rfl (ix3 i j (0 : Fin 1)) (fun b => by
      match b with
      | ⟨0, _⟩ => rfl
      | ⟨1, _⟩ => rfl
      | ⟨2, _⟩ => rfl)).trans ?_
  rw [← rowCol_apply i (0 : Fin 1)]
  simp only [broadcastInDim]
  congr 1
  funext a
  match a with
  | ⟨0, _⟩ => rfl
  | ⟨1, _⟩ => rfl

/-- The start indices at (i, j): component 1 is the source column of j. -/
theorem startIdx_apply_col (i j : Fin 512) : Term.startIdx (ix3 i j (1 : Fin 2)) = BitVec.ofNat 32 (j.val / 4) := by
  unfold Term.startIdx
  refine (concatenate_pair_apply_right (t := S512x512x2) (s₁ := S512x512x1) (s₂ := S512x512x1) (2 : Fin 3) _ _
    Facts₀.concatenates_S512x512x1_S512x512x1_S512x512x2_d2 (ix3 i j (1 : Fin 2)) rfl rfl (ix3 i j (0 : Fin 1)) (fun b hb => by
      match b with
      | ⟨0, _⟩ => rfl
      | ⟨1, _⟩ => rfl
      | ⟨2, _⟩ => exact absurd rfl hb) rfl).trans ?_
  rw [← colRow_apply (0 : Fin 1) j]
  simp only [broadcastInDim]
  congr 1
  funext a
  match a with
  | ⟨0, _⟩ => rfl
  | ⟨1, _⟩ => rfl

/-! ## The gather -/

/-- The reference's gather: operand [8,128,128,128], start indices [512,512,2], result [8,128,512,512]. -/
abbrev gd : GatherDims S8x128x128x128 S512x512x2 S8x128x512x512 :=
  gather_S8x128x128x128_S512x512x2_S8x128x512x512_01_23_n_n_23_2_812811

/-- A start index that is a small word r reads, clamped to the last source coordinate 127, as r. -/
theorem clamp_small (r : Fin 128) : min (BitVec.ofNat 32 r.val).toInt.toNat (128 - 1) = r.val := by
  have := r.isLt
  rw [StableHlo.Predicate.toInt_ofNat_small _ (by omega)]
  simp only [Int.toNat_natCast]
  omega

/-- The gather read at (b, c, i, j) over any start indices whose pair at (i, j) is the small words (r, s):
    the operand at (b, c, r, s). Axes 0 and 1 are offset axes carrying b and c; axes 2 and 3 are collapsed and
    start-indexed. -/
theorem gather_at {α : Type} (D : S8x128x128x128.Idx → α) (idx : IVec S512x512x2 32) (b : Fin 8) (c : Fin 128)
    (i j : Fin 512) (r s : Fin 128) (hr : idx (ix3 i j (0 : Fin 2)) = BitVec.ofNat 32 r.val)
    (hs : idx (ix3 i j (1 : Fin 2)) = BitVec.ofNat 32 s.val) :
    Host.gather gd D idx (ix4 b c i j) = D (ix4 b c r s) := by
  unfold Host.gather
  congr 1
  -- where result index (b, c, i, j) reads the two components of its start index
  have hsi0 : gd.siIdx (ix4 b c i j) ⟨List.idxOf (2 : Fin 4) gd.startIndexMap, by decide⟩ = ix3 i j (0 : Fin 2) := by
    funext a; refine Fin.ext ?_
    match a with
    | ⟨0, _⟩ => rfl
    | ⟨1, _⟩ => rfl
    | ⟨2, _⟩ => rfl
  have hsi1 : gd.siIdx (ix4 b c i j) ⟨List.idxOf (3 : Fin 4) gd.startIndexMap, by decide⟩ = ix3 i j (1 : Fin 2) := by
    funext a; refine Fin.ext ?_
    match a with
    | ⟨0, _⟩ => rfl
    | ⟨1, _⟩ => rfl
    | ⟨2, _⟩ => rfl
  funext a
  refine Fin.ext ?_
  match a with
  | ⟨0, _⟩ =>
    show gd.start (ix4 b c i j) idx 0 + gd.batchCoord (ix4 b c i j) 0 + gd.offCoord (ix4 b c i j) 0 = b.val
    rw [GatherDims.batchCoord_eq_zero _ _ _ List.not_mem_nil]
    have h0 : gd.start (ix4 b c i j) idx 0 = 0 := by
      unfold GatherDims.start; rw [dif_neg (by decide)]
    rw [h0, Nat.zero_add]
    rfl
  | ⟨1, _⟩ =>
    show gd.start (ix4 b c i j) idx 1 + gd.batchCoord (ix4 b c i j) 1 + gd.offCoord (ix4 b c i j) 1 = c.val
    rw [GatherDims.batchCoord_eq_zero _ _ _ List.not_mem_nil]
    have h0 : gd.start (ix4 b c i j) idx 1 = 0 := by
      unfold GatherDims.start; rw [dif_neg (by decide)]
    rw [h0, Nat.zero_add]
    rfl
  | ⟨2, _⟩ =>
    show gd.start (ix4 b c i j) idx 2 + gd.batchCoord (ix4 b c i j) 2 + gd.offCoord (ix4 b c i j) 2 = r.val
    rw [GatherDims.batchCoord_eq_zero _ _ _ List.not_mem_nil,
      GatherDims.offCoord_eq_zero _ _ _ (by decide)]
    simp only [Nat.add_zero]
    unfold GatherDims.start
    rw [dif_pos (by decide), hsi0, hr]
    exact clamp_small r
  | ⟨3, _⟩ =>
    show gd.start (ix4 b c i j) idx 3 + gd.batchCoord (ix4 b c i j) 3 + gd.offCoord (ix4 b c i j) 3 = s.val
    rw [GatherDims.batchCoord_eq_zero _ _ _ List.not_mem_nil,
      GatherDims.offCoord_eq_zero _ _ _ (by decide)]
    simp only [Nat.add_zero]
    unfold GatherDims.start
    rw [dif_pos (by decide), hsi1, hs]
    exact clamp_small s

end Gather

/-- The upsampled data at (b, c, i, j) is the data at (b, c, i / 4, j / 4). -/
theorem upsampled_apply {α : Type} (D : S8x128x128x128.Idx → α) (b : Fin 8) (c : Fin 128) (i j : Fin 512) :
    Host.gather gather_S8x128x128x128_S512x512x2_S8x128x512x512_01_23_n_n_23_2_812811 D Term.startIdx (ix4 b c i j)
      = D (ix4 b c (low i) (low j)) :=
  Gather.gather_at D Term.startIdx b c i j (low i) (low j) (Gather.startIdx_apply_row i j) (Gather.startIdx_apply_col i j)

end Cert.ReferenceIdeal.Value

end
-- ==== Proof.RefScatter.lean ====
/-
  The reference's two scatter-adds read at an index, over the extended reals: row `s` of the segment sums is the sum
  of the scattered rows whose segment id is `s`, entry `s` of the segment counts the sum of the scattered validity
  bits whose segment id is `s` (the operand they are added to is zero; an id outside [0, 192) lands nowhere).
-/
import proofs.«404461_j37237366456700_3_alg».proof.Proof.RefTerm
import Idealize.ShloMosaic.Lib.ValueIdx
import Idealize.ShloMosaic.PureOps.Ideal.Laws

noncomputable section

namespace Cert.ReferenceIdeal.Value

open Idealize.ShloMosaic Idealize.ShloMosaic.ValueIdx Cert.ReferenceIdeal

/-- The flattened pixels whose segment id, read as a signed word, is `s`. -/
def segPix (Lb : IVec S8x512x512 32) (s : Fin 192) : Finset (Fin 2097152) :=
  Finset.univ.filter fun p => (Term.segId Lb (ix1 p)).toInt = (s.val : ℤ)

/-- The validity bits of the flattened pixels, as 1 / 0 (what is scattered into the counts). -/
def validF (Lb : IVec S8x512x512 32) : FVec Ideal S2097152 .f32 :=
  uitofp .f32 (shapeCast S2097152 (Term.valid Lb) Facts₀.shapeCasts_S8x512x512_S2097152)

/-! ## Where an update lands, for any scatter -/

/-- An update lands at the operand index `i` exactly when, on every axis, the window's start plus the window
    coordinate is `i`'s coordinate: in range is then automatic, and out of range on some axis matches no `i`. -/
theorem scat_lands_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split_ifs with h
  · rw [Option.some.injEq]
    constructor
    · rintro rfl a
      have := h a
      simp only
      omega
    · intro he
      funext a
      apply Fin.ext
      have := he a
      simp only
      omega
  · constructor
    · intro hn; cases hn
    · intro he
      refine absurd (fun a => ?_) h
      have := he a
      have := (i a).isLt
      omega

/-- A scatter-add read at an index, over the extended reals: the operand there plus every update that lands there. -/
theorem scat_add_apply {φ : FTy} {s si u : Shape} {w : Nat} (d : ScatterDims s si u) (x : FVec Ideal s φ)
    (idx : IVec si w) (upd : FVec Ideal u φ) (i : s.Idx) :
    Host.scatterAdd d x idx upd i = x i + ∑ j, if d.resultIdx? j idx = some i then upd j else 0 := by
  rw [← Finset.sum_filter]
  rfl

/-- A sum over a rank-1 index set is the sum over its one coordinate. -/
theorem scat_sum_idx1 {M : Type*} [AddCommMonoid M] {n : Nat} (f : (⟨1, ![n]⟩ : Shape).Idx → M) :
    ∑ i, f i = ∑ a : Fin n, f (ix1 a) :=
  (Equiv.sum_comp (⟨fun a => ix1 a, fun i => i 0, fun _ => rfl, fun i => (eq_ix1 i).symm⟩ :
    Fin n ≃ (⟨1, ![n]⟩ : Shape).Idx) f).symm

/-! ## The scatter into the segment sums: updates [2097152, 128], the row axis inserted, the channel axis a window -/

/-- On the row axis the window starts at the index column's entry for the update's pixel, read signed. -/
theorem scat_sum_start0 (idx : IVec S2097152x1 32) (p : Fin 2097152) (c' : Fin 128) :
    scatter_S192x128_S2097152x1_S2097152x128_1_0_0_1.start (ix2 p c') idx 0 = (idx (ix2 p 0)).toInt := by
  unfold ScatterDims.start
  rw [dif_pos (show (0 : Fin 2) ∈ scatter_S192x128_S2097152x1_S2097152x128_1_0_0_1.scatterDimsToOperandDims from List.mem_singleton.mpr rfl)]
  congr 2
  funext b
  refine Fin.ext ?_
  match b with
  | ⟨0, _⟩ => rfl
  | ⟨1, _⟩ => rfl

/-- The channel axis is not indexed: its window starts at 0. -/
theorem scat_sum_start1 (idx : IVec S2097152x1 32) (j : S2097152x128.Idx) :
    scatter_S192x128_S2097152x1_S2097152x128_1_0_0_1.start j idx 1 = 0 := by
  unfold ScatterDims.start
  rw [dif_neg (show ¬ (1 : Fin 2) ∈ scatter_S192x128_S2097152x1_S2097152x128_1_0_0_1.scatterDimsToOperandDims from
    fun h => absurd (List.mem_singleton.mp h) (by decide))]

/-- The row axis is inserted: it has no window coordinate. -/
theorem scat_sum_window0 (j : S2097152x128.Idx) :
    scatter_S192x128_S2097152x1_S2097152x128_1_0_0_1.window j 0 = 0 := by
  unfold ScatterDims.window
  rw [dif_neg (show ¬ (0 : Fin 2) ∈ scatter_S192x128_S2097152x1_S2097152x128_1_0_0_1.sKept from
    fun h => absurd (List.mem_singleton.mp h) (by decide))]

/-- The channel axis carries the update's channel. -/
theorem scat_sum_window1 (p : Fin 2097152) (c' : Fin 128) :
    scatter_S192x128_S2097152x1_S2097152x128_1_0_0_1.window (ix2 p c') 1 = c'.val := by
  unfold ScatterDims.window
  rw [dif_pos (show (1 : Fin 2) ∈ scatter_S192x128_S2097152x1_S2097152x128_1_0_0_1.sKept from List.mem_singleton.mpr rfl)]
  rfl

/-- Update (p, c') lands at (s, c) exactly when the index column's entry for p is s and c' = c. -/
theorem scat_sum_lands_iff (idx : IVec S2097152x1 32) (p : Fin 2097152) (c' : Fin 128) (s : Fin 192) (c : Fin 128) :
    scatter_S192x128_S2097152x1_S2097152x128_1_0_0_1.resultIdx? (ix2 p c') idx = some (ix2 s c)
      ↔ (idx (ix2 p 0)).toInt = (s.val : ℤ) ∧ c' = c := by
  rw [scat_lands_iff, Fin.forall_fin_two, scat_sum_start0, scat_sum_start1, scat_sum_window0, scat_sum_window1]
  show (idx (ix2 p 0)).toInt + ((0 : ℕ) : ℤ) = (s.val : ℤ) ∧ (0 : ℤ) + ((c'.val : ℕ) : ℤ) = (c.val : ℤ) ↔ _
  rw [Nat.cast_zero, add_zero, zero_add, Nat.cast_inj, Fin.val_inj]

/-! ## The scatter into the segment counts: updates [2097152], the one operand axis inserted -/

/-- The window starts at the index column's entry for the update's pixel, read signed. -/
theorem scat_cnt_start0 (idx : IVec S2097152x1 32) (p : Fin 2097152) :
    scatter_S192_S2097152x1_S2097152_n_0_0_1.start (ix1 p) idx 0 = (idx (ix2 p 0)).toInt := by
  unfold ScatterDims.start
  rw [dif_pos (show (0 : Fin 1) ∈ scatter_S192_S2097152x1_S2097152_n_0_0_1.scatterDimsToOperandDims from List.mem_singleton.mpr rfl)]
  congr 2
  funext b
  refine Fin.ext ?_
  match b with
  | ⟨0, _⟩ => rfl
  | ⟨1, _⟩ => rfl

/-- The one operand axis is inserted: it has no window coordinate. -/
theorem scat_cnt_window0 (j : S2097152.Idx) :
    scatter_S192_S2097152x1_S2097152_n_0_0_1.window j 0 = 0 := by
  unfold ScatterDims.window
  rw [dif_neg (show ¬ (0 : Fin 1) ∈ scatter_S192_S2097152x1_S2097152_n_0_0_1.sKept from List.not_mem_nil)]

/-- Update p lands at s exactly when the index column's entry for p is s. -/
theorem scat_cnt_lands_iff (idx : IVec S2097152x1 32) (p : Fin 2097152) (s : Fin 192) :
    scatter_S192_S2097152x1_S2097152_n_0_0_1.resultIdx? (ix1 p) idx = some (ix1 s) ↔ (idx (ix2 p 0)).toInt = (s.val : ℤ) := by
  rw [scat_lands_iff, Fin.forall_fin_one, scat_cnt_start0, scat_cnt_window0]
  show (idx (ix2 p 0)).toInt + ((0 : ℕ) : ℤ) = (s.val : ℤ) ↔ _
  rw [Nat.cast_zero, add_zero]

/-! ## The index column and the zero operand -/

/-- The index column at row p is pixel p's segment id. -/
theorem scat_segCol_apply (Lb : IVec S8x512x512 32) (p : Fin 2097152) :
    Term.segCol Lb (ix2 p 0) = Term.segId Lb (ix1 p) := by
  unfold Term.segCol
  simp only [broadcastInDim]
  congr 1
  funext a
  match a with
  | ⟨0, _⟩ =>
    refine Fin.ext ?_
    split
    · next h1 => change (2097152 : ℕ) = 1 at h1; omega
    · rfl

/-- The operand the segment sums are added to is zero everywhere. -/
theorem scat_zero_S192x128 (i : S192x128.Idx) :
    broadcastInDim S192x128 ![] Facts₀.bcast_S_S192x128 (constant (F := Ideal) S_ .f32 0x00000000#32) i = 0 := by
  show Ideal.ofBits .f32 0x00000000#32 = 0
  exact Ideal.ofBits_zero_f32

/-- The operand the segment counts are added to is zero everywhere. -/
theorem scat_zero_S192 (i : S192.Idx) :
    broadcastInDim S192 ![] Facts₀.bcast_S_S192 (constant (F := Ideal) S_ .f32 0x00000000#32) i = 0 := by
  show Ideal.ofBits .f32 0x00000000#32 = 0
  exact Ideal.ofBits_zero_f32

/-! ## The two scatter-adds read at an index -/

/-- Entry (s, c) of the segment sums: zero plus the updates (p, c') that land there, which are the (p, c) with p's
    segment id s; the inner sum over c' keeps the one term c' = c. -/
theorem segSums_apply (D : FVec Ideal S8x128x128x128 .f32) (Lb : IVec S8x512x512 32) (s : Fin 192) (c : Fin 128) :
    Term.segSums (F := Ideal) D Lb (ix2 s c) = ∑ p ∈ segPix Lb s, Term.updates (F := Ideal) D Lb (ix2 p c) := by
  have hdef : Term.segSums (F := Ideal) D Lb = Host.scatterAdd scatter_S192x128_S2097152x1_S2097152x128_1_0_0_1
      (broadcastInDim S192x128 ![] Facts₀.bcast_S_S192x128 (constant (F := Ideal) S_ .f32 0x00000000#32)) (Term.segCol Lb)
      (Term.updates (F := Ideal) D Lb) := rfl
  rw [hdef, scat_add_apply, scat_zero_S192x128, zero_add]
  generalize Term.updates (F := Ideal) D Lb = upd
  rw [sum_idx2, segPix, Finset.sum_filter]
  refine Finset.sum_congr rfl fun p _ => ?_
  simp only [scat_sum_lands_iff, scat_segCol_apply]
  by_cases h : (Term.segId Lb (ix1 p)).toInt = (s.val : ℤ)
  · simp only [h, true_and, if_true, Finset.sum_ite_eq', Finset.mem_univ]
  · simp only [h, false_and, if_false, Finset.sum_const_zero]

/-- Entry s of the segment counts: zero plus the validity bits of the pixels whose segment id is s. -/
theorem segCounts_apply (Lb : IVec S8x512x512 32) (s : Fin 192) :
    Term.segCounts (F := Ideal) Lb (ix1 s) = ∑ p ∈ segPix Lb s, validF Lb (ix1 p) := by
  have hdef : Term.segCounts (F := Ideal) Lb = Host.scatterAdd scatter_S192_S2097152x1_S2097152_n_0_0_1
      (broadcastInDim S192 ![] Facts₀.bcast_S_S192 (constant (F := Ideal) S_ .f32 0x00000000#32)) (Term.segCol Lb)
      (validF Lb) := rfl
  rw [hdef, scat_add_apply, scat_zero_S192, zero_add]
  generalize validF Lb = upd
  rw [scat_sum_idx1, segPix, Finset.sum_filter]
  refine Finset.sum_congr rfl fun p _ => ?_
  simp only [scat_cnt_lands_iff, scat_segCol_apply]

end Cert.ReferenceIdeal.Value

end
-- ==== Proof.RefValue.lean ====
/-
  The reference's two results are the per-class mean and the occupancy mask of the specification, when every label
  is -1 or a class 0 … 23: the scatter-add sends pixel (b, i, j) to segment 24·b + label (an ignored pixel to
  24·b with a zero row), so segment 24·b + n receives exactly the pixels of batch b labelled n.

  The steps. Pixel (b, i, j) of [8, 512, 512] sits at the flattened position (b·512 + i)·512 + j, a bijection
  with [0, 2097152). The segment id of that pixel is the word (label, or 0 where the label is -1) + 24·b; for a
  label in [-1, 24) its signed value is 24·b + label, or 24·b for an ignored pixel, so it equals 24·b' + n with
  n < 24 exactly when b = b' and the label is n (or n = 0 and the pixel is ignored). The row scattered for a pixel
  is the upsampled data times the validity bit, so an ignored pixel adds x · 0 = 0 to class 0 and 0 to its count,
  and a valid pixel adds x · 1 = x and 1. Hence row 24·b + n of the segment sums is the class sum and entry
  24·b + n of the segment counts the class count. The tail reads segment 24·b + n at (b, n), adds the guard,
  divides, transposes, and for the mask compares the count with 0.
-/
import proofs.«404461_j37237366456700_3_alg».proof.Proof.RefGather
import proofs.«404461_j37237366456700_3_alg».proof.Proof.RefScatter
import Idealize.ShloMosaic.Lib.Pipeline.Value
import Idealize.ShloMosaic.Lib.ValueLayout
import Idealize.ShloMosaic.Lib.StableHlo.Predicate
import Idealize.ShloMosaic.PureOps.Ideal.Laws

noncomputable section

namespace Cert.ReferenceIdeal.SegValue

open Idealize.ShloMosaic Idealize.ShloMosaic.ValueIdx Cert.ReferenceIdeal Cert.SegMean Cert.ReferenceIdeal.Value

/-! ## Flattening the pixels -/

/-- The flattened position of pixel (b, i, j): row-major over [8, 512, 512]. -/
def pix : Fin 8 × Fin 512 × Fin 512 ≃ Fin 2097152 where
  toFun t := ⟨(t.1.val * 512 + t.2.1.val) * 512 + t.2.2.val, by
    have := t.1.isLt; have := t.2.1.isLt; have := t.2.2.isLt; omega⟩
  invFun p := (⟨p.val / 262144, by have := p.isLt; omega⟩, ⟨p.val / 512 % 512, Nat.mod_lt _ (by decide)⟩,
    ⟨p.val % 512, Nat.mod_lt _ (by decide)⟩)
  left_inv t := by
    obtain ⟨b, i, j⟩ := t
    have := b.isLt; have := i.isLt; have := j.isLt
    refine Prod.ext (Fin.ext ?_) (Prod.ext (Fin.ext ?_) (Fin.ext ?_))
    · show ((b.val * 512 + i.val) * 512 + j.val) / 262144 = b.val; omega
    · show ((b.val * 512 + i.val) * 512 + j.val) / 512 % 512 = i.val; omega
    · show ((b.val * 512 + i.val) * 512 + j.val) % 512 = j.val; omega
  right_inv p := by
    refine Fin.ext ?_
    show (p.val / 262144 * 512 + p.val / 512 % 512) * 512 + p.val % 512 = p.val
    have := p.isLt; omega

theorem pix_val (b : Fin 8) (i j : Fin 512) : (pix (b, i, j)).val = (b.val * 512 + i.val) * 512 + j.val := rfl

/-- A [8, 512, 512] array flattened reads, at the position of pixel (b, i, j), the array at (b, i, j). -/
theorem flat3_apply {α : Type} (x : S8x512x512.Idx → α) (h : S8x512x512.ShapeCasts S2097152) (b : Fin 8) (i j : Fin 512) :
    shapeCast S2097152 x h (ix1 (pix (b, i, j))) = x (ix3 b i j) :=
  shapeCast_apply x h _ _ (by
    rw [Shape.rowMajor_val_three, Shape.rowMajor_val_one]
    rfl)

/-- A [8, 512, 512, 128] array flattened to [2097152, 128] reads, at (position of (b, i, j), c), the array at (b, i, j, c). -/
theorem flat4_apply {α : Type} (x : S8x512x512x128.Idx → α) (h : S8x512x512x128.ShapeCasts S2097152x128) (b : Fin 8) (i j : Fin 512)
    (c : Fin 128) : shapeCast S2097152x128 x h (ix2 (pix (b, i, j)) c) = x (ix4 b i j c) :=
  shapeCast_apply x h _ _ (by
    rw [Shape.rowMajor_val_four, Shape.rowMajor_val_two]
    rfl)

/-! ## The label words: validity bit, cleaned label, segment id -/

theorem valid_apply (Lb : IVec S8x512x512 32) (k : S8x512x512.Idx) :
    Term.valid Lb k = IntOp.cmpi .ne (Lb k) 4294967295#32 := rfl

theorem lab_apply (Lb : IVec S8x512x512 32) (k : S8x512x512.Idx) :
    Term.lab Lb k = Scalar.select (Term.valid Lb k) (Lb k) 0#32 := rfl

/-- The segment id of pixel (b, i, j) is its cleaned label plus 24·b, as words. -/
theorem segId_pix (Lb : IVec S8x512x512 32) (b : Fin 8) (i j : Fin 512) :
    Term.segId Lb (ix1 (pix (b, i, j)))
      = IntOp.addi (Term.lab Lb (ix3 b i j)) (IntOp.muli (BitVec.ofNat 32 b.val) 24#32) := by
  unfold Term.segId
  refine (flat3_apply _ _ b i j).trans ?_
  rfl

/-- The validity bit of a label in range: 1 unless the label is -1. -/
theorem valid_bit (l : BitVec 32) : IntOp.cmpi .ne l 4294967295#32 = if l.toInt = -1 then 0#1 else 1#1 := by
  have h : l.toInt = -1 ↔ l = 4294967295#32 := by
    rw [show (-1 : ℤ) = (4294967295#32 : BitVec 32).toInt from by decide]
    exact BitVec.toInt_inj
  by_cases hl : l = 4294967295#32
  · subst hl; decide
  · rw [if_neg (fun h' => hl (h.mp h'))]
    show BitVec.ofBool (l != 4294967295#32) = 1#1
    rw [bne_iff_ne.mpr hl]
    rfl

/-- Under the range hypothesis the signed value of a pixel's segment id: 24·b plus the label, an ignored pixel's being 24·b. -/
theorem segId_toInt (Lb : IVec S8x512x512 32) (b : Fin 8) (i j : Fin 512)
    (hl : (-1 : ℤ) ≤ (Lb (ix3 b i j)).toInt ∧ (Lb (ix3 b i j)).toInt < 24) :
    (Term.segId Lb (ix1 (pix (b, i, j)))).toInt
      = 24 * (b.val : ℤ) + (if (Lb (ix3 b i j)).toInt = -1 then 0 else (Lb (ix3 b i j)).toInt) := by
  rw [segId_pix, lab_apply, valid_apply, valid_bit]
  generalize Lb (ix3 b i j) = l at hl ⊢
  have hb := b.isLt
  have hm : (IntOp.muli (BitVec.ofNat 32 b.val) 24#32).toNat = 24 * b.val := by
    show (BitVec.ofNat 32 b.val * 24#32).toNat = _
    rw [BitVec.toNat_mul, BitVec.toNat_ofNat, BitVec.toNat_ofNat]
    omega
  by_cases h1 : l.toInt = -1
  · rw [if_pos h1, if_pos h1, select_zero]
    show ((0#32 : BitVec 32) + IntOp.muli (BitVec.ofNat 32 b.val) 24#32).toInt = _
    rw [BitVec.zero_add, BitVec.toInt_eq_toNat_cond, hm]
    split <;> omega
  · rw [if_neg h1, if_neg h1, select_one]
    show (l + IntOp.muli (BitVec.ofNat 32 b.val) 24#32).toInt = _
    have hl0 : 0 ≤ l.toInt := by omega
    have hlt : l.toInt = (l.toNat : ℤ) := by
      rw [BitVec.toInt_eq_toNat_cond] at hl0 ⊢
      split at hl0 <;> rename_i h2
      · rw [if_pos h2]
      · have := l.isLt; omega
    rw [BitVec.toInt_eq_toNat_cond, BitVec.toNat_add, hm, hlt]
    have : l.toNat < 24 := by omega
    split <;> omega

/-! ## What is scattered, at a pixel -/

/-- The validity bit as an extended real: 1, or 0 for an ignored pixel. -/
def vbit (Lb : IVec S8x512x512 32) (b : Fin 8) (i j : Fin 512) : EReal :=
  (((Term.valid Lb (ix3 b i j)).toNat : ℝ) : EReal)

theorem vbit_ignored (Lb : IVec S8x512x512 32) (b : Fin 8) (i j : Fin 512) (h : (Lb (ix3 b i j)).toInt = -1) :
    vbit Lb b i j = 0 := by
  unfold vbit
  rw [valid_apply, valid_bit, if_pos h]
  simp

theorem vbit_valid (Lb : IVec S8x512x512 32) (b : Fin 8) (i j : Fin 512) (h : ¬ (Lb (ix3 b i j)).toInt = -1) :
    vbit Lb b i j = 1 := by
  unfold vbit
  rw [valid_apply, valid_bit, if_neg h]
  simp

/-- The row scattered for pixel (b, i, j), at channel c: the upsampled data times the validity bit. -/
theorem updates_pix (D : FVec Ideal S8x128x128x128 .f32) (Lb : IVec S8x512x512 32) (b : Fin 8) (i j : Fin 512) (c : Fin 128) :
    Term.updates (F := Ideal) D Lb (ix2 (pix (b, i, j)) c) = D (ix4 b c (low i) (low j)) * vbit Lb b i j := by
  unfold Term.updates
  refine (flat4_apply _ _ b i j c).trans ?_
  refine (transpose_apply _ _ _ _ (ix4 b c i j) (fun a => ?_)).trans ?_
  · match a with
    | ⟨0, _⟩ => rfl
    | ⟨1, _⟩ => rfl
    | ⟨2, _⟩ => rfl
    | ⟨3, _⟩ => rfl
  rw [mulf_apply]
  congr 1
  · exact upsampled_apply D b c i j
  · refine (broadcastInDim_apply _ _ _ _ (ix4 b (0 : Fin 1) i j) (fun a => ?_)).trans ?_
    · match a with
      | ⟨0, _⟩ => rfl
      | ⟨1, _⟩ => rfl
      | ⟨2, _⟩ => rfl
      | ⟨3, _⟩ => rfl
    have hv : broadcastInDim S8x1x512x512 ![0, 2, 3] _ (Term.valid Lb) (ix4 b (0 : Fin 1) i j) = Term.valid Lb (ix3 b i j) :=
      broadcastInDim_apply _ Facts₀.bcast_S8x512x512_S8x1x512x512_0_2_3 _ _ (ix3 b i j) (fun a => by
        match a with
        | ⟨0, _⟩ => rfl
        | ⟨1, _⟩ => rfl
        | ⟨2, _⟩ => rfl)
    show (((broadcastInDim S8x1x512x512 ![0, 2, 3] _ (Term.valid Lb) (ix4 b (0 : Fin 1) i j)).toNat : ℝ) : EReal) = _
    rw [hv]
    rfl

/-- The validity bit scattered for pixel (b, i, j). -/
theorem validF_pix (Lb : IVec S8x512x512 32) (b : Fin 8) (i j : Fin 512) :
    validF Lb (ix1 (pix (b, i, j))) = vbit Lb b i j := by
  unfold validF vbit
  show (((shapeCast S2097152 (Term.valid Lb) Facts₀.shapeCasts_S8x512x512_S2097152 (ix1 (pix (b, i, j)))).toNat : ℝ) : EReal) = _
  rw [flat3_apply]

/-! ## The pixels of a segment -/

/-- Segment 24·b + n. -/
def seg (b : Fin 8) (n : Fin 24) : Fin 192 := ⟨b.val * 24 + n.val, by have := b.isLt; have := n.isLt; omega⟩

/-- A label in range is the class n exactly when its signed value is n. -/
theorem label_eq_iff (l : BitVec 32) (n : Fin 24) : l = BitVec.ofNat 32 n.val ↔ l.toInt = (n.val : ℤ) := by
  have hn := n.isLt
  rw [← StableHlo.Predicate.toInt_ofNat_small n.val (by omega)]
  exact BitVec.toInt_inj.symm

/-- A sum over the pixels of segment 24·b + n is the sum over the pixels of batch b labelled n, for a summand that
    vanishes on ignored pixels. -/
theorem sum_segPix {M : Type} [AddCommMonoid M] (Lb : IVec S8x512x512 32)
    (hL : ∀ i, (-1 : ℤ) ≤ (Lb i).toInt ∧ (Lb i).toInt < 24) (b : Fin 8) (n : Fin 24) (g : Fin 2097152 → M)
    (h0 : ∀ i j, (Lb (ix3 b i j)).toInt = -1 → g (pix (b, i, j)) = 0) :
    ∑ p ∈ segPix Lb (seg b n), g p = ∑ q ∈ classPix Lb b n, g (pix (b, q.1, q.2)) := by
  have hb := b.isLt
  have hn := n.isLt
  unfold segPix classPix
  rw [Finset.sum_filter, Finset.sum_filter, ← Equiv.sum_comp pix, Fintype.sum_prod_type, Finset.sum_eq_single b]
  · refine Finset.sum_congr rfl fun q _ => ?_
    obtain ⟨i, j⟩ := q
    have hl := hL (ix3 b i j)
    rw [segId_toInt Lb b i j hl]
    show (if 24 * (b.val : ℤ) + _ = ((b.val * 24 + n.val : ℕ) : ℤ) then _ else _) = _
    by_cases h1 : (Lb (ix3 b i j)).toInt = -1
    · rw [if_pos h1, h0 i j h1, ite_self, ite_self]
    · rw [if_neg h1]
      refine if_congr ?_ rfl rfl
      rw [label_eq_iff]
      constructor <;> intro h <;> push_cast at h ⊢ <;> omega
  · intro b' _ hb'
    refine Finset.sum_eq_zero fun q _ => ?_
    obtain ⟨i, j⟩ := q
    have hl := hL (ix3 b' i j)
    rw [segId_toInt Lb b' i j hl, if_neg]
    show ¬ (24 * (b'.val : ℤ) + _ = ((b.val * 24 + n.val : ℕ) : ℤ))
    have hbb : b'.val ≠ b.val := fun h => hb' (Fin.ext h)
    have := b'.isLt
    push_cast
    split <;> omega
  · intro h
    exact absurd (Finset.mem_univ _) h

/-! ## The segment sums and counts are the specification's -/

/-- A sum of ones over a finite set is its number of elements, as an extended real. -/
theorem sum_one_ereal {ι : Type} (s : Finset ι) : ∑ _q ∈ s, (1 : EReal) = ((s.card : ℝ) : EReal) := by
  rw [Finset.sum_const, nsmul_one]
  rfl

theorem toInt_class_ne (n : Fin 24) : ¬ (BitVec.ofNat 32 n.val).toInt = -1 := by
  have hn := n.isLt
  rw [StableHlo.Predicate.toInt_ofNat_small n.val (by omega)]
  omega

/-- Row 24·b + n of the segment sums, at channel c, is the class sum of the specification. -/
theorem sums_eq_sm (D : FVec Ideal S8x128x128x128 .f32) (Lb : IVec S8x512x512 32)
    (hL : ∀ i, (-1 : ℤ) ≤ (Lb i).toInt ∧ (Lb i).toInt < 24) (b : Fin 8) (c : Fin 128) (n : Fin 24) :
    Term.segSums (F := Ideal) D Lb (ix2 (seg b n) c) = sm D Lb b c n := by
  rw [segSums_apply, sum_segPix Lb hL b n (fun p => Term.updates (F := Ideal) D Lb (ix2 p c))]
  · unfold sm
    refine Finset.sum_congr rfl fun q hq => ?_
    obtain ⟨i, j⟩ := q
    have hq' : Lb (ix3 b i j) = BitVec.ofNat 32 n.val := (Finset.mem_filter.mp hq).2
    show Term.updates (F := Ideal) D Lb (ix2 (pix (b, i, j)) c) = _
    rw [updates_pix, vbit_valid Lb b i j (by rw [hq']; exact toInt_class_ne n), mul_one]
  · intro i j h
    show Term.updates (F := Ideal) D Lb (ix2 (pix (b, i, j)) c) = 0
    rw [updates_pix, vbit_ignored Lb b i j h, mul_zero]

/-- Entry 24·b + n of the segment counts is the class count of the specification. -/
theorem counts_eq_cnt (Lb : IVec S8x512x512 32) (hL : ∀ i, (-1 : ℤ) ≤ (Lb i).toInt ∧ (Lb i).toInt < 24)
    (b : Fin 8) (n : Fin 24) :
    Term.segCounts (F := Ideal) Lb (ix1 (seg b n)) = ((cnt Lb b n : ℝ) : EReal) := by
  rw [segCounts_apply, sum_segPix Lb hL b n (fun p => validF Lb (ix1 p))]
  · unfold cnt
    rw [← sum_one_ereal]
    refine Finset.sum_congr rfl fun q hq => ?_
    obtain ⟨i, j⟩ := q
    have hq' : Lb (ix3 b i j) = BitVec.ofNat 32 n.val := (Finset.mem_filter.mp hq).2
    show validF Lb (ix1 (pix (b, i, j))) = 1
    rw [validF_pix, vbit_valid Lb b i j (by rw [hq']; exact toInt_class_ne n)]
  · intro i j h
    show validF Lb (ix1 (pix (b, i, j))) = 0
    rw [validF_pix, vbit_ignored Lb b i j h]

/-! ## The tail: segments laid out [batch, class], the guarded quotient, the mask -/

/-- The counts laid out [batch, class] read segment 24·b + n at (b, n). -/
theorem counts_apply (Lb : IVec S8x512x512 32) (b : Fin 8) (n : Fin 24) :
    Term.counts (F := Ideal) Lb (ix2 b n) = Term.segCounts (F := Ideal) Lb (ix1 (seg b n)) := by
  unfold Term.counts
  exact shapeCast_apply _ _ _ _ (by
    rw [Shape.rowMajor_val_one, Shape.rowMajor_val_two]
    rfl)

/-- The sums laid out [batch, class, channel] read row 24·b + n at (b, n, ·). -/
theorem sums_cast_apply (X : S192x128.Idx → EReal) (h : S192x128.ShapeCasts S8x24x128) (b : Fin 8) (n : Fin 24) (c : Fin 128) :
    shapeCast S8x24x128 X h (ix3 b n c) = X (ix2 (seg b n) c) :=
  shapeCast_apply _ _ _ _ (by
    rw [Shape.rowMajor_val_two, Shape.rowMajor_val_three]
    rfl)

/-! Operations of the tail read at an index, at the extended reals (each by unfolding its definition). -/

theorem hostDivf_apply {s : Shape} {φ : FTy} (a b : FVec Ideal s φ) (i : s.Idx) :
    Host.divf a b i = Ideal.div (a i) (b i) := rfl

theorem uitofp_apply {s : Shape} {φ : FTy} {w : Nat} (x : IVec s w) (i : s.Idx) :
    (uitofp φ x : FVec Ideal s φ) i = (((x i).toNat : ℝ) : EReal) := rfl

theorem cmpf_ideal_apply {s : Shape} {φ : FTy} (p : CmpFPredicate) (a b : FVec Ideal s φ) (i : s.Idx) :
    cmpf p a b i = Ideal.cmp p (a i) (b i) := rfl

theorem bcast_const_apply {t : Shape} {φ : FTy} (h : S_.BroadcastsInDim t ![]) (w : BitVec φ.bits) (j : t.Idx) :
    broadcastInDim t ![] h (constant (F := Ideal) S_ φ w) j = Ideal.ofBits φ w := rfl

/-- The first result at (b, c, n): the segment sum over the segment count plus the guard. -/
theorem featTerm_apply (D : FVec Ideal S8x128x128x128 .f32) (Lb : IVec S8x512x512 32) (b : Fin 8) (c : Fin 128) (n : Fin 24) :
    Term.featTerm (F := Ideal) D Lb (ix3 b c n)
      = Ideal.div (Term.segSums (F := Ideal) D Lb (ix2 (seg b n) c)) (Term.segCounts (F := Ideal) Lb (ix1 (seg b n)) + eps) := by
  unfold Term.featTerm
  refine (transpose_ix3_021_apply _ _ b c n).trans ?_
  refine (hostDivf_apply _ _ _).trans ?_
  rw [sums_cast_apply]
  refine congrArg (Ideal.div _) ?_
  refine (broadcastInDim_apply _ _ _ _ (ix3 b n (0 : Fin 1)) (fun a => ?_)).trans ?_
  · match a with
    | ⟨0, _⟩ => rfl
    | ⟨1, _⟩ => rfl
    | ⟨2, _⟩ => rfl
  refine (addf_apply _ _ _).trans ?_
  refine congrArg₂ (· + ·) ?_ ?_
  · refine (broadcastInDim_apply _ _ _ _ (ix2 b n) (fun a => ?_)).trans (counts_apply Lb b n)
    match a with
    | ⟨0, _⟩ => rfl
    | ⟨1, _⟩ => rfl
  · exact bcast_const_apply _ _ _

/-- The second result at (b, n): whether the segment count is positive, as 1 / 0. -/
theorem maskTerm_apply (Lb : IVec S8x512x512 32) (b : Fin 8) (n : Fin 24) :
    Term.maskTerm (F := Ideal) Lb (ix2 b n)
      = (((Ideal.cmp .ogt (Term.segCounts (F := Ideal) Lb (ix1 (seg b n))) 0).toNat : ℝ) : EReal) := by
  unfold Term.maskTerm
  refine (uitofp_apply _ _).trans ?_
  rw [cmpf_ideal_apply, counts_apply, bcast_const_apply, Ideal.ofBits_zero_f32]

end Cert.ReferenceIdeal.SegValue

namespace Cert.ReferenceIdeal.Value

open Idealize.ShloMosaic Idealize.ShloMosaic.ValueIdx Cert.ReferenceIdeal Cert.SegMean

/-! ## The two results -/

theorem featTerm_eq (D : FVec Ideal S8x128x128x128 .f32) (Lb : IVec S8x512x512 32)
    (hL : ∀ i, (-1 : ℤ) ≤ (Lb i).toInt ∧ (Lb i).toInt < 24) :
    Term.featTerm (F := Ideal) D Lb = Cert.SegMean.feat D Lb := by
  funext k
  obtain ⟨b, c, n, rfl⟩ : ∃ (b : Fin 8) (c : Fin 128) (n : Fin 24), k = ix3 b c n := ⟨k 0, k 1, k 2, eq_ix3 k⟩
  rw [SegValue.featTerm_apply, SegValue.sums_eq_sm D Lb hL, SegValue.counts_eq_cnt Lb hL]
  rfl

theorem maskTerm_eq (Lb : IVec S8x512x512 32) (hL : ∀ i, (-1 : ℤ) ≤ (Lb i).toInt ∧ (Lb i).toInt < 24) :
    Term.maskTerm (F := Ideal) Lb = Cert.SegMean.mask Lb := by
  funext k
  obtain ⟨b, n, rfl⟩ : ∃ (b : Fin 8) (n : Fin 24), k = ix2 b n := ⟨k 0, k 1, eq_ix2 k⟩
  rw [SegValue.maskTerm_apply, SegValue.counts_eq_cnt Lb hL]
  show (((Ideal.cmp .ogt ((cnt Lb b n : ℝ) : EReal) 0).toNat : ℝ) : EReal) = (((if 0 < cnt Lb b n then (1 : ℝ) else 0 : ℝ)) : EReal)
  have hpos : (0 : EReal) < ((cnt Lb b n : ℝ) : EReal) ↔ 0 < cnt Lb b n := by
    rw [EReal.coe_pos, Nat.cast_pos]
  by_cases h : 0 < cnt Lb b n
  · rw [if_pos h]
    have : Ideal.cmp .ogt ((cnt Lb b n : ℝ) : EReal) 0 = 1#1 := by
      show BitVec.ofBool (decide ((0 : EReal) < ((cnt Lb b n : ℝ) : EReal))) = 1#1
      rw [decide_eq_true (hpos.mpr h)]
      rfl
    rw [this]
    simp
  · rw [if_neg h]
    have : Ideal.cmp .ogt ((cnt Lb b n : ℝ) : EReal) 0 = 0#1 := by
      show BitVec.ofBool (decide ((0 : EReal) < ((cnt Lb b n : ℝ) : EReal))) = 0#1
      rw [decide_eq_false (fun h' => h (hpos.mp h'))]
      rfl
    rw [this]
    simp

end Cert.ReferenceIdeal.Value

end
-- ==== Proof.KernelPayload.lean ====
/-
  The kernel body's arithmetic read at an index, over the extended reals. The body builds, for a tile of 32
  low-resolution rows, the count of sub-pixels carrying each class (sixteen one-hot compares of a sub-pixel plane
  against the class index, added up), flattens it to [4096, 128], and multiplies: the data tile [128, 4096] by the
  counts gives the tile's class sums, a row of ones by the counts gives the tile's class counts; both are added
  to the running totals. The last tile divides the sums by the guarded counts and marks the occupied classes.
-/
import proofs.«404461_j37237366456700_3_alg».proof.Proof.Gen.KernelIdeal.Skeleton
import proofs.«404461_j37237366456700_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen Cert.SegMean
open Cert.KernelIdeal.Facts₀ Cert.KernelIdeal.Facts

/-- The class index along the last axis of the [32, 128, 128] compare. -/
abbrev iotaV : IVec S32x128x128 32 := iota .tc S32x128x128 32 [2] Facts₀.iota_S32x128x128_d2_w32

/-- One sub-pixel plane compared with the class index: 1 where the plane's word is the class, else 0. -/
def planeHit (v : Vec Ideal S1x1x1x32x128 .i32) : FVec Ideal S32x128x128 .f32 :=
  sitofp .f32 (extui 32 (cmpi .eq
    (broadcastTo S32x128x128 (shapeCast S32x128x1 (shapeCast S32x128 v Gen.shapeCasts_S1x1x1x32x128_S32x128)
      Gen.shapeCasts_S32x128_S32x128x1) Gen.broadcasts_S32x128x1_S32x128x128) iotaV) Gen.natLt_1_32)

/-- The plane [1, 1, 1, 32, 128] viewed [32, 128], given a unit class axis and repeated along it, reads the
    plane's word at the pixel, whatever the class. -/
theorem plane_cast_apply (v : Vec Ideal S1x1x1x32x128 .i32) (r : Fin 32) (w n : Fin 128) :
    broadcastTo S32x128x128 (shapeCast S32x128x1 (shapeCast S32x128 v Gen.shapeCasts_S1x1x1x32x128_S32x128)
      Gen.shapeCasts_S32x128_S32x128x1) Gen.broadcasts_S32x128x1_S32x128x128 (ix3 r w n) = v (ix5 0 0 0 r w) := by
  refine (broadcastTo_apply _ _ (ix3 r w n) (ix3 r w (0 : Fin 1)) (fun a => ?_)).trans ?_
  · match a with
    | ⟨0, _⟩ => rfl
    | ⟨1, _⟩ => rfl
    | ⟨2, _⟩ => rfl
  · refine (shapeCast_apply _ _ (ix3 r w (0 : Fin 1)) (ix2 r w) ?_).trans ?_
    · rw [Shape.rowMajor_val_three, Shape.rowMajor_val_two]
      show r.val * 128 + w.val = (r.val * 128 + w.val) * 1 + 0
      omega
    · refine shapeCast_apply _ _ (ix2 r w) (ix5 0 0 0 r w) ?_
      rw [Shape.rowMajor_val_five, Shape.rowMajor_val_two]
      show (((0 * 1 + 0) * 1 + 0) * 32 + r.val) * 128 + w.val = r.val * 128 + w.val
      omega

/-- The class index along the last axis reads the class. -/
theorem iotaV_apply (r : Fin 32) (w n : Fin 128) : iotaV (ix3 r w n) = BitVec.ofNat 32 n.val :=
  iota_single_apply .tc S32x128x128 32 2 Facts₀.iota_S32x128x128_d2_w32 (ix3 r w n)

/-- A one-bit equality test, widened to a word and read as a signed integer, is 1 or 0. -/
theorem hit_word (a b : BitVec 32) :
    (Scalar.sitofp (F := Ideal) .f32 ((IntOp.cmpi .eq a b).setWidth 32) : EReal) = if a = b then 1 else 0 := by
  rw [Ideal.scalar_sitofp_def]
  by_cases h : a = b
  · have hc : IntOp.cmpi .eq a b = 1#1 := by
      show BitVec.ofBool (a == b) = 1#1
      rw [beq_iff_eq.mpr h]; rfl
    rw [hc, if_pos h, show ((1#1 : BitVec 1).setWidth 32).toInt = 1 from by decide]
    simp
  · have hc : IntOp.cmpi .eq a b = 0#1 := by
      show BitVec.ofBool (a == b) = 0#1
      rw [beq_eq_false_iff_ne.mpr h]; rfl
    rw [hc, if_neg h, show ((0#1 : BitVec 1).setWidth 32).toInt = 0 from by decide]
    simp

/-- The compared plane at (r, w, n): 1 where the plane's word at (r, w) is the class n, else 0. -/
theorem planeHit_apply (v : Vec Ideal S1x1x1x32x128 .i32) (r : Fin 32) (w n : Fin 128) :
    planeHit v (ix3 r w n) = if v (ix5 0 0 0 r w) = BitVec.ofNat 32 n.val then (1 : EReal) else 0 := by
  have e : planeHit v (ix3 r w n)
      = Scalar.sitofp (F := Ideal) .f32 ((IntOp.cmpi .eq
          (broadcastTo S32x128x128 (shapeCast S32x128x1 (shapeCast S32x128 v Gen.shapeCasts_S1x1x1x32x128_S32x128)
            Gen.shapeCasts_S32x128_S32x128x1) Gen.broadcasts_S32x128x1_S32x128x128 (ix3 r w n))
          (iotaV (ix3 r w n))).setWidth 32) := rfl
  rw [e, plane_cast_apply, iotaV_apply, hit_word]

/-- The indicator a plane contributes at low-resolution pixel (r, w) and class n. -/
def planeInd (v : Vec Ideal S1x1x1x32x128 .i32) (r : Fin 32) (w n : Fin 128) : EReal :=
  if v (ix5 0 0 0 r w) = BitVec.ofNat 32 n.val then 1 else 0

/-- The compared plane at (r, w, n) is the plane's indicator there. -/
theorem planeHit_ind (v : Vec Ideal S1x1x1x32x128 .i32) (r : Fin 32) (w n : Fin 128) :
    planeHit v (ix3 r w n) = planeInd v r w n := planeHit_apply v r w n

/-- The first three planes added to the zero start. -/
theorem pay7_apply (v5 v13 v21 : Vec Ideal S1x1x1x32x128 .i32) (r : Fin 32) (w n : Fin 128) :
    k0_pay7 v5 v13 v21 (ix3 r w n) = 0 + planeInd v5 r w n + planeInd v13 r w n + planeInd v21 r w n := by
  have e : k0_pay7 v5 v13 v21 (ix3 r w n)
      = Ideal.ofBits .f32 0x00000000#32 + planeHit v5 (ix3 r w n) + planeHit v13 (ix3 r w n)
          + planeHit v21 (ix3 r w n) := rfl
  rw [e, planeHit_ind, planeHit_ind, planeHit_ind, Ideal.ofBits_zero_f32]

/-- Five more planes added (the first of them arrives as its one-bit compare). -/
theorem pay9_apply (v28 : FVec Ideal S32x128x128 .f32) (v29 v37 v45 v53 v61 : Vec Ideal S1x1x1x32x128 .i32)
    (r : Fin 32) (w n : Fin 128) :
    k0_pay9 iotaV v28 (k0_pay8 (F := Ideal) v29) v37 v45 v53 v61 (ix3 r w n)
      = v28 (ix3 r w n) + planeInd v29 r w n + planeInd v37 r w n + planeInd v45 r w n + planeInd v53 r w n + planeInd v61 r w n := by
  have e : k0_pay9 iotaV v28 (k0_pay8 (F := Ideal) v29) v37 v45 v53 v61 (ix3 r w n)
      = v28 (ix3 r w n) + planeHit v29 (ix3 r w n) + planeHit v37 (ix3 r w n) + planeHit v45 (ix3 r w n)
          + planeHit v53 (ix3 r w n) + planeHit v61 (ix3 r w n) := rfl
  rw [e, planeHit_ind, planeHit_ind, planeHit_ind, planeHit_ind, planeHit_ind]

/-- Five more planes added. -/
theorem pay10_apply (v68 : FVec Ideal S32x128x128 .f32) (v69 v77 v85 v93 v101 : Vec Ideal S1x1x1x32x128 .i32)
    (r : Fin 32) (w n : Fin 128) :
    k0_pay10 iotaV v68 v69 v77 v85 v93 v101 (ix3 r w n)
      = v68 (ix3 r w n) + planeInd v69 r w n + planeInd v77 r w n + planeInd v85 r w n + planeInd v93 r w n + planeInd v101 r w n := by
  have e : k0_pay10 iotaV v68 v69 v77 v85 v93 v101 (ix3 r w n)
      = v68 (ix3 r w n) + planeHit v69 (ix3 r w n) + planeHit v77 (ix3 r w n) + planeHit v85 (ix3 r w n)
          + planeHit v93 (ix3 r w n) + planeHit v101 (ix3 r w n) := rfl
  rw [e, planeHit_ind, planeHit_ind, planeHit_ind, planeHit_ind, planeHit_ind]

/-- Flattening [32, 128, 128] to [4096, 128] row-major: row k of the result is pixel (k / 128, k % 128). -/
theorem flatten_apply (x : FVec Ideal S32x128x128 .f32) (k : Fin 4096) (n : Fin 128) :
    shapeCast S4096x128 x Gen.shapeCasts_S32x128x128_S4096x128 (ix2 k n) = x (ix3 (krow k) (kcol k) n) := by
  refine shapeCast_apply _ _ (ix2 k n) (ix3 (krow k) (kcol k) n) ?_
  rw [Shape.rowMajor_val_three, Shape.rowMajor_val_two]
  show (k.val / 128 * 128 + k.val % 128) * 128 + n.val = k.val * 128 + n.val
  omega

/-- The last three planes added, the total flattened to [4096, 128] and kept at sixteen bits (exact here). -/
theorem pay11_apply (v108 : FVec Ideal S32x128x128 .f32) (v109 v117 v125 : Vec Ideal S1x1x1x32x128 .i32)
    (k : Fin 4096) (n : Fin 128) :
    k0_pay11 iotaV v108 v109 v117 v125 (ix2 k n)
      = v108 (ix3 (krow k) (kcol k) n) + planeInd v109 (krow k) (kcol k) n + planeInd v117 (krow k) (kcol k) n
          + planeInd v125 (krow k) (kcol k) n := by
  have e : k0_pay11 iotaV v108 v109 v117 v125 (ix2 k n)
      = shapeCast S4096x128 (addf (addf (addf v108 (planeHit v109)) (planeHit v117)) (planeHit v125))
          Gen.shapeCasts_S32x128x128_S4096x128 (ix2 k n) := rfl
  rw [e, flatten_apply]
  show v108 (ix3 (krow k) (kcol k) n) + planeHit v109 (ix3 (krow k) (kcol k) n)
      + planeHit v117 (ix3 (krow k) (kcol k) n) + planeHit v125 (ix3 (krow k) (kcol k) n) = _
  rw [planeHit_ind, planeHit_ind, planeHit_ind]

/-- The running hit count after the first thirteen sub-pixel planes (the planes are `P dh dw`). -/
def tile13 (P : Fin 4 → Fin 4 → Vec Ideal S1x1x1x32x128 .i32) : FVec Ideal S32x128x128 .f32 :=
  k0_pay10 iotaV
    (k0_pay9 iotaV (k0_pay7 (P 0 0) (P 0 1) (P 0 2)) (k0_pay8 (F := Ideal) (P 0 3)) (P 1 0) (P 1 1) (P 1 2) (P 1 3))
    (P 2 0) (P 2 1) (P 2 2) (P 2 3) (P 3 0)

/-- The hit counts of all sixteen planes, flattened to [4096, 128]. -/
def countTile (P : Fin 4 → Fin 4 → Vec Ideal S1x1x1x32x128 .i32) : FVec Ideal S4096x128 .bf16 :=
  k0_pay11 iotaV (tile13 P) (P 3 1) (P 3 2) (P 3 3)

/-- At flattened pixel `k` and class `n` the count tile holds the number of planes whose word there is `n`. -/
theorem countTile_apply (P : Fin 4 → Fin 4 → Vec Ideal S1x1x1x32x128 .i32) (k : Fin 4096) (n : Fin 128) :
    countTile P (ix2 k n)
      = ∑ dh : Fin 4, ∑ dw : Fin 4,
          (if P dh dw (ix5 0 0 0 (krow k) (kcol k)) = BitVec.ofNat 32 n.val then (1 : EReal) else 0) := by
  unfold countTile tile13
  rw [pay11_apply, pay10_apply, pay9_apply, pay7_apply]
  simp only [planeInd, Fin.sum_univ_four, zero_add, add_assoc]

/-! ## The two products -/

/-- The data tile times the counts: the left operand's row is the output's row, -/
theorem lhs_sum_0 (i : S128x128.Idx) (q : dot_S128x4096_S4096x128_S128x128_1_0_0_1_n_n.contr.Idx) :
    (dot_S128x4096_S4096x128_S128x128_1_0_0_1_n_n.lhsIdx i q 0).val = (i 0).val := by
  unfold DotDims.lhsIdx
  rw [dif_neg (show ¬(0 : Fin S128x4096.rank) ∈ dot_S128x4096_S4096x128_S128x128_1_0_0_1_n_n.lhsBatch by decide),
    dif_pos (show (0 : Fin S128x4096.rank) ∈ dot_S128x4096_S4096x128_S128x128_1_0_0_1_n_n.lhsNonContracting by decide)]
  rfl
/-- its column the contracted pixel; -/
theorem lhs_sum_1 (i : S128x128.Idx) (q : dot_S128x4096_S4096x128_S128x128_1_0_0_1_n_n.contr.Idx) :
    (dot_S128x4096_S4096x128_S128x128_1_0_0_1_n_n.lhsIdx i q 1).val = (q ⟨0, by decide⟩).val :=
  dot_S128x4096_S4096x128_S128x128_1_0_0_1_n_n.lhsIdx_val_of_single rfl i q
/-- the right operand's row is the contracted pixel, -/
theorem rhs_sum_0 (i : S128x128.Idx) (q : dot_S128x4096_S4096x128_S128x128_1_0_0_1_n_n.contr.Idx) :
    (dot_S128x4096_S4096x128_S128x128_1_0_0_1_n_n.rhsIdx i q 0).val = (q ⟨0, by decide⟩).val :=
  dot_S128x4096_S4096x128_S128x128_1_0_0_1_n_n.rhsIdx_val_of_single rfl i q
/-- its column the output's column. -/
theorem rhs_sum_1 (i : S128x128.Idx) (q : dot_S128x4096_S4096x128_S128x128_1_0_0_1_n_n.contr.Idx) :
    (dot_S128x4096_S4096x128_S128x128_1_0_0_1_n_n.rhsIdx i q 1).val = (i 1).val := by
  unfold DotDims.rhsIdx
  rw [dif_neg (show ¬(1 : Fin S4096x128.rank) ∈ dot_S128x4096_S4096x128_S128x128_1_0_0_1_n_n.rhsBatch by decide),
    dif_pos (show (1 : Fin S4096x128.rank) ∈ dot_S128x4096_S4096x128_S128x128_1_0_0_1_n_n.rhsNonContracting by decide)]
  rfl

/-- The [128, 4096] × [4096, 128] product into a zero accumulator, at (c, n): the sum over the 4096 pixels. -/
theorem matmul_sum_apply (lhs : FVec Ideal S128x4096 .bf16) (rhs : FVec Ideal S4096x128 .bf16) (c n : Fin 128) :
    matmul dot_S128x4096_S4096x128_S128x128_1_0_0_1_n_n none lhs rhs (constant S128x128 .f32 0x00000000#32) (ix2 c n)
      = ∑ k : Fin 4096, lhs (ix2 c k) * rhs (ix2 k n) := by
  show FloatOps.matmul dot_S128x4096_S4096x128_S128x128_1_0_0_1_n_n none lhs rhs
      (constant S128x128 .f32 0x00000000#32) (ix2 c n) = _
  rw [Ideal.matmul_constant_zero_apply,
    ← Equiv.sum_comp (contrEquiv1 dot_S128x4096_S4096x128_S128x128_1_0_0_1_n_n 4096 rfl rfl).symm]
  refine Finset.sum_congr rfl fun k _ => ?_
  have hk := contrEquiv1_symm_val dot_S128x4096_S4096x128_S128x128_1_0_0_1_n_n 4096 rfl rfl k
  have el : dot_S128x4096_S4096x128_S128x128_1_0_0_1_n_n.lhsIdx (ix2 c n)
      ((contrEquiv1 dot_S128x4096_S4096x128_S128x128_1_0_0_1_n_n 4096 rfl rfl).symm k) = ix2 c k :=
    funext fun a => Fin.ext (by
      match a with
      | ⟨0, _⟩ => exact lhs_sum_0 _ _
      | ⟨1, _⟩ => exact (lhs_sum_1 _ _).trans hk)
  have er : dot_S128x4096_S4096x128_S128x128_1_0_0_1_n_n.rhsIdx (ix2 c n)
      ((contrEquiv1 dot_S128x4096_S4096x128_S128x128_1_0_0_1_n_n 4096 rfl rfl).symm k) = ix2 k n :=
    funext fun a => Fin.ext (by
      match a with
      | ⟨0, _⟩ => exact (rhs_sum_0 _ _).trans hk
      | ⟨1, _⟩ => exact rhs_sum_1 _ _)
  rw [el, er]

/-- The row of ones times the counts: the same four axis facts at the [8, 4096] × [4096, 128] product. -/
theorem lhs_cnt_0 (i : S8x128.Idx) (q : dot_S8x4096_S4096x128_S8x128_1_0_0_1_n_n.contr.Idx) :
    (dot_S8x4096_S4096x128_S8x128_1_0_0_1_n_n.lhsIdx i q 0).val = (i 0).val := by
  unfold DotDims.lhsIdx
  rw [dif_neg (show ¬(0 : Fin S8x4096.rank) ∈ dot_S8x4096_S4096x128_S8x128_1_0_0_1_n_n.lhsBatch by decide),
    dif_pos (show (0 : Fin S8x4096.rank) ∈ dot_S8x4096_S4096x128_S8x128_1_0_0_1_n_n.lhsNonContracting by decide)]
  rfl
theorem lhs_cnt_1 (i : S8x128.Idx) (q : dot_S8x4096_S4096x128_S8x128_1_0_0_1_n_n.contr.Idx) :
    (dot_S8x4096_S4096x128_S8x128_1_0_0_1_n_n.lhsIdx i q 1).val = (q ⟨0, by decide⟩).val :=
  dot_S8x4096_S4096x128_S8x128_1_0_0_1_n_n.lhsIdx_val_of_single rfl i q
theorem rhs_cnt_0 (i : S8x128.Idx) (q : dot_S8x4096_S4096x128_S8x128_1_0_0_1_n_n.contr.Idx) :
    (dot_S8x4096_S4096x128_S8x128_1_0_0_1_n_n.rhsIdx i q 0).val = (q ⟨0, by decide⟩).val :=
  dot_S8x4096_S4096x128_S8x128_1_0_0_1_n_n.rhsIdx_val_of_single rfl i q
theorem rhs_cnt_1 (i : S8x128.Idx) (q : dot_S8x4096_S4096x128_S8x128_1_0_0_1_n_n.contr.Idx) :
    (dot_S8x4096_S4096x128_S8x128_1_0_0_1_n_n.rhsIdx i q 1).val = (i 1).val := by
  unfold DotDims.rhsIdx
  rw [dif_neg (show ¬(1 : Fin S4096x128.rank) ∈ dot_S8x4096_S4096x128_S8x128_1_0_0_1_n_n.rhsBatch by decide),
    dif_pos (show (1 : Fin S4096x128.rank) ∈ dot_S8x4096_S4096x128_S8x128_1_0_0_1_n_n.rhsNonContracting by decide)]
  rfl

/-- The [8, 4096] × [4096, 128] product into a zero accumulator, at (r, n): the sum over the 4096 pixels. -/
theorem matmul_cnt_apply (lhs : FVec Ideal S8x4096 .bf16) (rhs : FVec Ideal S4096x128 .bf16) (r : Fin 8) (n : Fin 128) :
    matmul dot_S8x4096_S4096x128_S8x128_1_0_0_1_n_n none lhs rhs (constant S8x128 .f32 0x00000000#32) (ix2 r n)
      = ∑ k : Fin 4096, lhs (ix2 r k) * rhs (ix2 k n) := by
  show FloatOps.matmul dot_S8x4096_S4096x128_S8x128_1_0_0_1_n_n none lhs rhs
      (constant S8x128 .f32 0x00000000#32) (ix2 r n) = _
  rw [Ideal.matmul_constant_zero_apply,
    ← Equiv.sum_comp (contrEquiv1 dot_S8x4096_S4096x128_S8x128_1_0_0_1_n_n 4096 rfl rfl).symm]
  refine Finset.sum_congr rfl fun k _ => ?_
  have hk := contrEquiv1_symm_val dot_S8x4096_S4096x128_S8x128_1_0_0_1_n_n 4096 rfl rfl k
  have el : dot_S8x4096_S4096x128_S8x128_1_0_0_1_n_n.lhsIdx (ix2 r n)
      ((contrEquiv1 dot_S8x4096_S4096x128_S8x128_1_0_0_1_n_n 4096 rfl rfl).symm k) = ix2 r k :=
    funext fun a => Fin.ext (by
      match a with
      | ⟨0, _⟩ => exact lhs_cnt_0 _ _
      | ⟨1, _⟩ => exact (lhs_cnt_1 _ _).trans hk)
  have er : dot_S8x4096_S4096x128_S8x128_1_0_0_1_n_n.rhsIdx (ix2 r n)
      ((contrEquiv1 dot_S8x4096_S4096x128_S8x128_1_0_0_1_n_n 4096 rfl rfl).symm k) = ix2 k n :=
    funext fun a => Fin.ext (by
      match a with
      | ⟨0, _⟩ => exact (rhs_cnt_0 _ _).trans hk
      | ⟨1, _⟩ => exact rhs_cnt_1 _ _)
  rw [el, er]

/-- The bf16 word of 1.0 is the extended real 1. -/
theorem one_bf16 : Ideal.ofBits .bf16 0x3F80#16 = 1 := IdealRules.sign_bit.ideal_onePat .bf16

/-- The class sums after this tile: the running total plus, over the tile's pixels, data times hit count. -/
theorem pay13_apply (P : Fin 4 → Fin 4 → Vec Ideal S1x1x1x32x128 .i32) (x0 : Vec Ideal S1x128x4096 .f32)
    (acc : Vec Ideal S128x128 .f32) (c n : Fin 128) :
    k0_pay13 iotaV (tile13 P) (P 3 1) (P 3 2) (P 3 3) x0 acc (ix2 c n)
      = acc (ix2 c n) + ∑ k : Fin 4096, x0 (ix3 0 c k) * countTile P (ix2 k n) := by
  have e : k0_pay13 iotaV (tile13 P) (P 3 1) (P 3 2) (P 3 3) x0 acc (ix2 c n)
      = acc (ix2 c n) + matmul dot_S128x4096_S4096x128_S128x128_1_0_0_1_n_n none
          (truncf .bf16 (shapeCast S128x4096 x0 Gen.shapeCasts_S1x128x4096_S128x4096) Gen.bitsLt_bf16_f32)
          (countTile P) (constant S128x128 .f32 0x00000000#32) (ix2 c n) := rfl
  rw [e, matmul_sum_apply]
  refine congrArg (acc (ix2 c n) + ·) (Finset.sum_congr rfl fun k _ => ?_)
  exact congrArg (· * countTile P (ix2 k n)) (shapeCast_1ab_ab_apply x0 Gen.shapeCasts_S1x128x4096_S128x4096 c k)

/-- The tile's class counts: over the tile's pixels, the hit count (a row of ones times the counts). -/
theorem pay12_apply (P : Fin 4 → Fin 4 → Vec Ideal S1x1x1x32x128 .i32) (r : Fin 8) (n : Fin 128) :
    k0_pay12 iotaV (tile13 P) (P 3 1) (P 3 2) (P 3 3) (ix2 r n) = ∑ k : Fin 4096, countTile P (ix2 k n) := by
  have e : k0_pay12 iotaV (tile13 P) (P 3 1) (P 3 2) (P 3 3) (ix2 r n)
      = matmul dot_S8x4096_S4096x128_S8x128_1_0_0_1_n_n none
          (broadcast S8x4096 (Ideal.ofBits .bf16 0x3F80#16) : FVec Ideal S8x4096 .bf16)
          (countTile P) (constant S8x128 .f32 0x00000000#32) (ix2 r n) := rfl
  rw [e, matmul_cnt_apply]
  refine Finset.sum_congr rfl fun k _ => ?_
  show Ideal.ofBits .bf16 0x3F80#16 * countTile P (ix2 k n) = _
  rw [one_bf16, one_mul]

/-- The class counts after this tile: the running total plus the tile's. -/
theorem pay2_apply (v140 : FVec Ideal S8x128 .f32) (v146 : Vec Ideal S8x128 .f32) (j : S8x128.Idx) :
    k0_pay2 v140 v146 j = v146 j + v140 j := by
  have e : k0_pay2 v140 v146 = shapeCast S8x128 (addf v146 v140) Gen.shapeCasts_S8x128_S8x128 := rfl
  rw [e, shapeCast_self]
  rfl

theorem pay1_eq (v : FVec Ideal S128x128 .f32) : k0_pay1 v = v :=
  shapeCast_self v Gen.shapeCasts_S128x128_S128x128

/-- The reset values: zero everywhere. -/
theorem pay5_apply (j : S128x128.Idx) : k0_pay5 (F := Ideal) j = 0 := by
  have e : k0_pay5 (F := Ideal)
      = shapeCast S128x128 (broadcast S128x128 (Ideal.ofBits .f32 0x00000000#32) : FVec Ideal S128x128 .f32)
          Gen.shapeCasts_S128x128_S128x128 := rfl
  rw [e, shapeCast_self]
  exact Ideal.ofBits_zero_f32

theorem pay6_apply (j : S8x128.Idx) : k0_pay6 (F := Ideal) j = 0 := by
  have e : k0_pay6 (F := Ideal)
      = shapeCast S8x128 (broadcast S8x128 (Ideal.ofBits .f32 0x00000000#32) : FVec Ideal S8x128 .f32)
          Gen.shapeCasts_S8x128_S8x128 := rfl
  rw [e, shapeCast_self]
  exact Ideal.ofBits_zero_f32

/-- The feature block: sums over guarded counts, channel `c`, class `n`. -/
theorem pay3_apply (v154 : Vec Ideal S128x24 .f32) (v155 : Vec Ideal S1x24 .f32) (c : Fin 128) (n : Fin 24) :
    k0_pay3 v154 v155 (ix3 0 c n) = Ideal.div (v154 (ix2 c n)) (v155 (ix2 0 n) + Cert.SegMean.eps) := by
  have e : k0_pay3 v154 v155
      = shapeCast S1x128x24 (divf v154 (broadcastTo S128x24
          (addf v155 (broadcast S1x24 (Ideal.ofBits .f32 0x322BCC77#32) : FVec Ideal S1x24 .f32))
          Gen.broadcasts_S1x24_S128x24)) Gen.shapeCasts_S128x24_S1x128x24 := rfl
  rw [e]
  refine (shapeCast_ab_1ab_apply _ Gen.shapeCasts_S128x24_S1x128x24 0 c n).trans ?_
  refine congrArg (Ideal.div (v154 (ix2 c n))) ?_
  exact broadcastTo_1b_ab_apply _ Gen.broadcasts_S1x24_S128x24 c n

/-- A one-bit "greater than" test, widened to a word and read as a signed integer, is 1 or 0. -/
theorem gt_word (x y : EReal) :
    (Scalar.sitofp (F := Ideal) .f32 ((Ideal.cmp .ogt x y).setWidth 32) : EReal)
      = (((if y < x then (1 : ℝ) else 0) : ℝ) : EReal) := by
  rw [Ideal.scalar_sitofp_def]
  by_cases h : y < x
  · have hc : Ideal.cmp .ogt x y = 1#1 := by
      show BitVec.ofBool (decide (y < x)) = 1#1
      rw [decide_eq_true h]; rfl
    rw [hc, if_pos h, show ((1#1 : BitVec 1).setWidth 32).toInt = 1 from by decide]
    simp
  · have hc : Ideal.cmp .ogt x y = 0#1 := by
      show BitVec.ofBool (decide (y < x)) = 0#1
      rw [decide_eq_false h]; rfl
    rw [hc, if_neg h, show ((0#1 : BitVec 1).setWidth 32).toInt = 0 from by decide]
    simp

/-- The mask block: 1 where the count is positive. -/
theorem pay4_apply (v155 : Vec Ideal S1x24 .f32) (n : Fin 24) :
    k0_pay4 v155 (ix3 0 0 n) = (((if 0 < v155 (ix2 0 n) then (1 : ℝ) else 0) : ℝ) : EReal) := by
  have e : k0_pay4 v155
      = shapeCast S1x1x24 (sitofp .f32 (extui 32 (cmpf .ogt v155
          (broadcast S1x24 (Ideal.ofBits .f32 0x00000000#32) : FVec Ideal S1x24 .f32)) Gen.natLt_1_32)
          : FVec Ideal S1x24 .f32) Gen.shapeCasts_S1x24_S1x1x24 := rfl
  rw [e]
  refine (shapeCast_ab_1ab_apply _ Gen.shapeCasts_S1x24_S1x1x24 0 0 n).trans ?_
  show (Scalar.sitofp (F := Ideal) .f32 ((Ideal.cmp .ogt (v155 (ix2 0 n)) (Ideal.ofBits .f32 0x00000000#32)).setWidth 32) : EReal) = _
  rw [Ideal.ofBits_zero_f32, gt_word]

end Cert.KernelIdeal.Payload

end
-- ==== Proof.KernelPieces.lean ====
/-
  What one grid point of the kernel leaves behind, read as values. A grid point is (batch, tile of 32
  low-resolution rows). Its body adds the tile's class sums and class counts to two running totals; the first tile
  of a batch starts them from zero, the last tile also divides the sums by the guarded counts and marks the occupied
  classes. Each of these is one store whose value is the body's arithmetic applied to what the point loaded: the
  data tile, the sixteen sub-pixel planes of the label tile, and the running totals.
-/
import proofs.«404461_j37237366456700_3_alg».proof.Proof.Gen.KernelIdeal.Frame
import proofs.«404461_j37237366456700_3_alg».proof.Proof.KernelPayload
import Idealize.ShloMosaic.Lib.Pipeline.Value
import Idealize.ShloMosaic.Lib.Tactic

noncomputable section

namespace Cert.KernelIdeal.Value

open Idealize.ShloMosaic Idealize.ShloMosaic.TcCoe Idealize.SL.Sem Idealize.ShloMosaic.ValueIdx
open Cert.KernelIdeal Cert.KernelIdeal.Gen Cert.KernelIdeal.Payload Cert.SegMean

theorem hz2 : (![0, 0] : Fin 2 → Nat) = fun _ => 0 := funext fun a => by fin_cases a <;> rfl
theorem hz3 : (![0, 0, 0] : Fin 3 → Nat) = fun _ => 0 := funext fun a => by fin_cases a <;> rfl

/-- Sub-pixel plane (a, b) of a label tile, the offsets as naturals (taken modulo 4, which changes nothing for
    an offset that is in range): the [32, 128] words at sub-pixel offset (a, b). -/
def planeAt (x1 : Vec Ideal S1x4x4x32x128 .i32) (a b : Nat) : Vec Ideal S1x1x1x32x128 .i32 :=
  fun y => x1 (ix5 0 ⟨a % 4, Nat.mod_lt _ (by decide)⟩ ⟨b % 4, Nat.mod_lt _ (by decide)⟩ (y 3) (y 4))

/-- The sixteen planes, indexed by the sub-pixel offsets. -/
def planes (x1 : Vec Ideal S1x4x4x32x128 .i32) (dh dw : Fin 4) : Vec Ideal S1x1x1x32x128 .i32 :=
  planeAt x1 dh.val dw.val

/-- A plane at a point of the tile is the tile's word there. -/
theorem planes_apply (x1 : Vec Ideal S1x4x4x32x128 .i32) (dh dw : Fin 4) (r : Fin 32) (w : Fin 128) :
    planes x1 dh dw (ix5 0 0 0 r w) = x1 (ix5 0 dh dw r w) := by
  show x1 _ = x1 _
  congr 1
  funext a
  match a with
  | ⟨0, _⟩ => rfl
  | ⟨1, _⟩ => exact Fin.ext (Nat.mod_eq_of_lt dh.isLt)
  | ⟨2, _⟩ => exact Fin.ext (Nat.mod_eq_of_lt dw.isLt)
  | ⟨3, _⟩ => rfl
  | ⟨4, _⟩ => rfl

/-- A load of the label tile through the unit rectangle at offset (0, a, b, 0, 0) reads plane (a, b). -/
theorem ld_planeAt (x1 : Vec Ideal S1x4x4x32x128 .i32) (a b : Nat)
    (inb : ∀ d, (![0, a, b, 0, 0] : Fin 5 → Nat) d + (![1, 1, 1, 32, 128] : Fin 5 → Nat) d ≤ S1x4x4x32x128.size d) :
    View.ld (S := S1x4x4x32x128) x1 (Rect.unit ![0, a, b, 0, 0] ![1, 1, 1, 32, 128] inb) = planeAt x1 a b := by
  have ha : a + 1 ≤ 4 := inb 1
  have hb : b + 1 ≤ 4 := inb 2
  funext y
  show x1 _ = x1 _
  congr 1
  funext d
  apply Fin.ext
  match d with
  | ⟨0, _⟩ => show 0 + 1 * (y 0).val = 0; have : (y 0).val < 1 := (y 0).isLt; omega
  | ⟨1, _⟩ => show a + 1 * (y 1).val = a % 4; have : (y 1).val < 1 := (y 1).isLt; omega
  | ⟨2, _⟩ => show b + 1 * (y 2).val = b % 4; have : (y 2).val < 1 := (y 2).isLt; omega
  | ⟨3, _⟩ => show 0 + 1 * (y 3).val = (y 3).val; omega
  | ⟨4, _⟩ => show 0 + 1 * (y 4).val = (y 4).val; omega

/-- The first 24 columns of a [128, 128] block, loaded as [128, 24]. -/
theorem ld_cols24 (W : Vec Ideal S128x128 .f32)
    (inb : ∀ d, (![0, 0] : Fin 2 → Nat) d + (![128, 24] : Fin 2 → Nat) d ≤ S128x128.size d) (cc : Fin 128) (n : Fin 24) :
    View.ld (S := S128x128) W (Rect.unit ![0, 0] ![128, 24] inb) (ix2 cc n)
      = W (ix2 cc ⟨n.val, by have := n.isLt; omega⟩) := by
  show W _ = W _
  congr 1
  funext d
  apply Fin.ext
  match d with
  | ⟨0, _⟩ => show 0 + 1 * cc.val = cc.val; omega
  | ⟨1, _⟩ => show 0 + 1 * n.val = n.val; omega

/-- The first 24 entries of the first row of an [8, 128] block, loaded as [1, 24]. -/
theorem ld_row24 (W : Vec Ideal S8x128 .f32)
    (inb : ∀ d, (![0, 0] : Fin 2 → Nat) d + (![1, 24] : Fin 2 → Nat) d ≤ S8x128.size d) (n : Fin 24) :
    View.ld (S := S8x128) W (Rect.unit ![0, 0] ![1, 24] inb) (ix2 0 n)
      = W (ix2 0 ⟨n.val, by have := n.isLt; omega⟩) := by
  show W _ = W _
  congr 1
  funext d
  apply Fin.ext
  match d with
  | ⟨0, _⟩ => rfl
  | ⟨1, _⟩ => show 0 + 1 * n.val = n.val; omega

/-- A load through any rectangle of what ONE whole-block store left reads that store's value through the rectangle. -/
theorem readCov_whole_ld {Val : EltTy → Type} [∀ e, Nonempty (Val e)] {sig : RefSig} {κ : Kind} {sp : Space} {S : Shape}
    {e : EltTy} (v : View sig κ sp S e) {off : Fin S.rank → Nat} (h : off = fun _ => 0)
    (inb : ∀ a, off a + S.size a ≤ S.size a) (w : S.Idx → Val e) (r : Rect S) :
    v.readCov [(⟨Rect.unit off S.size inb, w⟩ : View.Piece Val S e)] r.toLoadRect = View.ld w r := by
  rw [View.readCov_eq_canon_ld _ _ _ (fun y => ⟨_, List.mem_singleton_self _, View.mem_set_unit_zero h inb y⟩),
    View.canon_unit_zero h]

/-! ## The running totals after a point -/

/-- The class sums after a tile: the body's sum payload over the data tile, the label tile's planes and the sums so far. -/
def newSums (x0 : Vec Ideal S1x128x4096 .f32) (x1 : Vec Ideal S1x4x4x32x128 .i32) (xs0 : Vec Ideal S128x128 .f32) :
    Vec Ideal S128x128 .f32 :=
  k0_pay1 (k0_pay13 iotaV (tile13 (planes x1)) (planes x1 3 1) (planes x1 3 2) (planes x1 3 3) x0 xs0)

/-- The class counts after a tile, likewise. -/
def newCnts (x1 : Vec Ideal S1x4x4x32x128 .i32) (xs1 : Vec Ideal S8x128 .f32) : Vec Ideal S8x128 .f32 :=
  k0_pay2 (k0_pay12 iotaV (tile13 (planes x1)) (planes x1 3 1) (planes x1 3 2) (planes x1 3 3)) xs1

/-- At channel `cc` and lane `n` the new sums are the old ones plus the tile's contribution. -/
theorem newSums_apply (x0 : Vec Ideal S1x128x4096 .f32) (x1 : Vec Ideal S1x4x4x32x128 .i32)
    (xs0 : Vec Ideal S128x128 .f32) (cc n : Fin 128) :
    newSums x0 x1 xs0 (ix2 cc n) = xs0 (ix2 cc n) + tileSum x0 x1 cc n := by
  unfold newSums
  rw [pay1_eq, pay13_apply]
  refine congrArg (fun z => xs0 (ix2 cc n) + z) ?_
  unfold tileSum
  refine Finset.sum_congr rfl fun k _ => ?_
  rw [countTile_apply]
  unfold tileHits hit
  simp only [planes_apply]

/-- At lane `n` of any row the new counts are the old ones plus the tile's contribution. -/
theorem newCnts_apply (x1 : Vec Ideal S1x4x4x32x128 .i32) (xs1 : Vec Ideal S8x128 .f32) (r : Fin 8) (n : Fin 128) :
    newCnts x1 xs1 (ix2 r n) = xs1 (ix2 r n) + tileCount x1 n := by
  unfold newCnts
  rw [pay2_apply, pay12_apply]
  refine congrArg (fun z => xs1 (ix2 r n) + z) ?_
  unfold tileCount
  refine Finset.sum_congr rfl fun k _ => ?_
  rw [countTile_apply]
  unfold tileHits hit
  simp only [planes_apply]

/-! ## The cases' found stores

Each lemma opens one found piece list: the last covering store's value, its loads read as the contents they load. -/

section Cases

variable (c : Dev nD) (i : grid0.Coords)
  (arg2 : Memref sig .tc .vmem S1x128x4096 .f32) (harg2 : arg2.IsWhole)
  (arg3 : Memref sig .tc .vmem S1x4x4x32x128 .i32) (harg3 : arg3.IsWhole)
  (arg4 : Memref sig .tc .vmem S1x128x24 .f32) (harg4 : arg4.IsWhole)
  (arg5 : Memref sig .tc .vmem S1x1x24 .f32) (harg5 : arg5.IsWhole)
  (arg6 : Memref sig .tc .vmem S128x128 .f32) (harg6 : arg6.IsWhole)
  (arg7 : Memref sig .tc .vmem S8x128 .f32) (harg7 : arg7.IsWhole)
  (x0 : Vec Ideal S1x128x4096 .f32) (x1 : Vec Ideal S1x4x4x32x128 .i32)
  (xs0 : Vec Ideal S128x128 .f32) (xs1 : Vec Ideal S8x128 .f32)

/-- The common last steps: read every load as the contents it loads, then compare the two spellings of the planes. -/
local macro "read_loads" h2:ident h3:ident h6:ident h7:ident : tactic =>
  `(tactic| (simp only [View.readAt_eq_ld, Memref.IsWhole.read_unread $h2, Memref.IsWhole.read_unread $h3,
      Memref.IsWhole.read_unread $h6, Memref.IsWhole.read_unread $h7,
      View.ld_unit_zero (S := S1x128x4096) hz3, View.ld_unit_zero (S := S128x128) hz2,
      View.ld_unit_zero (S := S8x128) hz2, ld_planeAt]; unfold tile13 planes; rfl))

/-- A middle tile leaves the sums so far plus its own. -/
theorem sumsB (hc0 : ¬cond0_0 i) (hc1 : ¬cond0_1 i) :
    sout0_B_0 c i arg2 harg2 arg3 harg3 arg4 harg4 arg5 harg5 arg6 harg6 arg7 harg7 hc0 hc1 x0 x1 xs0 xs1
      = newSums x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B newSums
  dsimp only
  sl_unfold_words
  rw [View.canon_unit_zero hz2]
  read_loads harg2 harg3 harg6 harg7

theorem cntsB (hc0 : ¬cond0_0 i) (hc1 : ¬cond0_1 i) :
    sout0_B_1 c i arg2 harg2 arg3 harg3 arg4 harg4 arg5 harg5 arg6 harg6 arg7 harg7 hc0 hc1 x0 x1 xs0 xs1
      = newCnts x1 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B newCnts
  dsimp only
  sl_unfold_words
  rw [View.canon_unit_zero hz2]
  read_loads harg2 harg3 harg6 harg7

/-- The first tile of a batch: the totals start from the zero block the reset stored and read back. -/
theorem sumsA (hc0 : cond0_0 i) (hc1 : ¬cond0_1 i) :
    sout0_A_0 c i arg2 harg2 arg3 harg3 arg4 harg4 arg5 harg5 arg6 harg6 arg7 harg7 hc0 hc1 x0 x1
      = newSums x0 x1 (k0_pay5 (F := Ideal)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A newSums
  dsimp only
  sl_unfold_words
  rw [View.canon_cons_unit_zero (S := S128x128) hz2, View.readCov_unit_zero (S := S128x128) _ hz2]
  read_loads harg2 harg3 harg6 harg7

theorem cntsA (hc0 : cond0_0 i) (hc1 : ¬cond0_1 i) :
    sout0_A_1 c i arg2 harg2 arg3 harg3 arg4 harg4 arg5 harg5 arg6 harg6 arg7 harg7 hc0 hc1 x0 x1
      = newCnts x1 (k0_pay6 (F := Ideal)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A newCnts
  dsimp only
  sl_unfold_words
  rw [View.canon_cons_unit_zero (S := S8x128) hz2, View.readCov_unit_zero (S := S8x128) _ hz2]
  read_loads harg2 harg3 harg6 harg7

/-- The last tile of a batch leaves the same totals as a middle tile. -/
theorem sumsC (hc0 : ¬cond0_0 i) (hc1 : cond0_1 i) :
    sout0_C_0 c i arg2 harg2 arg3 harg3 arg4 harg4 arg5 harg5 arg6 harg6 arg7 harg7 hc0 hc1 x0 x1 xs0 xs1
      = newSums x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C newSums
  dsimp only
  sl_unfold_words
  rw [View.canon_unit_zero hz2]
  read_loads harg2 harg3 harg6 harg7

theorem cntsC (hc0 : ¬cond0_0 i) (hc1 : cond0_1 i) :
    sout0_C_1 c i arg2 harg2 arg3 harg3 arg4 harg4 arg5 harg5 arg6 harg6 arg7 harg7 hc0 hc1 x0 x1 xs0 xs1
      = newCnts x1 xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C newCnts
  dsimp only
  sl_unfold_words
  rw [View.canon_unit_zero hz2]
  read_loads harg2 harg3 harg6 harg7

/-- The last tile's feature block: the body's quotient payload over the first 24 columns of the new sums and the
    first 24 entries of the first row of the new counts. -/
theorem featC (hc0 : ¬cond0_0 i) (hc1 : cond0_1 i) :
    out0_C_2 c i arg2 harg2 arg3 harg3 arg4 harg4 arg5 harg5 arg6 harg6 arg7 harg7 hc0 hc1 x0 x1 xs0 xs1
      = k0_pay3
          (View.ld (S := S128x128) (newSums x0 x1 xs0) (Rect.unit ![0, 0] ![128, 24] Facts₀.inb_S128x128_S128x24_0_0))
          (View.ld (S := S8x128) (newCnts x1 xs1) (Rect.unit ![0, 0] ![1, 24] Facts₀.inb_S8x128_S1x24_0_0)) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C newSums newCnts
  dsimp only
  sl_unfold_words
  rw [View.canon_unit_zero hz3, readCov_whole_ld (S := S128x128) _ hz2, readCov_whole_ld (S := S8x128) _ hz2]
  read_loads harg2 harg3 harg6 harg7

/-- The last tile's mask block: the body's mask payload over the first 24 entries of the first row of the new counts. -/
theorem maskC (hc0 : ¬cond0_0 i) (hc1 : cond0_1 i) :
    out0_C_3 c i arg2 harg2 arg3 harg3 arg4 harg4 arg5 harg5 arg6 harg6 arg7 harg7 hc0 hc1 x0 x1 xs0 xs1
      = k0_pay4 (View.ld (S := S8x128) (newCnts x1 xs1) (Rect.unit ![0, 0] ![1, 24] Facts₀.inb_S8x128_S1x24_0_0)) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C newCnts
  dsimp only
  sl_unfold_words
  rw [View.canon_unit_zero hz3, readCov_whole_ld (S := S8x128) _ hz2]
  read_loads harg2 harg3 harg6 harg7

/-- The feature block at channel `cc`, class `n`: new sum over guarded new count. -/
theorem featC_apply (hc0 : ¬cond0_0 i) (hc1 : cond0_1 i) (cc : Fin 128) (n : Fin 24) :
    out0_C_2 c i arg2 harg2 arg3 harg3 arg4 harg4 arg5 harg5 arg6 harg6 arg7 harg7 hc0 hc1 x0 x1 xs0 xs1 (ix3 0 cc n)
      = Ideal.div (newSums x0 x1 xs0 (ix2 cc ⟨n.val, by have := n.isLt; omega⟩))
          (newCnts x1 xs1 (ix2 0 ⟨n.val, by have := n.isLt; omega⟩) + eps) := by
  rw [featC, pay3_apply, ld_cols24, ld_row24]

/-- The mask block at class `n`: 1 where the new count is positive. -/
theorem maskC_apply (hc0 : ¬cond0_0 i) (hc1 : cond0_1 i) (n : Fin 24) :
    out0_C_3 c i arg2 harg2 arg3 harg3 arg4 harg4 arg5 harg5 arg6 harg6 arg7 harg7 hc0 hc1 x0 x1 xs0 xs1 (ix3 0 0 n)
      = (((if 0 < newCnts x1 xs1 (ix2 0 ⟨n.val, by have := n.isLt; omega⟩) then (1 : ℝ) else 0) : ℝ) : EReal) := by
  rw [maskC, pay4_apply, ld_row24]

end Cases

end Cert.KernelIdeal.Value

end
-- ==== Proof.KernelBlocks.lean ====
/-
  The blocks the kernel's two input windows stage at a grid point, as tiles of the argument arrays. Grid point t is
  (batch t / 4, tile t % 4). The data window reads block (batch, 0, tile) of the data reshaped to [8, 128, 16384]:
  channel c, flattened low-resolution pixels 4096·tile … 4096·tile + 4095, that is rows 32·tile … 32·tile + 31.
  The label window reads block (batch, 0, 0, tile, 0) of the labels reshaped to [8, 128, 4, 128, 4] and transposed
  to [8, 4, 4, 128, 128]: plane (dh, dw), row r, column w holds label (4·(32·tile + r) + dh, 4·w + dw).
-/
import proofs.«404461_j37237366456700_3_alg».proof.Proof.Gen.KernelIdeal.Frame
import proofs.«404461_j37237366456700_3_alg».proof.Proof.Spec
import Idealize.ShloMosaic.Lib.Pipeline.Value
import Idealize.ShloMosaic.Lib.StableHlo.Run

noncomputable section

namespace Cert.KernelIdeal.Value

open Idealize.ShloMosaic Idealize.ShloMosaic.TcCoe Idealize.SL.Sem Idealize.ShloMosaic.ValueIdx
open Cert.KernelIdeal Cert.KernelIdeal.Gen Cert.SegMean

variable (m : (ℓ : Loc nD τ sig) → Buf (Elt Ideal) ℓ)

/-- The batch and the tile of a grid point. -/
def bOf (t : Fin cfg0.N) : Fin 8 := ⟨t.val / 4, by have := t.isLt; have : cfg0.N = 32 := N_0; omega⟩
def htOf (t : Fin cfg0.N) : Fin 4 := ⟨t.val % 4, Nat.mod_lt _ (by decide)⟩

/-- The two argument arrays as the program finds them. -/
abbrev dataArr (c : Dev nD) : SData.Idx → EReal := m ((c : Thread nD τ).loc main_arg0)
abbrev labelArr (c : Dev nD) : SLabel.Idx → BitVec 32 := m ((c : Thread nD τ).loc main_arg1)

/-- The data window's array as the region finds it: the data reshaped to [8, 128, 16384]. -/
theorem V_v0 (c : Dev nD) : (V m c main_v0 : S8x128x16384.Idx → EReal)
    = shapeCast S8x128x16384 (dataArr m c) shapeCasts_S8x128x128x128_S8x128x16384 := by
  show StableHlo.after hostOps0 (fun b => m (c, b)) (Proc.devRef .tc main_v0) = _
  after_results; rfl

/-- The label window's array as the region finds it: the labels reshaped to [8, 128, 4, 128, 4], then the axes
    permuted to [8, 4, 4, 128, 128]. -/
theorem V_v2 (c : Dev nD) : (V m c main_v2 : S8x4x4x128x128.Idx → BitVec 32)
    = transpose S8x4x4x128x128 [0, 2, 4, 1, 3]
        (shapeCast S8x128x4x128x4 (labelArr m c) shapeCasts_S8x512x512_S8x128x4x128x4)
        transposes_S8x128x4x128x4_S8x4x4x128x128_0_2_4_1_3 := by
  show StableHlo.after hostOps0 (fun b => m (c, b)) (Proc.devRef .tc main_v2) = _
  after_results; rfl

/-- The data window's block index at a grid point: (batch, 0, tile). -/
theorem idx0 : ∀ t : Fin cfg0.N, win0_0.index t (0 : Fin 3) = t.val / 4 ∧ win0_0.index t (1 : Fin 3) = 0
    ∧ win0_0.index t (2 : Fin 3) = t.val % 4 :=
  (by decide +kernel : ∀ t : Fin grid0.N, _)

/-- The label window's block index at a grid point: (batch, 0, 0, tile, 0). -/
theorem idx1 : ∀ t : Fin cfg0.N, win0_1.index t (0 : Fin 5) = t.val / 4 ∧ win0_1.index t (1 : Fin 5) = 0
    ∧ win0_1.index t (2 : Fin 5) = 0 ∧ win0_1.index t (3 : Fin 5) = t.val % 4 ∧ win0_1.index t (4 : Fin 5) = 0 :=
  (by decide +kernel : ∀ t : Fin grid0.N, _)

/-- The data window's block at a grid point is that point's tile of the data. -/
theorem iblk0_eq (c : Dev nD) (t : Fin cfg0.N) :
    (iblk m c 0 t : Vec Ideal S1x128x4096 .f32) = dataTile (dataArr m c) (bOf t) (htOf t) := by
  refine funext fun (y : S1x128x4096.Idx) => ?_
  unfold iblk
  rw [View.read_apply]
  show V m c main_v0 (((cfg0.win 0).blk t).view.emb y) = _
  rw [V_v0]
  unfold dataTile
  -- the reshape matches indices of equal row-major position: (b, c, q) of [8, 128, 16384] with (b, c, q / 128, q % 128)
  refine shapeCast_apply _ _ _ _ ?_
  rw [Shape.rowMajor_val_four, Shape.rowMajor_val_three]
  obtain ⟨h0, h1, h2⟩ := idx0 t
  -- a block's coordinate on an axis is its block index times the block size plus the coordinate inside the block
  show (((bOf t).val * 128 + (y 1).val) * 128 + (32 * (htOf t).val + (y 2).val / 128)) * 128 + (y 2).val % 128
     = ((win0_0.index t 0 * 1 + 1 * (y 0).val) * 128 + (win0_0.index t 1 * 128 + 1 * (y 1).val)) * 16384
        + (win0_0.index t 2 * 4096 + 1 * (y 2).val)
  rw [h0, h1, h2]
  have y0 : (y 0).val < 1 := (y 0).isLt
  have y1 : (y 1).val < 128 := (y 1).isLt
  have y2 : (y 2).val < 4096 := (y 2).isLt
  simp only [bOf, htOf]
  omega

/-- The label window's block at a grid point is that point's de-interleaved tile of the labels. -/
theorem iblk1_eq (c : Dev nD) (t : Fin cfg0.N) :
    (iblk m c 1 t : Vec Ideal S1x4x4x32x128 .i32) = labelTile (labelArr m c) (bOf t) (htOf t) := by
  refine funext fun (y : S1x4x4x32x128.Idx) => ?_
  unfold iblk
  rw [View.read_apply]
  show V m c main_v2 (((cfg0.win 1).blk t).view.emb y) = _
  rw [V_v2]
  unfold labelTile
  obtain ⟨h0, h1, h2, h3, h4⟩ := idx1 t
  have y0 : (y 0).val < 1 := (y 0).isLt
  have y1 : (y 1).val < 4 := (y 1).isLt
  have y2 : (y 2).val < 4 := (y 2).isLt
  have y3 : (y 3).val < 32 := (y 3).isLt
  have y4 : (y 4).val < 128 := (y 4).isLt
  have ht : (htOf t).val < 4 := (htOf t).isLt
  -- the permuted array at (b, dh, dw, R, w) is the reshaped one at (b, R, dh, w, dw); here R = 32·tile + r
  rw [transpose_apply _ _ _ _
    (ix5 (bOf t) (⟨32 * (htOf t).val + (y 3).val, by omega⟩ : Fin 128) (⟨(y 1).val, y1⟩ : Fin 4)
      (⟨(y 4).val, y4⟩ : Fin 128) (⟨(y 2).val, y2⟩ : Fin 4)) ?hk]
  case hk =>
    intro b
    match b with
    | ⟨0, _⟩ => show (bOf t).val = win0_1.index t 0 * 1 + 1 * (y 0).val; rw [h0]; simp only [bOf]; omega
    | ⟨1, _⟩ => show (y 1).val = win0_1.index t 1 * 4 + 1 * (y 1).val; rw [h1]; omega
    | ⟨2, _⟩ => show (y 2).val = win0_1.index t 2 * 4 + 1 * (y 2).val; rw [h2]; omega
    | ⟨3, _⟩ =>
      show 32 * (htOf t).val + (y 3).val = win0_1.index t 3 * 32 + 1 * (y 3).val; rw [h3]; simp only [htOf]; omega
    | ⟨4, _⟩ => show (y 4).val = win0_1.index t 4 * 128 + 1 * (y 4).val; rw [h4]; omega
  -- the reshape matches (b, R, dh, w, dw) of [8, 128, 4, 128, 4] with (b, 4·R + dh, 4·w + dw) of [8, 512, 512]
  refine shapeCast_apply _ _ _ _ ?_
  rw [Shape.rowMajor_val_three, Shape.rowMajor_val_five]
  show ((bOf t).val * 512 + (4 * (32 * (htOf t).val + (y 3).val) + (y 1).val)) * 512 + (4 * (y 4).val + (y 2).val)
     = ((((bOf t).val * 128 + (32 * (htOf t).val + (y 3).val)) * 4 + (y 1).val) * 128 + (y 4).val) * 4 + (y 2).val
  omega

end Cert.KernelIdeal.Value

end
-- ==== Proof.TileAlgebra.lean ====
/-
  Summing the four tiles of a batch gives the whole-image sums: the pixels of a batch are, one to one, the
  (tile, low-resolution pixel of the tile, sub-pixel) triples, and a finite data entry times a hit count is the
  entry added once per hit.
-/
import proofs.«404461_j37237366456700_3_alg».proof.Proof.Spec

noncomputable section

namespace Cert.SegMean

open Idealize.ShloMosaic Idealize.ShloMosaic.ValueIdx

/-! ## The pixels of a batch as (tile, tile pixel, sub-pixel) -/

/-- The full-resolution row of sub-pixel row `dh` of the flattened pixel `k` of tile `ht`. -/
def pixRow (ht : Fin 4) (k : Fin 4096) (dh : Fin 4) : Fin 512 :=
  ⟨4 * (32 * ht.val + k.val / 128) + dh.val, by have := ht.isLt; have := k.isLt; have := dh.isLt; omega⟩

/-- The full-resolution column of sub-pixel column `dw` of the flattened pixel `k` of a tile. -/
def pixCol (k : Fin 4096) (dw : Fin 4) : Fin 512 :=
  ⟨4 * (k.val % 128) + dw.val, by have := k.isLt; have := dw.isLt; omega⟩

/-- (tile, flattened tile pixel, sub-pixel row, sub-pixel column) ↔ full-resolution pixel: the row is
  4·(32·ht + k / 128) + dh and the column 4·(k % 128) + dw; back by quotients and remainders. -/
def pixEquiv : Fin 4 × Fin 4096 × Fin 4 × Fin 4 ≃ Fin 512 × Fin 512 where
  toFun q := (pixRow q.1 q.2.1 q.2.2.1, pixCol q.2.1 q.2.2.2)
  invFun p :=
    (⟨p.1.val / 128, by have := p.1.isLt; omega⟩,
     ⟨128 * (p.1.val / 4 % 32) + p.2.val / 4, by have := p.1.isLt; have := p.2.isLt; omega⟩,
     ⟨p.1.val % 4, Nat.mod_lt _ (by decide)⟩,
     ⟨p.2.val % 4, Nat.mod_lt _ (by decide)⟩)
  left_inv := by
    rintro ⟨⟨ht, hht⟩, ⟨k, hk⟩, ⟨dh, hdh⟩, ⟨dw, hdw⟩⟩
    refine Prod.ext ?_ (Prod.ext ?_ (Prod.ext ?_ ?_)) <;> apply Fin.ext <;> simp only [pixRow, pixCol] <;> omega
  right_inv := by
    rintro ⟨⟨i, hi⟩, ⟨j, hj⟩⟩
    refine Prod.ext ?_ ?_ <;> apply Fin.ext <;> simp only [pixRow, pixCol] <;> omega

theorem low_pixRow (ht : Fin 4) (k : Fin 4096) (dh : Fin 4) :
    low (pixRow ht k dh) = ⟨32 * ht.val + k.val / 128, by have := ht.isLt; have := k.isLt; omega⟩ := by
  apply Fin.ext; have := dh.isLt; simp only [low, pixRow]; omega

theorem low_pixCol (k : Fin 4096) (dw : Fin 4) :
    low (pixCol k dw) = ⟨k.val % 128, Nat.mod_lt _ (by decide)⟩ := by
  apply Fin.ext; have := dw.isLt; simp only [low, pixCol]; omega

/-- An entry of a data tile is the entry of the whole array at the tile's row offset. -/
theorem dataTile_ix3 (D : SData.Idx → EReal) (b : Fin 8) (ht : Fin 4) (c : Fin 128) (k : Fin 4096) :
    dataTile D b ht (ix3 0 c k) =
      D (ix4 b c ⟨32 * ht.val + k.val / 128, by have := ht.isLt; have := k.isLt; omega⟩
        ⟨k.val % 128, Nat.mod_lt _ (by decide)⟩) := rfl

/-- A hit of a label tile is a hit of the whole label array at the sub-pixel's full-resolution position. -/
theorem hit_labelTile (Lb : SLabel.Idx → BitVec 32) (b : Fin 8) (ht : Fin 4) (dh dw : Fin 4) (k : Fin 4096)
    (n : Fin 24) (h : n.val < 128) :
    hit (labelTile Lb b ht) dh dw (krow k) (kcol k) ⟨n.val, h⟩ =
      if Lb (ix3 b (pixRow ht k dh) (pixCol k dw)) = BitVec.ofNat 32 n.val then 1 else 0 := rfl

theorem hit_nonneg (x1 : SLabelTile.Idx → BitVec 32) (dh dw : Fin 4) (r : Fin 32) (w n : Fin 128) :
    0 ≤ hit x1 dh dw r w n := by
  unfold hit; split
  · exact zero_le_one
  · exact le_rfl

/-! ## A factor times a sum of nonnegative terms -/

/-- In the extended reals a factor distributes over a finite sum of nonnegative terms. -/
theorem mul_sum_of_nonneg {ι : Type*} (s : Finset ι) (x : EReal) (f : ι → EReal) (hf : ∀ i, 0 ≤ f i) :
    x * ∑ i ∈ s, f i = ∑ i ∈ s, x * f i := by
  classical
  induction s using Finset.induction_on with
  | empty => simp
  | insert a s ha ih =>
    rw [Finset.sum_insert ha, Finset.sum_insert ha,
      EReal.left_distrib_of_nonneg (hf a) (Finset.sum_nonneg fun i _ => hf i), ih]

/-- The coercion of a finite real sum is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The whole-image sums, pixel by pixel -/

/-- What the pixel `p` of batch `b` adds to the sum of class `n`: its upsampled data entry if it carries the class. -/
def pixTerm (D : SData.Idx → EReal) (Lb : SLabel.Idx → BitVec 32) (b : Fin 8) (c : Fin 128) (n : Fin 24)
    (p : Fin 512 × Fin 512) : EReal :=
  if Lb (ix3 b p.1 p.2) = BitVec.ofNat 32 n.val then D (ix4 b c (low p.1) (low p.2)) else 0

/-- What the pixel `p` of batch `b` adds to the count of class `n`. -/
def pixOne (Lb : SLabel.Idx → BitVec 32) (b : Fin 8) (n : Fin 24) (p : Fin 512 × Fin 512) : EReal :=
  if Lb (ix3 b p.1 p.2) = BitVec.ofNat 32 n.val then 1 else 0

/-- A sum over the pixels of a batch, taken tile by tile. -/
theorem sum_pix_eq_sum_tiles (g : Fin 512 × Fin 512 → EReal) :
    ∑ p, g p = ∑ ht : Fin 4, ∑ k : Fin 4096, ∑ dh : Fin 4, ∑ dw : Fin 4, g (pixRow ht k dh, pixCol k dw) := by
  rw [← Equiv.sum_comp pixEquiv g, Fintype.sum_prod_type]
  refine Finset.sum_congr rfl fun ht _ => ?_
  rw [Fintype.sum_prod_type]
  refine Finset.sum_congr rfl fun k _ => ?_
  rw [Fintype.sum_prod_type]
  rfl

theorem sm_eq_sum_pixTerm (D : SData.Idx → EReal) (Lb : SLabel.Idx → BitVec 32) (b : Fin 8) (c : Fin 128)
    (n : Fin 24) : sm D Lb b c n = ∑ p, pixTerm D Lb b c n p := by
  unfold sm classPix pixTerm
  rw [Finset.sum_filter]

/-- One pixel of a tile: the data entry times its hit count is the entry added once per sub-pixel that hits. -/
theorem tile_term (D : SData.Idx → EReal) (Lb : SLabel.Idx → BitVec 32) (b : Fin 8) (c : Fin 128) (n : Fin 24)
    (h : n.val < 128) (ht : Fin 4) (k : Fin 4096) :
    dataTile D b ht (ix3 0 c k) * tileHits (labelTile Lb b ht) (krow k) (kcol k) ⟨n.val, h⟩ =
      ∑ dh : Fin 4, ∑ dw : Fin 4, pixTerm D Lb b c n (pixRow ht k dh, pixCol k dw) := by
  unfold tileHits
  rw [mul_sum_of_nonneg _ _ _ (fun dh => Finset.sum_nonneg fun dw _ => hit_nonneg _ _ _ _ _ _)]
  refine Finset.sum_congr rfl fun dh _ => ?_
  rw [mul_sum_of_nonneg _ _ _ (fun dw => hit_nonneg _ _ _ _ _ _)]
  refine Finset.sum_congr rfl fun dw _ => ?_
  rw [hit_labelTile, dataTile_ix3, mul_ite, mul_one, mul_zero]
  unfold pixTerm
  rw [low_pixRow, low_pixCol]

theorem sum_tileSum (D : SData.Idx → EReal) (hD : ∀ i, ∃ r : ℝ, D i = (r : EReal)) (Lb : SLabel.Idx → BitVec 32)
    (b : Fin 8) (c : Fin 128) (n : Fin 24) :
    ∑ ht : Fin 4, tileSum (dataTile D b ht) (labelTile Lb b ht) c ⟨n.val, by have := n.isLt; omega⟩ = sm D Lb b c n := by
  rw [sm_eq_sum_pixTerm, sum_pix_eq_sum_tiles]
  refine Finset.sum_congr rfl fun ht _ => ?_
  unfold tileSum
  refine Finset.sum_congr rfl fun k _ => ?_
  exact tile_term D Lb b c n _ ht k

/-- The number of pixels of a class, as a sum of ones over the pixels. -/
theorem cnt_eq_sum_pixOne (Lb : SLabel.Idx → BitVec 32) (b : Fin 8) (n : Fin 24) :
    ((cnt Lb b n : ℝ) : EReal) = ∑ p, pixOne Lb b n p := by
  unfold cnt classPix pixOne
  rw [Finset.card_filter, Nat.cast_sum, coe_finset_sum]
  refine Finset.sum_congr rfl fun p _ => ?_
  split <;> simp

theorem sum_tileCount (Lb : SLabel.Idx → BitVec 32) (b : Fin 8) (n : Fin 24) :
    ∑ ht : Fin 4, tileCount (labelTile Lb b ht) ⟨n.val, by have := n.isLt; omega⟩ = ((cnt Lb b n : ℝ) : EReal) := by
  rw [cnt_eq_sum_pixOne, sum_pix_eq_sum_tiles]
  refine Finset.sum_congr rfl fun ht _ => ?_
  unfold tileCount tileHits
  refine Finset.sum_congr rfl fun k _ => ?_
  refine Finset.sum_congr rfl fun dh _ => ?_
  refine Finset.sum_congr rfl fun dw _ => ?_
  rw [hit_labelTile]
  rfl

end Cert.SegMean

end
-- ==== Proof.KernelAccum.lean ====
/-
  What the kernel's two outputs hold at the last tile of each batch: over the four tiles of a batch the running
  totals add up to the whole-image class sums and class counts, and the last tile writes their guarded quotient and
  the occupancy mask — the specification's feat and mask at that batch.
-/
import proofs.«404461_j37237366456700_3_alg».proof.Proof.KernelPieces
import proofs.«404461_j37237366456700_3_alg».proof.Proof.KernelBlocks
import proofs.«404461_j37237366456700_3_alg».proof.Proof.TileAlgebra

noncomputable section

namespace Cert.KernelIdeal.Value

open Idealize.ShloMosaic Idealize.ShloMosaic.TcCoe Idealize.SL.Sem Idealize.ShloMosaic.ValueIdx
open Cert.KernelIdeal Cert.KernelIdeal.Gen Cert.KernelIdeal.Payload Cert.SegMean

variable (m : (ℓ : Loc nD τ sig) → Buf (Elt Ideal) ℓ)

/-- The two staged input blocks of a grid point, at their literal types. -/
abbrev blk0 (c : Dev nD) (t : Fin cfg0.N) : Vec Ideal S1x128x4096 .f32 := iblk m c 0 t
abbrev blk1 (c : Dev nD) (t : Fin cfg0.N) : Vec Ideal S1x4x4x32x128 .i32 := iblk m c 1 t

theorem blk0_eq (c : Dev nD) (t : Fin cfg0.N) : blk0 m c t = dataTile (dataArr m c) (bOf t) (htOf t) := iblk0_eq m c t
theorem blk1_eq (c : Dev nD) (t : Fin cfg0.N) : blk1 m c t = labelTile (labelArr m c) (bOf t) (htOf t) := iblk1_eq m c t

/-- Tile `k` (modulo 4) of batch `b`: what it adds to the class sums and to the class counts. -/
def tS (c : Dev nD) (b : Fin 8) (k : ℕ) (cc n : Fin 128) : EReal :=
  tileSum (dataTile (dataArr m c) b ⟨k % 4, Nat.mod_lt _ (by decide)⟩)
    (labelTile (labelArr m c) b ⟨k % 4, Nat.mod_lt _ (by decide)⟩) cc n
def tC (c : Dev nD) (b : Fin 8) (k : ℕ) (n : Fin 128) : EReal :=
  tileCount (labelTile (labelArr m c) b ⟨k % 4, Nat.mod_lt _ (by decide)⟩) n

/-- What a point adds, in terms of its batch and tile. -/
theorem tileSum_blk (c : Dev nD) (t : Fin cfg0.N) (cc n : Fin 128) :
    tileSum (blk0 m c t) (blk1 m c t) cc n = tS m c (bOf t) t.val cc n := by
  rw [blk0_eq, blk1_eq]; rfl
theorem tileCount_blk (c : Dev nD) (t : Fin cfg0.N) (n : Fin 128) :
    tileCount (blk1 m c t) n = tC m c (bOf t) t.val n := by
  rw [blk1_eq]; rfl

/-! ## One point -/

/-- The first tile of a batch leaves its own contribution (added to the zero block). -/
theorem sums_first (c : Dev nD) (t : Fin cfg0.N) (h0 : t.val % 4 = 0) (cc n : Fin 128) :
    (outsAt0 m c t.val t.isLt).2.2.1 (ix2 cc n) = tS m c (bOf t) t.val cc n := by
  have h1 : ¬t.val % 4 = 3 := by omega
  rw [outsAt0_A m c t h0 h1]
  dsimp only
  refine (congrFun (sumsA c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (blk0 m c t) (blk1 m c t)
    ((hcond0_0 t).mpr h0) (fun h => h1 ((hcond0_1 t).mp h))) (ix2 cc n)).trans ?_
  rw [newSums_apply, pay5_apply, zero_add, tileSum_blk]

theorem cnts_first (c : Dev nD) (t : Fin cfg0.N) (h0 : t.val % 4 = 0) (r : Fin 8) (n : Fin 128) :
    (outsAt0 m c t.val t.isLt).2.2.2 (ix2 r n) = tC m c (bOf t) t.val n := by
  have h1 : ¬t.val % 4 = 3 := by omega
  rw [outsAt0_A m c t h0 h1]
  dsimp only
  refine (congrFun (cntsA c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (blk0 m c t) (blk1 m c t)
    ((hcond0_0 t).mpr h0) (fun h => h1 ((hcond0_1 t).mp h))) (ix2 r n)).trans ?_
  rw [newCnts_apply, pay6_apply, zero_add, tileCount_blk]

/-- Every later tile of a batch leaves what the tile before left plus its own contribution. -/
theorem sums_next (c : Dev nD) (k : ℕ) (h : k + 1 < cfg0.N) (h0 : ¬(k + 1) % 4 = 0) (cc n : Fin 128) :
    (outsAt0 m c (k + 1) h).2.2.1 (ix2 cc n)
      = (outsAt0 m c k (Nat.lt_of_succ_lt h)).2.2.1 (ix2 cc n) + tS m c (bOf ⟨k + 1, h⟩) (k + 1) cc n := by
  by_cases h1 : (k + 1) % 4 = 3
  · rw [outsAt0_C m c ⟨k + 1, h⟩ h0 h1]
    dsimp only
    refine (congrFun (sumsC c (grid0.coords ⟨k + 1, h⟩) (ms0_0 ⟨k + 1, h⟩) (hs0_0 ⟨k + 1, h⟩) (ms0_1 ⟨k + 1, h⟩) (hs0_1 ⟨k + 1, h⟩)
      (ms0_2 ⟨k + 1, h⟩) (hs0_2 ⟨k + 1, h⟩) (ms0_3 ⟨k + 1, h⟩) (hs0_3 ⟨k + 1, h⟩)
      scM0_0 (Memref.isWhole_whole _) scM0_1 (Memref.isWhole_whole _) (blk0 m c ⟨k + 1, h⟩) (blk1 m c ⟨k + 1, h⟩)
      (outsAt0 m c k (Nat.lt_of_succ_lt h)).2.2.1 (outsAt0 m c k (Nat.lt_of_succ_lt h)).2.2.2
      (fun hh => h0 ((hcond0_0 ⟨k + 1, h⟩).mp hh)) ((hcond0_1 ⟨k + 1, h⟩).mpr h1)) (ix2 cc n)).trans ?_
    rw [newSums_apply, tileSum_blk]
  · rw [outsAt0_B m c ⟨k + 1, h⟩ h0 h1]
    dsimp only
    refine (congrFun (sumsB c (grid0.coords ⟨k + 1, h⟩) (ms0_0 ⟨k + 1, h⟩) (hs0_0 ⟨k + 1, h⟩) (ms0_1 ⟨k + 1, h⟩) (hs0_1 ⟨k + 1, h⟩)
      (ms0_2 ⟨k + 1, h⟩) (hs0_2 ⟨k + 1, h⟩) (ms0_3 ⟨k + 1, h⟩) (hs0_3 ⟨k + 1, h⟩)
      scM0_0 (Memref.isWhole_whole _) scM0_1 (Memref.isWhole_whole _) (blk0 m c ⟨k + 1, h⟩) (blk1 m c ⟨k + 1, h⟩)
      (outsAt0 m c k (Nat.lt_of_succ_lt h)).2.2.1 (outsAt0 m c k (Nat.lt_of_succ_lt h)).2.2.2
      (fun hh => h0 ((hcond0_0 ⟨k + 1, h⟩).mp hh)) (fun hh => h1 ((hcond0_1 ⟨k + 1, h⟩).mp hh))) (ix2 cc n)).trans ?_
    rw [newSums_apply, tileSum_blk]

theorem cnts_next (c : Dev nD) (k : ℕ) (h : k + 1 < cfg0.N) (h0 : ¬(k + 1) % 4 = 0) (r : Fin 8) (n : Fin 128) :
    (outsAt0 m c (k + 1) h).2.2.2 (ix2 r n)
      = (outsAt0 m c k (Nat.lt_of_succ_lt h)).2.2.2 (ix2 r n) + tC m c (bOf ⟨k + 1, h⟩) (k + 1) n := by
  by_cases h1 : (k + 1) % 4 = 3
  · rw [outsAt0_C m c ⟨k + 1, h⟩ h0 h1]
    dsimp only
    refine (congrFun (cntsC c (grid0.coords ⟨k + 1, h⟩) (ms0_0 ⟨k + 1, h⟩) (hs0_0 ⟨k + 1, h⟩) (ms0_1 ⟨k + 1, h⟩) (hs0_1 ⟨k + 1, h⟩)
      (ms0_2 ⟨k + 1, h⟩) (hs0_2 ⟨k + 1, h⟩) (ms0_3 ⟨k + 1, h⟩) (hs0_3 ⟨k + 1, h⟩)
      scM0_0 (Memref.isWhole_whole _) scM0_1 (Memref.isWhole_whole _) (blk0 m c ⟨k + 1, h⟩) (blk1 m c ⟨k + 1, h⟩)
      (outsAt0 m c k (Nat.lt_of_succ_lt h)).2.2.1 (outsAt0 m c k (Nat.lt_of_succ_lt h)).2.2.2
      (fun hh => h0 ((hcond0_0 ⟨k + 1, h⟩).mp hh)) ((hcond0_1 ⟨k + 1, h⟩).mpr h1)) (ix2 r n)).trans ?_
    rw [newCnts_apply, tileCount_blk]
  · rw [outsAt0_B m c ⟨k + 1, h⟩ h0 h1]
    dsimp only
    refine (congrFun (cntsB c (grid0.coords ⟨k + 1, h⟩) (ms0_0 ⟨k + 1, h⟩) (hs0_0 ⟨k + 1, h⟩) (ms0_1 ⟨k + 1, h⟩) (hs0_1 ⟨k + 1, h⟩)
      (ms0_2 ⟨k + 1, h⟩) (hs0_2 ⟨k + 1, h⟩) (ms0_3 ⟨k + 1, h⟩) (hs0_3 ⟨k + 1, h⟩)
      scM0_0 (Memref.isWhole_whole _) scM0_1 (Memref.isWhole_whole _) (blk0 m c ⟨k + 1, h⟩) (blk1 m c ⟨k + 1, h⟩)
      (outsAt0 m c k (Nat.lt_of_succ_lt h)).2.2.1 (outsAt0 m c k (Nat.lt_of_succ_lt h)).2.2.2
      (fun hh => h0 ((hcond0_0 ⟨k + 1, h⟩).mp hh)) (fun hh => h1 ((hcond0_1 ⟨k + 1, h⟩).mp hh))) (ix2 r n)).trans ?_
    rw [newCnts_apply, tileCount_blk]

/-! ## A batch's four tiles -/

/-- The batch of the point at position `n`. -/
def bAt (n : ℕ) (h : n < cfg0.N) : Fin 8 := ⟨n / 4, by have : cfg0.N = 32 := N_0; omega⟩

theorem bAt_succ (n : ℕ) (h : n + 1 < cfg0.N) (h0 : ¬(n + 1) % 4 = 0) :
    bAt (n + 1) h = bAt n (Nat.lt_of_succ_lt h) := Fin.ext (by show (n + 1) / 4 = n / 4; omega)

/-- A tile's contribution depends on the tile number modulo 4 only. -/
theorem tS_mod (c : Dev nD) (b : Fin 8) (k : ℕ) (cc n : Fin 128) : tS m c b k cc n = tS m c b (k % 4) cc n := by
  unfold tS
  have e : (⟨k % 4, Nat.mod_lt _ (by decide)⟩ : Fin 4) = ⟨k % 4 % 4, Nat.mod_lt _ (by decide)⟩ :=
    Fin.ext (Nat.mod_mod _ _).symm
  rw [e]
theorem tC_mod (c : Dev nD) (b : Fin 8) (k : ℕ) (n : Fin 128) : tC m c b k n = tC m c b (k % 4) n := by
  unfold tC
  have e : (⟨k % 4, Nat.mod_lt _ (by decide)⟩ : Fin 4) = ⟨k % 4 % 4, Nat.mod_lt _ (by decide)⟩ :=
    Fin.ext (Nat.mod_mod _ _).symm
  rw [e]

/-- After the point at position `n` the running class sums are the contributions of the batch's tiles 0 … n % 4. -/
theorem sums_closed (c : Dev nD) (cc nn : Fin 128) : ∀ (n : ℕ) (h : n < cfg0.N),
    (outsAt0 m c n h).2.2.1 (ix2 cc nn) = ∑ k ∈ Finset.range (n % 4 + 1), tS m c (bAt n h) k cc nn
  | 0, h => by
    rw [show (0 : ℕ) % 4 + 1 = 1 from rfl, Finset.sum_range_one]
    exact sums_first m c ⟨0, h⟩ rfl cc nn
  | n + 1, h => by
    by_cases h0 : (n + 1) % 4 = 0
    · rw [show (n + 1) % 4 + 1 = 1 from by omega, Finset.sum_range_one]
      refine (sums_first m c ⟨n + 1, h⟩ h0 cc nn).trans ?_
      rw [tS_mod]
      show tS m c (bAt (n + 1) h) ((n + 1) % 4) cc nn = _
      rw [h0]
    · rw [sums_next m c n h h0, sums_closed c cc nn n (Nat.lt_of_succ_lt h),
        show (n + 1) % 4 + 1 = (n % 4 + 1) + 1 from by omega, Finset.sum_range_succ _ (n % 4 + 1), bAt_succ n h h0]
      refine congrArg (fun z => (∑ k ∈ Finset.range (n % 4 + 1), tS m c (bAt n (Nat.lt_of_succ_lt h)) k cc nn) + z) ?_
      show tS m c (bAt (n + 1) h) (n + 1) cc nn = _
      rw [bAt_succ n h h0, tS_mod m c _ (n + 1), tS_mod m c _ (n % 4 + 1),
        show (n % 4 + 1) % 4 = (n + 1) % 4 from by omega]

theorem cnts_closed (c : Dev nD) (r : Fin 8) (nn : Fin 128) : ∀ (n : ℕ) (h : n < cfg0.N),
    (outsAt0 m c n h).2.2.2 (ix2 r nn) = ∑ k ∈ Finset.range (n % 4 + 1), tC m c (bAt n h) k nn
  | 0, h => by
    rw [show (0 : ℕ) % 4 + 1 = 1 from rfl, Finset.sum_range_one]
    exact cnts_first m c ⟨0, h⟩ rfl r nn
  | n + 1, h => by
    by_cases h0 : (n + 1) % 4 = 0
    · rw [show (n + 1) % 4 + 1 = 1 from by omega, Finset.sum_range_one]
      refine (cnts_first m c ⟨n + 1, h⟩ h0 r nn).trans ?_
      rw [tC_mod]
      show tC m c (bAt (n + 1) h) ((n + 1) % 4) nn = _
      rw [h0]
    · rw [cnts_next m c n h h0, cnts_closed c r nn n (Nat.lt_of_succ_lt h),
        show (n + 1) % 4 + 1 = (n % 4 + 1) + 1 from by omega, Finset.sum_range_succ _ (n % 4 + 1), bAt_succ n h h0]
      refine congrArg (fun z => (∑ k ∈ Finset.range (n % 4 + 1), tC m c (bAt n (Nat.lt_of_succ_lt h)) k nn) + z) ?_
      show tC m c (bAt (n + 1) h) (n + 1) nn = _
      rw [bAt_succ n h h0, tC_mod m c _ (n + 1), tC_mod m c _ (n % 4 + 1),
        show (n % 4 + 1) % 4 = (n + 1) % 4 from by omega]

/-- At the last tile of a batch the running class sums are the whole-image class sums of the batch. -/
theorem sums_last (hD : ∀ (c : Dev nD) i, ∃ r : ℝ, dataArr m c i = (r : EReal)) (c : Dev nD) (n : ℕ) (h : n < cfg0.N)
    (h3 : n % 4 = 3) (cc : Fin 128) (cl : Fin 24) :
    (outsAt0 m c n h).2.2.1 (ix2 cc ⟨cl.val, by have := cl.isLt; omega⟩)
      = sm (dataArr m c) (labelArr m c) (bAt n h) cc cl := by
  rw [sums_closed m c cc _ n h, h3, Finset.sum_range, ← sum_tileSum (dataArr m c) (hD c) (labelArr m c) (bAt n h) cc cl]
  refine Finset.sum_congr rfl fun ht _ => ?_
  unfold tS
  have e : (⟨ht.val % 4, Nat.mod_lt _ (by decide)⟩ : Fin 4) = ht := Fin.ext (Nat.mod_eq_of_lt ht.isLt)
  rw [e]

theorem cnts_last (c : Dev nD) (n : ℕ) (h : n < cfg0.N) (h3 : n % 4 = 3) (r : Fin 8) (cl : Fin 24) :
    (outsAt0 m c n h).2.2.2 (ix2 r ⟨cl.val, by have := cl.isLt; omega⟩)
      = ((cnt (labelArr m c) (bAt n h) cl : ℝ) : EReal) := by
  rw [cnts_closed m c r _ n h, h3, Finset.sum_range, ← sum_tileCount (labelArr m c) (bAt n h) cl]
  refine Finset.sum_congr rfl fun ht _ => ?_
  unfold tC
  have e : (⟨ht.val % 4, Nat.mod_lt _ (by decide)⟩ : Fin 4) = ht := Fin.ext (Nat.mod_eq_of_lt ht.isLt)
  rw [e]

/-! ## What the last tile writes -/

/-- The last tile's new totals are the running totals after it. -/
theorem newSums_last (c : Dev nD) (k : ℕ) (h : k + 1 < cfg0.N) (h0 : ¬(k + 1) % 4 = 0) (h1 : (k + 1) % 4 = 3) :
    newSums (blk0 m c ⟨k + 1, h⟩) (blk1 m c ⟨k + 1, h⟩) (outsAt0 m c k (Nat.lt_of_succ_lt h)).2.2.1
      = (outsAt0 m c (k + 1) h).2.2.1 := by
  rw [outsAt0_C m c ⟨k + 1, h⟩ h0 h1]
  dsimp only
  exact (sumsC c (grid0.coords ⟨k + 1, h⟩) (ms0_0 ⟨k + 1, h⟩) (hs0_0 ⟨k + 1, h⟩) (ms0_1 ⟨k + 1, h⟩) (hs0_1 ⟨k + 1, h⟩)
    (ms0_2 ⟨k + 1, h⟩) (hs0_2 ⟨k + 1, h⟩) (ms0_3 ⟨k + 1, h⟩) (hs0_3 ⟨k + 1, h⟩)
    scM0_0 (Memref.isWhole_whole _) scM0_1 (Memref.isWhole_whole _) (blk0 m c ⟨k + 1, h⟩) (blk1 m c ⟨k + 1, h⟩)
    (outsAt0 m c k (Nat.lt_of_succ_lt h)).2.2.1 (outsAt0 m c k (Nat.lt_of_succ_lt h)).2.2.2
    (fun hh => h0 ((hcond0_0 ⟨k + 1, h⟩).mp hh)) ((hcond0_1 ⟨k + 1, h⟩).mpr h1)).symm

theorem newCnts_last (c : Dev nD) (k : ℕ) (h : k + 1 < cfg0.N) (h0 : ¬(k + 1) % 4 = 0) (h1 : (k + 1) % 4 = 3) :
    newCnts (blk1 m c ⟨k + 1, h⟩) (outsAt0 m c k (Nat.lt_of_succ_lt h)).2.2.2 = (outsAt0 m c (k + 1) h).2.2.2 := by
  rw [outsAt0_C m c ⟨k + 1, h⟩ h0 h1]
  dsimp only
  exact (cntsC c (grid0.coords ⟨k + 1, h⟩) (ms0_0 ⟨k + 1, h⟩) (hs0_0 ⟨k + 1, h⟩) (ms0_1 ⟨k + 1, h⟩) (hs0_1 ⟨k + 1, h⟩)
    (ms0_2 ⟨k + 1, h⟩) (hs0_2 ⟨k + 1, h⟩) (ms0_3 ⟨k + 1, h⟩) (hs0_3 ⟨k + 1, h⟩)
    scM0_0 (Memref.isWhole_whole _) scM0_1 (Memref.isWhole_whole _) (blk0 m c ⟨k + 1, h⟩) (blk1 m c ⟨k + 1, h⟩)
    (outsAt0 m c k (Nat.lt_of_succ_lt h)).2.2.1 (outsAt0 m c k (Nat.lt_of_succ_lt h)).2.2.2
    (fun hh => h0 ((hcond0_0 ⟨k + 1, h⟩).mp hh)) ((hcond0_1 ⟨k + 1, h⟩).mpr h1)).symm

/-- At the last tile of a batch the feature output's staging buffer holds the batch's slice of `feat`. -/
theorem out2_at_flush (hD : ∀ (c : Dev nD) i, ∃ r : ℝ, dataArr m c i = (r : EReal)) (c : Dev nD) (t : Fin cfg0.N)
    (h3 : t.val % 4 = 3) :
    (outsAt0 m c t.val t.isLt).1 = fun y => feat (dataArr m c) (labelArr m c) (ix3 (bOf t) (y 1) (y 2)) := by
  obtain ⟨tv, ht⟩ := t
  cases tv with
  | zero => exact absurd h3 (by show ¬(0 : ℕ) % 4 = 3; decide)
  | succ k =>
    have h0 : ¬(k + 1) % 4 = 0 := by dsimp only at h3; omega
    funext y
    obtain ⟨y0, cc, cl, rfl⟩ : ∃ (y0 : Fin 1) (cc : Fin 128) (cl : Fin 24), y = ix3 y0 cc cl := ⟨y 0, y 1, y 2, eq_ix3 y⟩
    obtain rfl : y0 = 0 := Subsingleton.elim _ _
    show (outsAt0 m c (k + 1) ht).1 (ix3 0 cc cl) = _
    rw [outsAt0_C m c ⟨k + 1, ht⟩ h0 h3]
    dsimp only
    refine (featC_apply c (grid0.coords ⟨k + 1, ht⟩) (ms0_0 ⟨k + 1, ht⟩) (hs0_0 ⟨k + 1, ht⟩) (ms0_1 ⟨k + 1, ht⟩) (hs0_1 ⟨k + 1, ht⟩)
      (ms0_2 ⟨k + 1, ht⟩) (hs0_2 ⟨k + 1, ht⟩) (ms0_3 ⟨k + 1, ht⟩) (hs0_3 ⟨k + 1, ht⟩)
      scM0_0 (Memref.isWhole_whole _) scM0_1 (Memref.isWhole_whole _) (blk0 m c ⟨k + 1, ht⟩) (blk1 m c ⟨k + 1, ht⟩)
      (outsAt0 m c k (Nat.lt_of_succ_lt ht)).2.2.1 (outsAt0 m c k (Nat.lt_of_succ_lt ht)).2.2.2
      (fun hh => h0 ((hcond0_0 ⟨k + 1, ht⟩).mp hh)) ((hcond0_1 ⟨k + 1, ht⟩).mpr h3) cc cl).trans ?_
    rw [newSums_last m c k ht h0 h3, newCnts_last m c k ht h0 h3, sums_last m hD c (k + 1) ht h3 cc cl,
      cnts_last m c (k + 1) ht h3 0 cl]
    rfl

/-- At the last tile of a batch the mask output's staging buffer holds the batch's row of `mask`. -/
theorem out3_at_flush (c : Dev nD) (t : Fin cfg0.N) (h3 : t.val % 4 = 3) :
    (outsAt0 m c t.val t.isLt).2.1 = fun y => mask (labelArr m c) (ix2 (bOf t) (y 2)) := by
  obtain ⟨tv, ht⟩ := t
  cases tv with
  | zero => exact absurd h3 (by show ¬(0 : ℕ) % 4 = 3; decide)
  | succ k =>
    have h0 : ¬(k + 1) % 4 = 0 := by dsimp only at h3; omega
    funext y
    obtain ⟨y0, y1, cl, rfl⟩ : ∃ (y0 : Fin 1) (y1 : Fin 1) (cl : Fin 24), y = ix3 y0 y1 cl := ⟨y 0, y 1, y 2, eq_ix3 y⟩
    obtain rfl : y0 = 0 := Subsingleton.elim _ _
    obtain rfl : y1 = 0 := Subsingleton.elim _ _
    show (outsAt0 m c (k + 1) ht).2.1 (ix3 0 0 cl) = _
    rw [outsAt0_C m c ⟨k + 1, ht⟩ h0 h3]
    dsimp only
    refine (maskC_apply c (grid0.coords ⟨k + 1, ht⟩) (ms0_0 ⟨k + 1, ht⟩) (hs0_0 ⟨k + 1, ht⟩) (ms0_1 ⟨k + 1, ht⟩) (hs0_1 ⟨k + 1, ht⟩)
      (ms0_2 ⟨k + 1, ht⟩) (hs0_2 ⟨k + 1, ht⟩) (ms0_3 ⟨k + 1, ht⟩) (hs0_3 ⟨k + 1, ht⟩)
      scM0_0 (Memref.isWhole_whole _) scM0_1 (Memref.isWhole_whole _) (blk0 m c ⟨k + 1, ht⟩) (blk1 m c ⟨k + 1, ht⟩)
      (outsAt0 m c k (Nat.lt_of_succ_lt ht)).2.2.1 (outsAt0 m c k (Nat.lt_of_succ_lt ht)).2.2.2
      (fun hh => h0 ((hcond0_0 ⟨k + 1, ht⟩).mp hh)) ((hcond0_1 ⟨k + 1, ht⟩).mpr h3) cl).trans ?_
    rw [newCnts_last m c k ht h0 h3, cnts_last m c (k + 1) ht h3 0 cl]
    show _ = mask (labelArr m c) (ix2 (bAt (k + 1) ht) cl)
    unfold mask
    simp only [EReal.coe_pos, Nat.cast_pos]

end Cert.KernelIdeal.Value

end
-- ==== Proof.KernelFinal.lean ====
/-
  The kernel program's run, read: the last tile of batch b writes block b of the two result arrays, the eight such
  blocks tile the arrays, so the first result ends at `feat`, the [8, 1, 24] array at `mask` with a unit middle axis,
  and the host reshape after the kernel drops that axis.
-/
import proofs.«404461_j37237366456700_3_alg».proof.Proof.KernelAccum

noncomputable section

namespace Cert.KernelIdeal.Value

open Idealize.ShloMosaic Idealize.ShloMosaic.TcCoe Idealize.SL.Sem Idealize.ShloMosaic.ValueIdx
open Idealize.ShloMosaic.Pipeline (Dat)
open Cert.KernelIdeal Cert.KernelIdeal.Gen Cert.SegMean

variable (m : (ℓ : Loc nD τ sig) → Buf (Elt Ideal) ℓ) (ρ : Dev nD → PrngReg)

/-! ## The two result windows: what a flushing point writes, the cover, the arrays after the last point -/

namespace Final

/-- The block index of the feature window at grid point t, decided over the grid: block t / 4 along the batch
    axis, block 0 along the channel and class axes. -/
theorem idx2 : ∀ t : Fin cfg0.N, win0_2.index t (0 : Fin 3) = t.val / 4 ∧ win0_2.index t (1 : Fin 3) = 0 ∧ win0_2.index t (2 : Fin 3) = 0 :=
  (by decide +kernel : ∀ t : Fin grid0.N, _)

/-- The same for the mask window. -/
theorem idx3 : ∀ t : Fin cfg0.N, win0_3.index t (0 : Fin 3) = t.val / 4 ∧ win0_3.index t (1 : Fin 3) = 0 ∧ win0_3.index t (2 : Fin 3) = 0 :=
  (by decide +kernel : ∀ t : Fin grid0.N, _)

/-- The [8, 1, 24] array the kernel writes its mask into: the mask with a unit middle axis. -/
def mask3 (Lb : SLabel.Idx → BitVec 32) : S8x1x24.Idx → EReal := fun i => mask Lb (ix2 (i 0) (i 2))

/-- What the last tile of a batch writes back into the feature array is that batch's block of feat: entry
    (0, ch, n) of block t / 4 is entry (t / 4, ch, n) of the array. -/
theorem flushed2_eq (hD : ∀ (c : Dev nD) i, ∃ r : ℝ, dataArr m c i = (r : EReal)) (c : Dev nD) (t : Fin cfg0.N)
    (hf : (cfg0.win 2).flush t = true) :
    (dats m 0 c).flushed 2 t = ((cfg0.win 2).blk t).view.read (Elt Ideal) (feat (dataArr m c) (labelArr m c)) := by
  show (cfg0.win 2).cut (grid0.coords t) ((dats m 0 c).after 2 t) = _
  rw [after0_2, out2_at_flush m hD c t ((flush0_2 t).mp hf)]
  funext y
  rw [View.read_apply]
  show feat (dataArr m c) (labelArr m c) _ = feat (dataArr m c) (labelArr m c) (((cfg0.win 2).blk t).view.emb y)
  refine congrArg (feat (dataArr m c) (labelArr m c)) ?_
  obtain ⟨e0, e1, e2⟩ := idx2 t
  have h0 : (y 0).val < 1 := (y 0).isLt
  funext a
  apply Fin.ext
  match a with
  | ⟨0, _⟩ => show t.val / 4 = win0_2.index t (0 : Fin 3) * 1 + 1 * (y 0).val; rw [e0]; omega
  | ⟨1, _⟩ => show (y 1).val = win0_2.index t (1 : Fin 3) * 128 + 1 * (y 1).val; rw [e1]; omega
  | ⟨2, _⟩ => show (y 2).val = win0_2.index t (2 : Fin 3) * 24 + 1 * (y 2).val; rw [e2]; omega

/-- Likewise the mask window: the last tile of a batch writes that batch's row of the mask. -/
theorem flushed3_eq (c : Dev nD) (t : Fin cfg0.N) (hf : (cfg0.win 3).flush t = true) :
    (dats m 0 c).flushed 3 t = ((cfg0.win 3).blk t).view.read (Elt Ideal) (mask3 (labelArr m c)) := by
  show (cfg0.win 3).cut (grid0.coords t) ((dats m 0 c).after 3 t) = _
  rw [after0_3, out3_at_flush m c t ((flush0_3 t).mp hf)]
  funext y
  rw [View.read_apply]
  show mask (labelArr m c) _ = mask (labelArr m c) (ix2 ((((cfg0.win 3).blk t).view.emb y) 0) ((((cfg0.win 3).blk t).view.emb y) 2))
  refine congrArg (mask (labelArr m c)) ?_
  obtain ⟨e0, e1, e2⟩ := idx3 t
  have h0 : (y 0).val < 1 := (y 0).isLt
  funext a
  apply Fin.ext
  match a with
  | ⟨0, _⟩ => show t.val / 4 = win0_3.index t (0 : Fin 3) * 1 + 1 * (y 0).val; rw [e0]; omega
  | ⟨1, _⟩ => show (y 2).val = win0_3.index t (2 : Fin 3) * 24 + 1 * (y 2).val; rw [e2]; omega

/-- Every entry (b, ch, n) of the feature array lies in the block the last tile of batch b writes: grid point 4 b + 3. -/
theorem cover2 (i : S8x128x24.Idx) :
    ∃ t : Fin cfg0.N, (cfg0.win 2).flush t = true ∧ i ∈ ((cfg0.win 2).blk t).view.set := by
  have hN : cfg0.N = 32 := N_0
  have hi0 : (i 0).val < 8 := (i 0).isLt
  have hi1 : (i 1).val < 128 := (i 1).isLt
  have hi2 : (i 2).val < 24 := (i 2).isLt
  have ht : 4 * (i 0).val + 3 < cfg0.N := by rw [hN]; omega
  refine ⟨⟨4 * (i 0).val + 3, ht⟩, (flush0_2 _).mpr (by show (4 * (i 0).val + 3) % 4 = 3; omega), ?_⟩
  show i ∈ ((View.whole main_v3_0).slice (win0_2.rect ⟨4 * (i 0).val + 3, ht⟩)).set
  rw [View.set_slice_whole, Rect.mem_set_unit]
  obtain ⟨e0, e1, e2⟩ := idx2 ⟨4 * (i 0).val + 3, ht⟩
  have e0' : win0_2.index ⟨4 * (i 0).val + 3, ht⟩ (0 : Fin 3) = (i 0).val := by rw [e0]; show (4 * (i 0).val + 3) / 4 = _; omega
  intro a
  match a with
  | ⟨0, _⟩ =>
    show win0_2.index ⟨4 * (i 0).val + 3, ht⟩ (0 : Fin 3) * 1 ≤ (i 0).val ∧ (i 0).val < win0_2.index ⟨4 * (i 0).val + 3, ht⟩ (0 : Fin 3) * 1 + 1
    rw [e0']; omega
  | ⟨1, _⟩ =>
    show win0_2.index ⟨4 * (i 0).val + 3, ht⟩ (1 : Fin 3) * 128 ≤ (i 1).val ∧ (i 1).val < win0_2.index ⟨4 * (i 0).val + 3, ht⟩ (1 : Fin 3) * 128 + 128
    rw [e1]; omega
  | ⟨2, _⟩ =>
    show win0_2.index ⟨4 * (i 0).val + 3, ht⟩ (2 : Fin 3) * 24 ≤ (i 2).val ∧ (i 2).val < win0_2.index ⟨4 * (i 0).val + 3, ht⟩ (2 : Fin 3) * 24 + 24
    rw [e2]; omega

/-- The same for the [8, 1, 24] mask array. -/
theorem cover3 (i : S8x1x24.Idx) :
    ∃ t : Fin cfg0.N, (cfg0.win 3).flush t = true ∧ i ∈ ((cfg0.win 3).blk t).view.set := by
  have hN : cfg0.N = 32 := N_0
  have hi0 : (i 0).val < 8 := (i 0).isLt
  have hi1 : (i 1).val < 1 := (i 1).isLt
  have hi2 : (i 2).val < 24 := (i 2).isLt
  have ht : 4 * (i 0).val + 3 < cfg0.N := by rw [hN]; omega
  refine ⟨⟨4 * (i 0).val + 3, ht⟩, (flush0_3 _).mpr (by show (4 * (i 0).val + 3) % 4 = 3; omega), ?_⟩
  show i ∈ ((View.whole main_v3_1).slice (win0_3.rect ⟨4 * (i 0).val + 3, ht⟩)).set
  rw [View.set_slice_whole, Rect.mem_set_unit]
  obtain ⟨e0, e1, e2⟩ := idx3 ⟨4 * (i 0).val + 3, ht⟩
  have e0' : win0_3.index ⟨4 * (i 0).val + 3, ht⟩ (0 : Fin 3) = (i 0).val := by rw [e0]; show (4 * (i 0).val + 3) / 4 = _; omega
  intro a
  match a with
  | ⟨0, _⟩ =>
    show win0_3.index ⟨4 * (i 0).val + 3, ht⟩ (0 : Fin 3) * 1 ≤ (i 0).val ∧ (i 0).val < win0_3.index ⟨4 * (i 0).val + 3, ht⟩ (0 : Fin 3) * 1 + 1
    rw [e0']; omega
  | ⟨1, _⟩ =>
    show win0_3.index ⟨4 * (i 0).val + 3, ht⟩ (1 : Fin 3) * 1 ≤ (i 1).val ∧ (i 1).val < win0_3.index ⟨4 * (i 0).val + 3, ht⟩ (1 : Fin 3) * 1 + 1
    rw [e1]; omega
  | ⟨2, _⟩ =>
    show win0_3.index ⟨4 * (i 0).val + 3, ht⟩ (2 : Fin 3) * 24 ≤ (i 2).val ∧ (i 2).val < win0_3.index ⟨4 * (i 0).val + 3, ht⟩ (2 : Fin 3) * 24 + 24
    rw [e2]; omega

/-- The eight blocks tile the feature array, so after the last grid point it holds feat. -/
theorem final2 (hD : ∀ (c : Dev nD) i, ∃ r : ℝ, dataArr m c i = (r : EReal)) (c : Dev nD) :
    (dats m 0 c).arrAt 2 cfg0.N = feat (dataArr m c) (labelArr m c) :=
  (dats m 0 c).arrAt_eq_of_cover 2 (feat (dataArr m c) (labelArr m c)) (flushed2_eq m hD c) cover2

/-- And the [8, 1, 24] array holds the mask with a unit middle axis. -/
theorem final3 (c : Dev nD) : (dats m 0 c).arrAt 3 cfg0.N = mask3 (labelArr m c) :=
  (dats m 0 c).arrAt_eq_of_cover 3 (mask3 (labelArr m c)) (flushed3_eq m c) cover3

/-- The reshape [8, 1, 24] → [8, 24] read at (b, n): entry (b, 0, n), both at row-major position 24 b + n. -/
theorem dropUnit_apply (x : S8x1x24.Idx → EReal) (h : S8x1x24.ShapeCasts S8x24) (b : Fin 8) (n : Fin 24) :
    shapeCast S8x24 x h (ix2 b n) = x (ix3 b 0 n) := by
  unfold shapeCast
  refine congrArg x (Shape.reshapeEquiv_eq_of_rowMajor _ ?_)
  rw [Shape.rowMajor_val_three, Shape.rowMajor_val_two]
  show (b.val * 1 + 0) * 24 + n.val = b.val * 24 + n.val
  omega

/-- The host reshape after the kernel drops the unit axis of the [8, 1, 24] array, which holds the mask with that
    axis: the second result is the mask. -/
theorem tail_v4 (c : Dev nD) :
    Pipeline.afterTail₀ cfgs (dats m) 0 (V0 m) [hostOps1] c main_v4 = mask (labelArr m c) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3_1)
      = mask3 (labelArr m c) :=
    (Pipeline.withArrays_arr spec0 launch0.win.arr_inj c _ _ 3).trans (final3 m c)
  rw [e]
  funext k
  obtain ⟨b, n, rfl⟩ : ∃ b n, k = ix2 b n := ⟨k 0, k 1, eq_ix2 k⟩
  show shapeCast S8x24 (mask3 (labelArr m c)) shapeCasts_S8x1x24_S8x24 (ix2 b n) = mask (labelArr m c) (ix2 b n)
  rw [dropUnit_apply]
  rfl

end Final

/-- Every weakly fair execution of the kernel program terminates with the first result at `feat`, the second at
    `mask` of the argument arrays, and the arguments unchanged. -/
theorem run (hD : ∀ (c : Dev nD) i, ∃ r : ℝ, dataArr m c i = (r : EReal)) :
    θ_run defs (onTc (τ := τ) (main (F := Ideal))) ⟨m, fun _ => 0, ρ⟩ fun r => ∀ c : Dev nD,
      r.2.mem ((c.tc : Thread nD τ).loc main_v3_0) = feat (dataArr m c) (labelArr m c)
      ∧ r.2.mem ((c.tc : Thread nD τ).loc main_v4) = mask (labelArr m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_, ?_⟩) (run_main m ρ)
  · -- the first result is the feature window's array
    exact ((h c).1 2).trans (Final.final2 m hD c)
  · -- the second result is no window's array: it is what the host reshape leaves
    exact ((h c).2 main_v4 (Pipeline.mem_restRefs_of main_v4 (by decide) (by decide))).trans (Final.tail_v4 m c)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.KernelIdeal.Value

end
-- ==== Proof.lean ====
/-
  The kernel and its reference compute the same per-class mean features and the same occupancy mask.

  For batch b and class n < 24 let P(b, n) be the full-resolution pixels (i, j) of batch b whose label is n. Both
  programs return
      feat[b, c, n] = (Σ over P(b, n) of data[b, c, i / 4, j / 4]) / (|P(b, n)| + eps),    mask[b, n] = [ |P(b, n)| > 0 ],
  with eps the same f32 word (the one nearest 1e-8) on both sides, the quotient and the comparison the same functions of
  the extended reals on both sides.

  The reference upsamples the data by a gather at (i / 4, j / 4), zeroes the rows of pixels labelled -1, and
  scatter-adds each pixel's row into segment 24·b + label (an ignored pixel into 24·b, with a zero row and a zero
  count). That this is P(b, n)'s sum needs every label to be -1 or a class 0 … 23 — otherwise a pixel lands in
  another batch's segment — which is the precondition's second conjunct (the first: the data is finite).

  The kernel never upsamples: per tile of 32 low-resolution rows it counts, for each low-resolution pixel, how many
  of its 4 × 4 sub-pixels carry each class, multiplies the data tile by these counts, and adds the products over
  the four tiles of a batch. A data entry times its hit count is the entry added once per hit, and the (tile,
  low-resolution pixel, sub-pixel) triples are exactly the pixels of the batch; so the totals after the fourth tile
  are P(b, n)'s sum and size, and the last tile writes their quotient and the mask.

  The three runs terminate without fault and leave the arguments unchanged: the two kernel programs by the
  generated frame proofs, the reference by its run, a straight line of host operations.
-/
import proofs.«404461_j37237366456700_3_alg».proof.Defs
import proofs.«404461_j37237366456700_3_alg».proof.Proof.Gen.Kernel
import proofs.«404461_j37237366456700_3_alg».proof.Proof.Gen.Kernel.Frame
import proofs.«404461_j37237366456700_3_alg».proof.Proof.Gen.KernelIdeal
import proofs.«404461_j37237366456700_3_alg».proof.Proof.Gen.KernelIdeal.Frame
import proofs.«404461_j37237366456700_3_alg».proof.Proof.Gen.ReferenceIdeal
import proofs.«404461_j37237366456700_3_alg».proof.Proof.Gen.Pre_finite_inputs
import proofs.«404461_j37237366456700_3_alg».proof.Proof.PreDecode
import proofs.«404461_j37237366456700_3_alg».proof.Proof.RefRun
import proofs.«404461_j37237366456700_3_alg».proof.Proof.RefValue
import proofs.«404461_j37237366456700_3_alg».proof.Proof.KernelFinal
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference runs and leaves its arguments unchanged: its run, the two results dropped. -/
theorem frame_ri : Cert.frame_ReferenceIdeal := fun m ρ _ =>
  (θ_run Cert.ReferenceIdeal.defs _ _).mono (fun _ h c => (h c).2.2)
    (Cert.ReferenceIdeal.Run.run (F := Ideal) m ρ)

/-- No operation of the kernel was rewritten for reading it over the extended reals. -/
theorem preserves : Cert.preserves_Kernel_KernelIdeal := trivial

/-- From memories that agree on the arguments, with finite data and labels in [-1, 24), both programs end at the
    specification's `feat` and `mask` of the arguments. -/
theorem algebraic : Cert.algebraic_KernelIdeal_ReferenceIdeal := by
  intro m ρ m' ρ' hpre hagree
  have hD : ∀ (c : Dev Cert.KernelIdeal.nD) i, ∃ r : ℝ, Cert.KernelIdeal.Value.dataArr m c i = (r : EReal) :=
    fun c => Cert.PreDecode.finite_of_pre _ _ (hpre c)
  have hL : ∀ (c : Dev Cert.KernelIdeal.nD) i,
      (-1 : ℤ) ≤ (Cert.KernelIdeal.Value.labelArr m c i).toInt ∧ (Cert.KernelIdeal.Value.labelArr m c i).toInt < 24 :=
    fun c => Cert.PreDecode.range_of_pre _ _ (hpre c)
  refine ⟨fun c => Cert.SegMean.feat (Cert.KernelIdeal.Value.dataArr m c) (Cert.KernelIdeal.Value.labelArr m c),
    fun c => Cert.SegMean.mask (Cert.KernelIdeal.Value.labelArr m c), Cert.KernelIdeal.Value.run m ρ hD, ?_⟩
  refine (θ_run Cert.ReferenceIdeal.defs _ _).mono (fun _ h c => ?_) (Cert.ReferenceIdeal.Run.run (F := Ideal) m' ρ')
  obtain ⟨h1, h2, h3, h4⟩ := h c
  refine ⟨h1.trans ?_, h2.trans ?_, h3, h4⟩
  · rw [(hagree c).1, (hagree c).2]
    exact Cert.ReferenceIdeal.Value.featTerm_eq _ _ (hL c)
  · rw [(hagree c).2]
    exact Cert.ReferenceIdeal.Value.maskTerm_eq _ (hL c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
